-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "neg_big" .f32 0xFF333332#32 ⊥
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S19x32x256 : Shape := ⟨3, ![19, 32, 256]⟩
abbrev S19x32 : Shape := ⟨2, ![19, 32]⟩
abbrev S19x2048x256 : Shape := ⟨3, ![19, 2048, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S19x32x256 : S_.BroadcastsInDim S19x32x256 (![] : Fin 0 → Fin S19x32x256.rank)
  reducesTo_S19x32x256_S_d0_1_2 : S19x32x256.ReducesTo [0, 1, 2] S_
  bcast_S_S19x2048x256 : S_.BroadcastsInDim S19x2048x256 (![] : Fin 0 → Fin S19x2048x256.rank)
  reducesTo_S19x2048x256_S_d0_1_2 : S19x2048x256.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg1 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x256 .f32) (main_arg1 : IVec S4096 32) (main_arg2 : FVec F S19x32x256 .f32) (main_arg3 : IVec S19x32 32) (main_arg4 : FVec F S19x2048x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S19x32x256 .f32 := Host.absf main_arg2
  let main_cst_0 : FVec F S_ .f32 := constant S_ .f32 0x7F800000#32
  let main_v5 : FVec F S19x32x256 .f32 := broadcastInDim S19x32x256 ![] bcast_S_S19x32x256 main_cst_0
  let main_v6 : IVec S19x32x256 1 := cmpf .olt main_v4 main_v5
  let main_c_1 : IVec S_ 1 := constantI S_ 1 1#1
  let main_v7 : IVec S_ 1 := (fun x v => Host.reduce IntOp.andi x v reducesTo_S19x32x256_S_d0_1_2 h_S_) main_v6 main_c_1
  let main_v8 : IVec S_ 1 := andi main_v3 main_v7
  let main_v9 : FVec F S19x2048x256 .f32 := Host.absf main_arg4
  let main_cst_2 : FVec F S_ .f32 := constant S_ .f32 0x7F800000#32
  let main_v10 : FVec F S19x2048x256 .f32 := broadcastInDim S19x2048x256 ![] bcast_S_S19x2048x256 main_cst_2
  let main_v11 : IVec S19x2048x256 1 := cmpf .olt main_v9 main_v10
  let main_c_3 : IVec S_ 1 := constantI S_ 1 1#1
  let main_v12 : IVec S_ 1 := (fun x v => Host.reduce IntOp.andi x v reducesTo_S19x2048x256_S_d0_1_2 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 32 := constantI S_ 32 19#32
  fn_part1 (F := F) main_arg1 main_v13 main_v15 main_c_5
-- ==== Kernel.lean ====
abbrev S4096x256 : Shape := ⟨2, ![4096, 256]⟩
abbrev S4096 : Shape := ⟨1, ![4096]⟩
abbrev S19x32x256 : Shape := ⟨3, ![19, 32, 256]⟩
abbrev S19x32 : Shape := ⟨2, ![19, 32]⟩
abbrev S19x2048x256 : Shape := ⟨3, ![19, 2048, 256]⟩
abbrev S608x256 : Shape := ⟨2, ![608, 256]⟩
abbrev S19 : Shape := ⟨1, ![19]⟩
abbrev S608 : Shape := ⟨1, ![608]⟩
abbrev S_ : Shape := ⟨0, ![]⟩
abbrev S640x256 : Shape := ⟨2, ![640, 256]⟩
abbrev S640 : Shape := ⟨1, ![640]⟩
abbrev S1x640 : Shape := ⟨2, ![1, 640]⟩
abbrev S4096x1 : Shape := ⟨2, ![4096, 1]⟩
abbrev S1x19 : Shape := ⟨2, ![1, 19]⟩
abbrev S4096x19 : Shape := ⟨2, ![4096, 19]⟩
abbrev S1 : Shape := ⟨1, ![1]⟩
abbrev S18 : Shape := ⟨1, ![18]⟩
abbrev S8960x256 : Shape := ⟨2, ![8960, 256]⟩
abbrev S8960 : Shape := ⟨1, ![8960]⟩
abbrev S8960x1 : Shape := ⟨2, ![8960, 1]⟩
abbrev S35 : Shape := ⟨1, ![35]⟩
abbrev S19x1 : Shape := ⟨2, ![19, 1]⟩
abbrev S35x1 : Shape := ⟨2, ![35, 1]⟩
abbrev S1x1 : Shape := ⟨2, ![1, 1]⟩
abbrev S256x256 : Shape := ⟨2, ![256, 256]⟩
abbrev S256x1 : Shape := ⟨2, ![256, 1]⟩
abbrev S1x2048x256 : Shape := ⟨3, ![1, 2048, 256]⟩
abbrev S256x640 : Shape := ⟨2, ![256, 640]⟩
abbrev S256 : Shape := ⟨1, ![256]⟩
abbrev S1x1024x256 : Shape := ⟨3, ![1, 1024, 256]⟩
abbrev S1024x256 : Shape := ⟨2, ![1024, 256]⟩
abbrev S256x1024 : Shape := ⟨2, ![256, 1024]⟩

abbrev nBuf : Space → Nat
  | .hbm => 169
  | .vmem => 11
  | .smem => 1
  | _ => 0

abbrev hbmTy0_0 (i : Nat) : BufTy := match i % 128 with
  | 0 => ⟨S4096x256, .f32⟩
  | 1 => ⟨S4096, .i32⟩
  | 2 => ⟨S19x32x256, .f32⟩
  | 3 => ⟨S19x32, .i32⟩
  | 4 => ⟨S19x2048x256, .f32⟩
  | 5 => ⟨S608x256, .f32⟩
  | 6 => ⟨S19, .i32⟩
  | 7 => ⟨S19x32, .i32⟩
  | 8 => ⟨S608, .i32⟩
  | 9 => ⟨S608, .i32⟩
  | 10 => ⟨S_, .i32⟩
  | 11 => ⟨S_, .f32⟩
  | 12 => ⟨S640x256, .f32⟩
  | 13 => ⟨S640x256, .bf16⟩
  | 14 => ⟨S_, .i32⟩
  | 15 => ⟨S_, .i32⟩
  | 16 => ⟨S640, .i32⟩
  | 17 => ⟨S_, .i32⟩
  | 18 => ⟨S_, .i32⟩
  | 19 => ⟨S640, .i32⟩
  | 20 => ⟨S1x640, .i32⟩
  | 21 => ⟨S1x640, .i32⟩
  | 22 => ⟨S4096x1, .i32⟩
  | 23 => ⟨S19, .i32⟩
  | 24 => ⟨S1x19, .i32⟩
  | 25 => ⟨S4096x19, .i32⟩
  | 26 => ⟨S4096x19, .i32⟩
  | 27 => ⟨S4096x19, .i1⟩
  | 28 => ⟨S4096x19, .i32⟩
  | 29 => ⟨S_, .i32⟩
  | 30 => ⟨S19, .i32⟩
  | 31 => ⟨S_, .i32⟩
  | 32 => ⟨S19, .i32⟩
  | 33 => ⟨S19, .i32⟩
  | 34 => ⟨S_, .i32⟩
  | 35 => ⟨S19, .i32⟩
  | 36 => ⟨S19, .i32⟩
  | 37 => ⟨S_, .i32⟩
  | 38 => ⟨S_, .i32⟩
  | 39 => ⟨S19, .i32⟩
  | 40 => ⟨S19, .i32⟩
  | 41 => ⟨S19, .i32⟩
  | 42 => ⟨S_, .i32⟩
  | 43 => ⟨S19, .i32⟩
  | 44 => ⟨S19, .i1⟩
  | 45 => ⟨S19, .i32⟩
  | 46 => ⟨S19, .i32⟩
  | 47 => ⟨S_, .i32⟩
  | 48 => ⟨S19, .i32⟩
  | 49 => ⟨S19, .i1⟩
  | 50 => ⟨S19, .i1⟩
  | 51 => ⟨S_, .i32⟩
  | 52 => ⟨S19, .i32⟩
  | 53 => ⟨S19, .i32⟩
  | 54 => ⟨S19, .i32⟩
  | 55 => ⟨S_, .i32⟩
  | 56 => ⟨S19, .i32⟩
  | 57 => ⟨S19, .i32⟩
  | 58 => ⟨S_, .i32⟩
  | 59 => ⟨S1, .i32⟩
  | 60 => ⟨S_, .i32⟩
  | 61 => ⟨S_, .i32⟩
  | 62 => ⟨S19, .i32⟩
  | 63 => ⟨S18, .i32⟩
  | 64 => ⟨S19, .i32⟩
  | 65 => ⟨S_, .i32⟩
  | 66 => ⟨S_, .i32⟩
  | 67 => ⟨S4096x19, .i32⟩
  | 68 => ⟨S_, .i32⟩
  | 69 => ⟨S4096x19, .i32⟩
  | 70 => ⟨S4096x19, .i32⟩
  | 71 => ⟨S4096x19, .i32⟩
  | 72 => ⟨S_, .i32⟩
  | 73 => ⟨S4096, .i32⟩
  | 74 => ⟨S1x19, .i32⟩
  | 75 => ⟨S4096x19, .i32⟩
  | 76 => ⟨S4096x19, .i32⟩
  | 77 => ⟨S_, .i32⟩
  | 78 => ⟨S4096, .i32⟩
  | 79 => ⟨S4096, .i32⟩
  | 80 => ⟨S_, .f32⟩
  | 81 => ⟨S8960x256, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S8960x256, .f32⟩
  | 91 => ⟨S8960x256, .bf16⟩
  | 92 => ⟨S_, .i32⟩
  | 93 => ⟨S8960, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S8960, .i32⟩
  | 103 => ⟨S8960x1, .i32⟩
  | 104 => ⟨S19, .i32⟩
  | 105 => ⟨S1, .i32⟩
  | 106 => ⟨S18, .i32⟩
  | 107 => ⟨S19, .i32⟩
  | 108 => ⟨S_, .i32⟩
  | 109 => ⟨S1, .i32⟩
  | 110 => ⟨S_, .i32⟩
  | 111 => ⟨S19, .i32⟩
  | 112 => ⟨S_, .i32⟩
  | 113 => ⟨S_, .i32⟩
  | 114 => ⟨S19, .i32⟩
  | 115 => ⟨S_, .i32⟩
  | 116 => ⟨S35, .i32⟩
  | 117 => ⟨S_, .i32⟩
  | 118 => ⟨S19, .i32⟩
  | 119 => ⟨S19, .i1⟩
  | 120 => ⟨S_, .i32⟩
  | 121 => ⟨S19, .i32⟩
  | 122 => ⟨S19, .i32⟩
  | 123 => ⟨S19, .i32⟩
  | 124 => ⟨S19x1, .i32⟩
  | 125 => ⟨S_, .i32⟩
  | 126 => ⟨S19, .i32⟩
  | 127 => ⟨S35, .i32⟩
  | _ => ⟨S4096x256, .f32⟩

abbrev hbmTy0_1 (i : Nat) : BufTy := match i % 128 with
  | 0 => ⟨S_, .i32⟩
  | 1 => ⟨S_, .i32⟩
  | 2 => ⟨S35, .i32⟩
  | 3 => ⟨S_, .i32⟩
  | 4 => ⟨S35, .i32⟩
  | 5 => ⟨S35, .i32⟩
  | 6 => ⟨S_, .i32⟩
  | 7 => ⟨S35, .i32⟩
  | 8 => ⟨S35, .i1⟩
  | 9 => ⟨S_, .i32⟩
  | 10 => ⟨S35, .i32⟩
  | 11 => ⟨S35, .i32⟩
  | 12 => ⟨S35, .i32⟩
  | 13 => ⟨S35x1, .i32⟩
  | 14 => ⟨S1, .i32⟩
  | 15 => ⟨S_, .i32⟩
  | 16 => ⟨S35x1, .i32⟩
  | 17 => ⟨S35x1, .i1⟩
  | 18 => ⟨S1x1, .i32⟩
  | 19 => ⟨S35x1, .i32⟩
  | 20 => ⟨S35x1, .i1⟩
  | 21 => ⟨S35x1, .i1⟩
  | 22 => ⟨S_, .i1⟩
  | 23 => ⟨S35, .i1⟩
  | 24 => ⟨S35, .i32⟩
  | 25 => ⟨S_, .i32⟩
  | 26 => ⟨S35, .i32⟩
  | 27 => ⟨S35, .i32⟩
  | 28 => ⟨S_, .i32⟩
  | 29 => ⟨S_, .i32⟩
  | 30 => ⟨S_, .i32⟩
  | 31 => ⟨S35, .i32⟩
  | 32 => ⟨S35, .i32⟩
  | 33 => ⟨S_, .i32⟩
  | 34 => ⟨S35, .i32⟩
  | 35 => ⟨S19x2048x256, .bf16⟩
  | 36 => ⟨S8960x1, .f32⟩
  | 37 => ⟨S_, .f32⟩
  | 38 => ⟨S_, .f32⟩
  | 39 => ⟨S_, .f32⟩
  | 40 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S256x1, .i32⟩
  | .local _ .vmem, ⟨3, _⟩ => ⟨S256x1, .i32⟩
  | .local _ .vmem, ⟨4, _⟩ => ⟨S640x256, .bf16⟩
  | .local _ .vmem, ⟨5, _⟩ => ⟨S1x640, .i32⟩
  | .local _ .vmem, ⟨6, _⟩ => ⟨S1x640, .i32⟩
  | .local _ .vmem, ⟨7, _⟩ => ⟨S1x2048x256, .bf16⟩
  | .local _ .vmem, ⟨8, _⟩ => ⟨S1x2048x256, .bf16⟩
  | .local _ .vmem, ⟨9, _⟩ => ⟨S256x1, .f32⟩
  | .local _ .vmem, ⟨10, _⟩ => ⟨S256x1, .f32⟩
  | .local _ .smem, ⟨0, _⟩ => ⟨S35, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_c : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_0 : Ref sig .tc := ⟨.hbm, 51, rfl⟩
abbrev main_call3_v12 : Ref sig .tc := ⟨.hbm, 52, rfl⟩
abbrev main_call3_v13 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_call4_call0_c : Ref sig .tc := ⟨.hbm, 60, rfl⟩
abbrev main_call4_call0_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call5_call0_c : Ref sig .tc := ⟨.hbm, 65, rfl⟩
abbrev main_call5_call0_v0 : Ref sig .tc := ⟨.hbm, 66, rfl⟩
abbrev main_v30 : Ref sig .tc := ⟨.hbm, 67, rfl⟩
abbrev main_c_8 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_9 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_v38 : Ref sig .tc := ⟨.hbm, 78, rfl⟩
abbrev main_v39 : Ref sig .tc := ⟨.hbm, 79, rfl⟩
abbrev main_cst : Ref sig .tc := ⟨.hbm, 80, rfl⟩
abbrev main_v40 : Ref sig .tc := ⟨.hbm, 81, rfl⟩
abbrev main_c_11 : Ref sig .tc := ⟨.hbm, 82, rfl⟩
abbrev main_v41 : Ref sig .tc := ⟨.hbm, 83, rfl⟩
abbrev main_v42 : Ref sig .tc := ⟨.hbm, 84, rfl⟩
abbrev main_c_12 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_13 : Ref sig .tc := ⟨.hbm, 92, rfl⟩
abbrev main_v49 : Ref sig .tc := ⟨.hbm, 93, rfl⟩
abbrev main_c_14 : Ref sig .tc := ⟨.hbm, 94, rfl⟩
abbrev main_v50 : Ref sig .tc := ⟨.hbm, 95, rfl⟩
abbrev main_v51 : Ref sig .tc := ⟨.hbm, 96, rfl⟩
abbrev main_c_15 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call6_v0 : Ref sig .tc := ⟨.hbm, 105, rfl⟩
abbrev main_call6_v1 : Ref sig .tc := ⟨.hbm, 106, rfl⟩
abbrev main_v59 : Ref sig .tc := ⟨.hbm, 107, rfl⟩
abbrev main_c_16 : Ref sig .tc := ⟨.hbm, 108, rfl⟩
abbrev main_v60 : Ref sig .tc := ⟨.hbm, 109, rfl⟩
abbrev main_c_17 : Ref sig .tc := ⟨.hbm, 110, rfl⟩
abbrev main_v61 : Ref sig .tc := ⟨.hbm, 111, rfl⟩
abbrev main_call7_call0_c : Ref sig .tc := ⟨.hbm, 112, rfl⟩
abbrev main_call7_call0_v0 : Ref sig .tc := ⟨.hbm, 113, rfl⟩
abbrev main_v62 : Ref sig .tc := ⟨.hbm, 114, rfl⟩
abbrev main_c_18 : Ref sig .tc := ⟨.hbm, 115, rfl⟩
abbrev main_v63 : Ref sig .tc := ⟨.hbm, 116, rfl⟩
abbrev main_c_19 : Ref sig .tc := ⟨.hbm, 117, rfl⟩
abbrev main_v64 : Ref sig .tc := ⟨.hbm, 118, rfl⟩
abbrev main_v65 : Ref sig .tc := ⟨.hbm, 119, rfl⟩
abbrev main_c_20 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_21 : Ref sig .tc := ⟨.hbm, 125, rfl⟩
abbrev main_v70 : Ref sig .tc := ⟨.hbm, 126, rfl⟩
abbrev main_v71 : Ref sig .tc := ⟨.hbm, 127, rfl⟩
abbrev main_call8_call0_c : Ref sig .tc := ⟨.hbm, 128, rfl⟩
abbrev main_call8_call0_v0 : Ref sig .tc := ⟨.hbm, 129, rfl⟩
abbrev main_v72 : Ref sig .tc := ⟨.hbm, 130, rfl⟩
abbrev main_c_22 : Ref sig .tc := ⟨.hbm, 131, rfl⟩
abbrev main_v73 : Ref sig .tc := ⟨.hbm, 132, rfl⟩
abbrev main_v74 : Ref sig .tc := ⟨.hbm, 133, rfl⟩
abbrev main_call9_c : Ref sig .tc := ⟨.hbm, 134, rfl⟩
abbrev main_call9_v0 : Ref sig .tc := ⟨.hbm, 135, rfl⟩
abbrev main_call9_v1 : Ref sig .tc := ⟨.hbm, 136, rfl⟩
abbrev main_call9_c_0 : Ref sig .tc := ⟨.hbm, 137, rfl⟩
abbrev main_call9_v2 : Ref sig .tc := ⟨.hbm, 138, rfl⟩
abbrev main_call9_v3 : Ref sig .tc := ⟨.hbm, 139, rfl⟩
abbrev main_call9_v4 : Ref sig .tc := ⟨.hbm, 140, rfl⟩
abbrev main_call9_v5 : Ref sig .tc := ⟨.hbm, 141, rfl⟩
abbrev main_call9_c_1 : Ref sig .tc := ⟨.hbm, 142, rfl⟩
abbrev main_call9_c_2 : Ref sig .tc := ⟨.hbm, 143, rfl⟩
abbrev main_call9_v6 : Ref sig .tc := ⟨.hbm, 144, rfl⟩
abbrev main_call9_v7 : Ref sig .tc := ⟨.hbm, 145, rfl⟩
abbrev main_call9_v8 : Ref sig .tc := ⟨.hbm, 146, rfl⟩
abbrev main_call9_v9 : Ref sig .tc := ⟨.hbm, 147, rfl⟩
abbrev main_call9_v10 : Ref sig .tc := ⟨.hbm, 148, rfl⟩
abbrev main_call9_v11 : Ref sig .tc := ⟨.hbm, 149, rfl⟩
abbrev main_call9_c_3 : Ref sig .tc := ⟨.hbm, 150, rfl⟩
abbrev main_call9_v12 : Ref sig .tc := ⟨.hbm, 151, rfl⟩
abbrev main_call9_v13 : Ref sig .tc := ⟨.hbm, 152, rfl⟩
abbrev main_call9_c_4 : Ref sig .tc := ⟨.hbm, 153, rfl⟩
abbrev main_call9_v14 : Ref sig .tc := ⟨.hbm, 154, rfl⟩
abbrev main_v75 : Ref sig .tc := ⟨.hbm, 155, rfl⟩
abbrev main_c_23 : Ref sig .tc := ⟨.hbm, 156, rfl⟩
abbrev main_c_24 : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_call10_v3 : Ref sig .tc := ⟨.hbm, 161, rfl⟩
abbrev main_call10_v4 : Ref sig .tc := ⟨.hbm, 162, rfl⟩
abbrev main_v77 : Ref sig .tc := ⟨.hbm, 163, rfl⟩
abbrev main_v78 : Ref sig .tc := ⟨.hbm, 164, rfl⟩
abbrev main_cst_25 : Ref sig .tc := ⟨.hbm, 165, rfl⟩
abbrev main_v79 : Ref sig .tc := ⟨.hbm, 166, rfl⟩
abbrev main_cst_26 : Ref sig .tc := ⟨.hbm, 167, rfl⟩
abbrev main_v80 : Ref sig .tc := ⟨.hbm, 168, rfl⟩
abbrev main_v76 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![35], ![false]⟩

abbrev pre0 : Pipeline.Prefetch sig := ⟨1, ![main_v76.idx], fun | 0 => main_v76.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_14 : BitVec 32 := 0#32
  let c2_i32 : BitVec 32 := 2#32
  let v37 : BitVec 32 := Scalar.addi c0_i32_14 c2_i32
  let c1_i32 : BitVec 32 := 1#32
  ⟨c0_i32_14, v37, c1_i32⟩
def k0_mult1 (k0_t1 : Fin k0_t1_loop.trips) : BitVec 32 :=
  let c0_i32_14 : BitVec 32 := 0#32
  let c1_i32 : BitVec 32 := 1#32
  let arg9 : BitVec 32 := Scf.iv c0_i32_14 c1_i32 k0_t1
  let c1024_i32 : BitVec 32 := 1024#32
  let v59 : BitVec 32 := Scalar.muli arg9 c1024_i32
  v59
def k0_off2 (k0_t1 : Fin k0_t1_loop.trips) : Fin 3 → Nat :=
  let c0_23 : Index := 0#32
  let c0_i32_14 : BitVec 32 := 0#32
  let c1_i32 : BitVec 32 := 1#32
  let arg9 : BitVec 32 := Scf.iv c0_i32_14 c1_i32 k0_t1
  let c1024_i32 : BitVec 32 := 1024#32
  let v59 : BitVec 32 := Scalar.muli arg9 c1024_i32
  let v60 : BitVec 32 := v59
  let v61 : Index := Scalar.indexCast v60
  let c0_24 : Index := 0#32
  ![0, v61.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S19x32x256_S608x256 : S19x32x256.ShapeCasts S608x256
  bcast_S19_S19x32_0 : S19.BroadcastsInDim S19x32 (![0] : Fin 1 → Fin S19x32.rank)
  shapeCasts_S19x32_S608 : S19x32.ShapeCasts S608
  pads_S608x256_S640x256_0320_000 : S608x256.Pads (![0, 0] : Fin 2 → Nat) ![32, 0] ![0, 0] S640x256
  h_S_ : 0 < S_.numel
  bitsLt_bf16_f32 : FTy.bits .bf16 < FTy.bits .f32
  pads_S608_S640_0320 : S608.Pads (![0] : Fin 1 → Nat) ![32] ![0] S640
  shapeCasts_S640_S1x640 : S640.ShapeCasts S1x640
  bcast_S4096_S4096x1_0 : S4096.BroadcastsInDim S4096x1 (![0] : Fin 1 → Fin S4096x1.rank)
  bcast_S19_S1x19_1 : S19.BroadcastsInDim S1x19 (![1] : Fin 1 → Fin S1x19.rank)
  bcast_S4096x1_S4096x19_0_1 : S4096x1.BroadcastsInDim S4096x19 (![0, 1] : Fin 2 → Fin S4096x19.rank)
  bcast_S1x19_S4096x19_0_1 : S1x19.BroadcastsInDim S4096x19 (![0, 1] : Fin 2 → Fin S4096x19.rank)
  natLt_1_32 : 1 < 32
  reducesTo_S4096x19_S19_d0 : S4096x19.ReducesTo [0] S19
  bcast_S_S19 : S_.BroadcastsInDim S19 (![] : Fin 0 → Fin S19.rank)
  bcast_S_S1 : S_.BroadcastsInDim S1 (![] : Fin 0 → Fin S1.rank)
  bcast_S_S_ : S_.BroadcastsInDim S_ (![] : Fin 0 → Fin S_.rank)
  reduceWindows_S19_S19_w19s1p18_0 : S19.ReduceWindows (![19] : Fin 1 → Nat) ![1] ![18] ![0] S19
  slices_S19_S18_0 : S19.Slices ![0] S18
  concatenates_S1_S18_S19_d0 : Shape.Concatenates [S1, S18] S19 0
  reduceWindows_S4096x19_S4096x19_w4096s1p4095_0_w1s1p0_0 : S4096x19.ReduceWindows (![4096, 1] : Fin 2 → Nat) ![1, 1] ![4095, 0] ![0, 0] S4096x19
  bcast_S_S4096x19 : S_.BroadcastsInDim S4096x19 (![] : Fin 0 → Fin S4096x19.rank)
  reducesTo_S4096x19_S4096_d1 : S4096x19.ReducesTo [1] S4096
  bcast_S_S8960x256 : S_.BroadcastsInDim S8960x256 (![] : Fin 0 → Fin S8960x256.rank)
  bcast_S_S4096 : S_.BroadcastsInDim S4096 (![] : Fin 0 → Fin S4096.rank)
  bcast_S_S8960 : S_.BroadcastsInDim S8960 (![] : Fin 0 → Fin S8960.rank)
  shapeCasts_S8960_S8960x1 : S8960.ShapeCasts S8960x1
  slices_S19_S1_18 : S19.Slices ![18] S1
  bcast_S_S35 : S_.BroadcastsInDim S35 (![] : Fin 0 → Fin S35.rank)
  bcast_S19_S19x1_0 : S19.BroadcastsInDim S19x1 (![0] : Fin 1 → Fin S19x1.rank)
  reduceWindows_S35_S35_w35s1p34_0 : S35.ReduceWindows (![35] : Fin 1 → Nat) ![1] ![34] ![0] S35
  bcast_S35_S35x1_0 : S35.BroadcastsInDim S35x1 (![0] : Fin 1 → Fin S35x1.rank)
  bcast_S_S35x1 : S_.BroadcastsInDim S35x1 (![] : Fin 0 → Fin S35x1.rank)
  bcast_S1_S1x1_1 : S1.BroadcastsInDim S1x1 (![1] : Fin 1 → Fin S1x1.rank)
  bcast_S1x1_S35x1_0_1 : S1x1.BroadcastsInDim S35x1 (![0, 1] : Fin 2 → Fin S35x1.rank)
  reducesTo_S35x1_S35_d1 : S35x1.ReducesTo [1] S35
  numel1_S1 : S1.numel = 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S256x640 : S1x640.Broadcasts S256x640
  reduces_S256x640_S256 : S256x640.Reduces [1] S256
  shapeCasts_S256_S256x1 : S256.ShapeCasts S256x1
  broadcasts_S256x1_S256x640 : S256x1.Broadcasts S256x640
  h_S1x1024x256 : 0 < S1x1024x256.numel
  shapeCasts_S1x1024x256_S1024x256 : S1x1024x256.ShapeCasts S1024x256
  broadcasts_S256x1_S256x1024 : S256x1.Broadcasts S256x1024
  reduces_S256x1024_S256 : S256x1024.Reduces [1] S256
  reducesTo_S8960x1_S_d0_1 : S8960x1.ReducesTo [0, 1] S_
  scatter_S8960x256_S4096x1_S4096x256_1_0_0_1_wf : ScatterDims.WF S8960x256 S4096x1 S4096x256 [1] [0] [0] 1
  scatter_S8960_S4096x1_S4096_n_0_0_1_wf : ScatterDims.WF S8960 S4096x1 S4096 [] [0] [0] 1
  scatter_S19_S1_S__n_0_0_0_wf : ScatterDims.WF S19 S1 S_ [] [0] [0] 0
  scatter_S35_S19x1_S19_n_0_0_1_wf : ScatterDims.WF S35 S19x1 S19 [] [0] [0] 1
  gather_S19_S35x1_S35_n_0_n_n_0_1_1_wf : GatherDims.WF S19 S35x1 S35 [] [0] [] [0] [] 1 ![1]
  dot_S256x256_S640x256_S256x640_1_1_0_0_n_n_wf : DotDims.WF S256x256 S640x256 S256x640 [1] [1] [0] [0] [] []
  dot_S256x256_S1024x256_S256x1024_1_1_0_0_n_n_wf : DotDims.WF S256x256 S1024x256 S256x1024 [1] [1] [0] [0] [] []
  hrank0 : 0 < grid0.rank
  k0_off1_inb : ∀ i : grid0.Coords, ∀ a, (k0_off1 i) a + S1.size a ≤ S35.size a
  k0_t1_ok : k0_t1_loop.OK
  k0_mult1_dvd : ∀ k0_t1 : Fin k0_t1_loop.trips, 1024 ∣ (k0_mult1 k0_t1).toNat
  k0_off2_inb : ∀ k0_t1 : Fin k0_t1_loop.trips, ∀ a, (k0_off2 k0_t1) a + S1x1024x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8960x256.size a
  hwx0_0 : ∀ i : grid0.Coords, EltTy.bits .bf16 = 32 ∨ (Rect.block (s := S8960x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8960x1.size a
  hwx0_1 : ∀ i : grid0.Coords, EltTy.bits .i32 = 32 ∨ (Rect.block (s := S8960x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x256.size a ≤ S640x256.size a
  hwx0_2 : ∀ i : grid0.Coords, EltTy.bits .bf16 = 32 ∨ (Rect.block (s := S640x256) S640x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x640.size a
  hwx0_3 : ∀ i : grid0.Coords, EltTy.bits .i32 = 32 ∨ (Rect.block (s := S1x640) S1x640.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .i32 = 32 ∨ (Rect.block (s := S1x640) S1x640.size (cc0_transform_4 i) (hinb0_4 i)).WholeWords (EltTy.packing .i32)
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8960x1.size a
  hwx0_6 : ∀ i : grid0.Coords, EltTy.bits .f32 = 32 ∨ (Rect.block (s := S8960x1) S256x1.size (cc0_transform_6 i) (hinb0_6 i)).WholeWords (EltTy.packing .f32)

variable [Facts₀]

def scatter_S8960x256_S4096x1_S4096x256_1_0_0_1 : ScatterDims S8960x256 S4096x1 S4096x256 where
  updateWindowDims := [1]
  insertedWindowDims := [0]
  scatterDimsToOperandDims := [0]
  indexVectorDim := 1
  wf := scatter_S8960x256_S4096x1_S4096x256_1_0_0_1_wf
def scatter_S8960_S4096x1_S4096_n_0_0_1 : ScatterDims S8960 S4096x1 S4096 where
  updateWindowDims := []
  insertedWindowDims := [0]
  scatterDimsToOperandDims := [0]
  indexVectorDim := 1
  wf := scatter_S8960_S4096x1_S4096_n_0_0_1_wf
def scatter_S19_S1_S__n_0_0_0 : ScatterDims S19 S1 S_ where
  updateWindowDims := []
  insertedWindowDims := [0]
  scatterDimsToOperandDims := [0]
  indexVectorDim := 0
  wf := scatter_S19_S1_S__n_0_0_0_wf
def scatter_S35_S19x1_S19_n_0_0_1 : ScatterDims S35 S19x1 S19 where
  updateWindowDims := []
  insertedWindowDims := [0]
  scatterDimsToOperandDims := [0]
  indexVectorDim := 1
  wf := scatter_S35_S19x1_S19_n_0_0_1_wf
def gather_S19_S35x1_S35_n_0_n_n_0_1_1 : GatherDims S19 S35x1 S35 where
  offsetDims := []
  collapsedSliceDims := [0]
  operandBatchingDims := []
  startIndicesBatchingDims := []
  startIndexMap := [0]
  indexVectorDim := 1
  sliceSizes := ![1]
  wf := gather_S19_S35x1_S35_n_0_n_n_0_1_1_wf
def dot_S256x256_S640x256_S256x640_1_1_0_0_n_n : DotDims S256x256 S640x256 S256x640 where
  lhsContracting := [1]
  rhsContracting := [1]
  lhsNonContracting := [0]
  rhsNonContracting := [0]
  lhsBatch := []
  rhsBatch := []
  wf := dot_S256x256_S640x256_S256x640_1_1_0_0_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev spec0_0 : Pipeline.WinSpec sig grid0.rank :=
  Pipeline.WinSpec.ofSpec (Memref.whole main_v48) S256x256.size reads0_0 false false 2 stage0_0 sem0_0 nbuf0_0 hstage0_0

abbrev spec0_1 : Pipeline.WinSpec sig grid0.rank :=
  Pipeline.WinSpec.ofSpec (Memref.whole main_v57) S256x1.size reads0_1 false false 2 stage0_1 sem0_1 nbuf0_1 hstage0_1

abbrev spec0_2 : Pipeline.WinSpec sig grid0.rank :=
  Pipeline.WinSpec.ofSpec (Memref.whole main_v6) S640x256.size reads0_2 false true 1 stage0_2 sem0_2 nbuf0_2 hstage0_2

abbrev spec0_3 : Pipeline.WinSpec sig grid0.rank :=
  Pipeline.WinSpec.ofSpec (Memref.whole main_v9) S1x640.size reads0_3 false true 1 stage0_3 sem0_3 nbuf0_3 hstage0_3

abbrev spec0_4 : Pipeline.WinSpec sig grid0.rank :=
  Pipeline.WinSpec.ofSpec (Memref.whole main_v10) S1x640.size reads0_4 false true 1 stage0_4 sem0_4 nbuf0_4 hstage0_4

abbrev spec0_5 : Pipeline.WinSpec sig grid0.rank :=
  Pipeline.WinSpec.ofSpec (Memref.whole main_v77) S1x2048x256.size reads0_5 false false 2 stage0_5 sem0_5 nbuf0_5 hstage0_5

abbrev spec0_6 : Pipeline.WinSpec sig grid0.rank :=
  Pipeline.WinSpec.ofSpec (Memref.whole main_v78) S256x1.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 k0_off1_inb numel1_S1 pf | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 pf | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_5 k0_off1_inb numel1_S1 pf i a + 1) * S1x2048x256.size a ≤ S19x2048x256.size a), EltTy.bits .bf16 = 32 ∨ (Rect.block (s := S19x2048x256) S1x2048x256.size (cc0_transform_5 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => hinb0_4 | 5 => fun i a => (hok i).elim fun h _ => h a | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => hwx0_4 | 5 => fun i => (hok i).elim fun _ h => h | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S4096x256 : Shape := ⟨2, ![4096, 256]⟩
abbrev S4096 : Shape := ⟨1, ![4096]⟩
abbrev S19x32x256 : Shape := ⟨3, ![19, 32, 256]⟩
abbrev S19x32 : Shape := ⟨2, ![19, 32]⟩
abbrev S19x2048x256 : Shape := ⟨3, ![19, 2048, 256]⟩
abbrev S608x256 : Shape := ⟨2, ![608, 256]⟩
abbrev S38912x256 : Shape := ⟨2, ![38912, 256]⟩
abbrev S19 : Shape := ⟨1, ![19]⟩
abbrev S608 : Shape := ⟨1, ![608]⟩
abbrev S19x2048 : Shape := ⟨2, ![19, 2048]⟩
abbrev S38912 : Shape := ⟨1, ![38912]⟩
abbrev S_ : Shape := ⟨0, ![]⟩
abbrev S4096x608 : Shape := ⟨2, ![4096, 608]⟩
abbrev S4096x1 : Shape := ⟨2, ![4096, 1]⟩
abbrev S1x608 : Shape := ⟨2, ![1, 608]⟩
abbrev S4096x38912 : Shape := ⟨2, ![4096, 38912]⟩
abbrev S1x38912 : Shape := ⟨2, ![1, 38912]⟩

abbrev nBuf : Space → Nat
  | .hbm => 83
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S19x32x256, .f32⟩
  | .hbm, ⟨3, _⟩ => ⟨S19x32, .i32⟩
  | .hbm, ⟨4, _⟩ => ⟨S19x2048x256, .f32⟩
  | .hbm, ⟨5, _⟩ => ⟨S608x256, .f32⟩
  | .hbm, ⟨6, _⟩ => ⟨S38912x256, .f32⟩
  | .hbm, ⟨7, _⟩ => ⟨S19, .i32⟩
  | .hbm, ⟨8, _⟩ => ⟨S19x32, .i32⟩
  | .hbm, ⟨9, _⟩ => ⟨S608, .i32⟩
  | .hbm, ⟨10, _⟩ => ⟨S19, .i32⟩
  | .hbm, ⟨11, _⟩ => ⟨S19x2048, .i32⟩
  | .hbm, ⟨12, _⟩ => ⟨S38912, .i32⟩
  | .hbm, ⟨13, _⟩ => ⟨S608, .i32⟩
  | .hbm, ⟨14, _⟩ => ⟨S_, .i32⟩
  | .hbm, ⟨15, _⟩ => ⟨S608, .i32⟩
  | .hbm, ⟨16, _⟩ => ⟨S608, .i1⟩
  | .hbm, ⟨17, _⟩ => ⟨S608, .i1⟩
  | .hbm, ⟨18, _⟩ => ⟨S4096x608, .f32⟩
  | .hbm, ⟨19, _⟩ => ⟨S_, .f32⟩
  | .hbm, ⟨20, _⟩ => ⟨S4096x608, .f32⟩
  | .hbm, ⟨21, _⟩ => ⟨S4096x608, .f32⟩
  | .hbm, ⟨22, _⟩ => ⟨S4096x1, .i32⟩
  | .hbm, ⟨23, _⟩ => ⟨S1x608, .i32⟩
  | .hbm, ⟨24, _⟩ => ⟨S4096x608, .i32⟩
  | .hbm, ⟨25, _⟩ => ⟨S4096x608, .i32⟩
  | .hbm, ⟨26, _⟩ => ⟨S4096x608, .i1⟩
  | .hbm, ⟨27, _⟩ => ⟨S1x608, .i1⟩
  | .hbm, ⟨28, _⟩ => ⟨S4096x608, .i1⟩
  | .hbm, ⟨29, _⟩ => ⟨S4096x608, .i1⟩
  | .hbm, ⟨30, _⟩ => ⟨S1x608, .i1⟩
  | .hbm, ⟨31, _⟩ => ⟨S_, .f32⟩
  | .hbm, ⟨32, _⟩ => ⟨S4096x608, .i1⟩
  | .hbm, ⟨33, _⟩ => ⟨S4096x608, .f32⟩
  | .hbm, ⟨34, _⟩ => ⟨S4096x608, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x608, .f32⟩
  | .hbm, ⟨39, _⟩ => ⟨S4096x608, .f32⟩
  | .hbm, ⟨40, _⟩ => ⟨S_, .f32⟩
  | .hbm, ⟨41, _⟩ => ⟨S4096x608, .f32⟩
  | .hbm, ⟨42, _⟩ => ⟨S4096x608, .f32⟩
  | .hbm, ⟨43, _⟩ => ⟨S4096x608, .f32⟩
  | .hbm, ⟨44, _⟩ => ⟨S4096x38912, .f32⟩
  | .hbm, ⟨45, _⟩ => ⟨S_, .f32⟩
  | .hbm, ⟨46, _⟩ => ⟨S4096x38912, .f32⟩
  | .hbm, ⟨47, _⟩ => ⟨S4096x38912, .f32⟩
  | .hbm, ⟨48, _⟩ => ⟨S4096x1, .i32⟩
  | .hbm, ⟨49, _⟩ => ⟨S1x38912, .i32⟩
  | .hbm, ⟨50, _⟩ => ⟨S4096x38912, .i32⟩
  | .hbm, ⟨51, _⟩ => ⟨S4096x38912, .i32⟩
  | .hbm, ⟨52, _⟩ => ⟨S4096x38912, .i1⟩
  | .hbm, ⟨53, _⟩ => ⟨S4096x38912, .f32⟩
  | .hbm, ⟨54, _⟩ => ⟨S4096x38912, .f32⟩
  | .hbm, ⟨55, _⟩ => ⟨S4096x38912, .f32⟩
  | .hbm, ⟨56, _⟩ => ⟨S4096x38912, .f32⟩
  | .hbm, ⟨57, _⟩ => ⟨S4096x38912, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x608, .f32⟩
  | .hbm, ⟨62, _⟩ => ⟨S4096x608, .f32⟩
  | .hbm, ⟨63, _⟩ => ⟨S_, .f32⟩
  | .hbm, ⟨64, _⟩ => ⟨S4096x608, .f32⟩
  | .hbm, ⟨65, _⟩ => ⟨S4096x608, .f32⟩
  | .hbm, ⟨66, _⟩ => ⟨S4096x608, .f32⟩
  | .hbm, ⟨67, _⟩ => ⟨S4096x608, .f32⟩
  | .hbm, ⟨68, _⟩ => ⟨S4096x608, .f32⟩
  | .hbm, ⟨69, _⟩ => ⟨S4096x608, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  shapeCasts_S19x32x256_S608x256 : S19x32x256.ShapeCasts S608x256
  shapeCasts_S19x2048x256_S38912x256 : S19x2048x256.ShapeCasts S38912x256
  bcast_S19_S19x32_0 : S19.BroadcastsInDim S19x32 (![0] : Fin 1 → Fin S19x32.rank)
  shapeCasts_S19x32_S608 : S19x32.ShapeCasts S608
  bcast_S19_S19x2048_0 : S19.BroadcastsInDim S19x2048 (![0] : Fin 1 → Fin S19x2048.rank)
  shapeCasts_S19x2048_S38912 : S19x2048.ShapeCasts S38912
  bcast_S_S608 : S_.BroadcastsInDim S608 (![] : Fin 0 → Fin S608.rank)
  bcast_S_S4096x608 : S_.BroadcastsInDim S4096x608 (![] : Fin 0 → Fin S4096x608.rank)
  bcast_S4096_S4096x1_0 : S4096.BroadcastsInDim S4096x1 (![0] : Fin 1 → Fin S4096x1.rank)
  bcast_S608_S1x608_1 : S608.BroadcastsInDim S1x608 (![1] : Fin 1 → Fin S1x608.rank)
  bcast_S4096x1_S4096x608_0_1 : S4096x1.BroadcastsInDim S4096x608 (![0, 1] : Fin 2 → Fin S4096x608.rank)
  bcast_S1x608_S4096x608_0_1 : S1x608.BroadcastsInDim S4096x608 (![0, 1] : Fin 2 → Fin S4096x608.rank)
  reducesTo_S4096x608_S4096_d1 : S4096x608.ReducesTo [1] S4096
  h_S_ : 0 < S_.numel
  bcast_S_S4096x38912 : S_.BroadcastsInDim S4096x38912 (![] : Fin 0 → Fin S4096x38912.rank)
  bcast_S38912_S1x38912_1 : S38912.BroadcastsInDim S1x38912 (![1] : Fin 1 → Fin S1x38912.rank)
  bcast_S4096x1_S4096x38912_0_1 : S4096x1.BroadcastsInDim S4096x38912 (![0, 1] : Fin 2 → Fin S4096x38912.rank)
  bcast_S1x38912_S4096x38912_0_1 : S1x38912.BroadcastsInDim S4096x38912 (![0, 1] : Fin 2 → Fin S4096x38912.rank)
  reducesTo_S4096x38912_S4096_d1 : S4096x38912.ReducesTo [1] S4096
  bcast_S_S4096 : S_.BroadcastsInDim S4096 (![] : Fin 0 → Fin S4096.rank)
  reducesTo_S4096_S_d0 : S4096.ReducesTo [0] S_
  dot_S4096x256_S608x256_S4096x608_1_1_0_0_n_n_wf : DotDims.WF S4096x256 S608x256 S4096x608 [1] [1] [0] [0] [] []
  dot_S4096x256_S38912x256_S4096x38912_1_1_0_0_n_n_wf : DotDims.WF S4096x256 S38912x256 S4096x38912 [1] [1] [0] [0] [] []

variable [Facts₀]

def dot_S4096x256_S608x256_S4096x608_1_1_0_0_n_n : DotDims S4096x256 S608x256 S4096x608 where
  lhsContracting := [1]
  rhsContracting := [1]
  lhsNonContracting := [0]
  rhsNonContracting := [0]
  lhsBatch := []
  rhsBatch := []
  wf := dot_S4096x256_S608x256_S4096x608_1_1_0_0_n_n_wf
def dot_S4096x256_S38912x256_S4096x38912_1_1_0_0_n_n : DotDims S4096x256 S38912x256 S4096x38912 where
  lhsContracting := [1]
  rhsContracting := [1]
  lhsNonContracting := [0]
  rhsNonContracting := [0]
  lhsBatch := []
  rhsBatch := []
  wf := dot_S4096x256_S38912x256_S4096x38912_1_1_0_0_n_n_wf

class Facts : Prop extends Facts₀ where

variable [Facts]
-- ==== Proof.OkKernel.lean ====
/-
  The pipeline's side condition on the prefetched table holds for EVERY launch memory.

  The table of 35 block indices that window 5 (blocks [1, 2048, 256] of the [19, 2048, 256] array) is addressed by
  is computed by the host operations before the call, and the last of them is a clip into [0, 18]: the
  pointwise signed minimum of 18 and the signed maximum of 0 and an earlier array X. Whatever X is, a 32-bit
  word min(18, max(0, x)) (signed) is one of 0, 18 or an x with 0 ≤ x ≤ 18, so its unsigned reading is at
  most 18. Hence at every grid point the block index b on axis 0 has (b + 1) * 1 ≤ 19; on axes 1 and 2 the
  block is the whole axis; and a block of 2048 rows of a two-per-word type ends on whole words, 2048 being even.

  The contents of the table are kept a variable in every structural step and named only at the end.
-/
import proofs.«425194_j11605001634274_3_alg».proof.Proof.Gen.Kernel.Frame
import Idealize.ShloMosaic.Lib.StableHlo.Run

set_option maxRecDepth 16384

noncomputable section

namespace Cert.Kernel.OkPre

open Cert.Kernel Cert.Kernel.Gen
open Idealize.ShloMosaic Idealize.ShloMosaic.TcCoe Idealize.SL.Sem
open Idealize.ShloMosaic.StableHlo

variable {F : FTy → Type} [FloatOps F]

/-! ## The word fact -/

/-- A 32-bit word clipped (signed) into [0, 18] reads, unsigned, at most 18. -/
theorem clip_toNat_le (x : BitVec 32) : (IntOp.minsi (18#32) (IntOp.maxsi (0#32) x)).toNat ≤ 18 := by
  have e0 : (0#32 : BitVec 32).toInt = 0 := by decide
  have e18 : (18#32 : BitVec 32).toInt = 18 := by decide
  unfold IntOp.minsi IntOp.maxsi
  by_cases h1 : x.slt 0#32
  · rw [if_pos h1]; decide
  · rw [if_neg h1]
    by_cases h2 : (18#32 : BitVec 32).slt x
    · rw [if_pos h2]; decide
    · rw [if_neg h2]
      rw [BitVec.slt_iff_toInt_lt, e0] at h1
      rw [BitVec.slt_iff_toInt_lt, e18] at h2
      have hx : x.toInt = (x.toNat : Int) ∨ x.toInt = (x.toNat : Int) - 2 ^ 32 := by
        rw [BitVec.toInt_eq_toNat_cond]; split <;> simp
      have hlt := x.isLt
      omega

/-! ## The side condition from a bound on the table's words (the contents a variable) -/

/-- If every word of the table reads at most 18, every block of window 5 lies inside its array and its
    transfer ends on whole words. -/
theorem ok0_of_le (pf : pre0.Contents (Elt F)) (hpf : ∀ x : S35.Idx, (show BitVec 32 from pf 0 x).toNat ≤ 18) :
    ok0 (F := F) pf := by
  unfold ok0
  intro i
  obtain ⟨w, hw, e⟩ : ∃ w : BitVec 32, w.toNat ≤ 18 ∧
      cc0_transform_5 k0_off1_inb numel1_S1 pf i = ![w.toNat, 0, 0] := ⟨_, hpf _, rfl⟩
  have hin : ∀ a, (cc0_transform_5 k0_off1_inb numel1_S1 pf i a + 1) * S1x2048x256.size a ≤ S19x2048x256.size a := by
    intro a
    rw [e]
    fin_cases a
    · show (w.toNat + 1) * 1 ≤ 19
      omega
    · show (0 + 1) * 2048 ≤ 2048
      omega
    · show (0 + 1) * 256 ≤ 256
      omega
  exact ⟨hin, .inr (Affine.block_words_dvd (of_decide_eq_true rfl) (by decide))⟩

/-! ## The table's contents: a clip of an earlier array -/

/-- Host operations run one list of stretches after another. -/
theorem after_flatten_append (L₁ L₂ : List (List (HloOp τ sig (Elt F)))) (W : Valuation τ sig (Elt F)) :
    StableHlo.after (L₁ ++ L₂).flatten W = StableHlo.after L₂.flatten (StableHlo.after L₁.flatten W) := by
  rw [List.flatten_append, StableHlo.after_append]

/-- From ANY contents `W` of the buffers, the last three stretches of host operations before the call (the two
    constants 0 and 18, the clip, and a conversion of another argument) leave in the table the clip of what
    `W` holds in the clip's operand. -/
theorem clip_stretch (W : Valuation τ sig (Elt F)) :
    StableHlo.after (List.flatten [hostOps0_20, hostOps0_21, hostOps0_22]) W (Proc.devRef .tc main_v76)
      = (minsi (broadcastInDim S35 ![] bcast_S_S35 (id (constantI S_ 32 18#32)))
          (maxsi (broadcastInDim S35 ![] bcast_S_S35 (id (constantI S_ 32 0#32))) (W (Proc.devRef .tc main_v75))) : IVec S35 32) := by
  simp only [hostOps0_20, hostOps0_21, hostOps0_22, List.flatten_cons, List.flatten_nil, List.append_nil, List.cons_append,
    List.nil_append]
  after_results
  rfl

/-- The buffers' contents on device 0 after all but the last three stretches of host operations. -/
def before (m : (ℓ : Loc nD τ sig) → Buf (Elt F) ℓ) : Valuation τ sig (Elt F) :=
  StableHlo.after (List.flatten
    [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      hostOps0_19]) (fun b => m ((0 : Dev nD), b))

/-- The table the launch memory `m` leads to is the clip into [0, 18] of an earlier array. -/
theorem tbl_clip (m : (ℓ : Loc nD τ sig) → Buf (Elt F) ℓ) :
    (tbl m 0 : IVec S35 32)
      = minsi (broadcastInDim S35 ![] bcast_S_S35 (id (constantI S_ 32 18#32)))
          (maxsi (broadcastInDim S35 ![] bcast_S_S35 (id (constantI S_ 32 0#32))) (before m (Proc.devRef .tc main_v75))) :=
  (congrFun (after_flatten_append
    [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      hostOps0_19]
    [hostOps0_20, hostOps0_21, hostOps0_22] (fun b => m ((0 : Dev nD), b))) (Proc.devRef .tc main_v76)).trans
    (clip_stretch (before m))

/-- Every word of the table reads at most 18. -/
theorem tbl_le (m : (ℓ : Loc nD τ sig) → Buf (Elt F) ℓ) (x : S35.Idx) : (show BitVec 32 from tbl m 0 x).toNat ≤ 18 := by
  have h := congrFun (tbl_clip (F := F) m) x
  show (show BitVec 32 from (tbl m 0 : IVec S35 32) x).toNat ≤ 18
  rw [h]
  exact clip_toNat_le _

/-! ## The side condition -/

/-- The side condition of the table's contents holds at every launch memory. -/
theorem ok (m : (ℓ : Loc nD τ sig) → Buf (Elt F) ℓ) : Cert.Kernel.Gen.Ok (F := F) m :=
  ok0_of_le (tbl m) (tbl_le m)

end Cert.Kernel.OkPre

end
-- ==== Proof.OkKernelIdeal.lean ====
/-
  The pipeline's side condition on the prefetched table holds for EVERY launch memory.

  The table of 35 block indices that window 5 (blocks [1, 2048, 256] of the [19, 2048, 256] array) is addressed by
  is computed by the host operations before the call, and the last of them is a clip into [0, 18]: the
  pointwise signed minimum of 18 and the signed maximum of 0 and an earlier array X. Whatever X is, a 32-bit
  word min(18, max(0, x)) (signed) is one of 0, 18 or an x with 0 ≤ x ≤ 18, so its unsigned reading is at
  most 18. Hence at every grid point the block index b on axis 0 has (b + 1) * 1 ≤ 19; on axes 1 and 2 the
  block is the whole axis; and a block of 2048 rows of a two-per-word type ends on whole words, 2048 being even.

  The contents of the table are kept a variable in every structural step and named only at the end.
-/
import proofs.«425194_j11605001634274_3_alg».proof.Proof.Gen.KernelIdeal.Frame
import Idealize.ShloMosaic.Lib.StableHlo.Run

set_option maxRecDepth 16384

noncomputable section

namespace Cert.KernelIdeal.OkPre

open Cert.KernelIdeal Cert.KernelIdeal.Gen
open Idealize.ShloMosaic Idealize.ShloMosaic.TcCoe Idealize.SL.Sem
open Idealize.ShloMosaic.StableHlo

variable {F : FTy → Type} [FloatOps F] [Named F]

/-! ## The word fact -/

/-- A 32-bit word clipped (signed) into [0, 18] reads, unsigned, at most 18. -/
theorem clip_toNat_le (x : BitVec 32) : (IntOp.minsi (18#32) (IntOp.maxsi (0#32) x)).toNat ≤ 18 := by
  have e0 : (0#32 : BitVec 32).toInt = 0 := by decide
  have e18 : (18#32 : BitVec 32).toInt = 18 := by decide
  unfold IntOp.minsi IntOp.maxsi
  by_cases h1 : x.slt 0#32
  · rw [if_pos h1]; decide
  · rw [if_neg h1]
    by_cases h2 : (18#32 : BitVec 32).slt x
    · rw [if_pos h2]; decide
    · rw [if_neg h2]
      rw [BitVec.slt_iff_toInt_lt, e0] at h1
      rw [BitVec.slt_iff_toInt_lt, e18] at h2
      have hx : x.toInt = (x.toNat : Int) ∨ x.toInt = (x.toNat : Int) - 2 ^ 32 := by
        rw [BitVec.toInt_eq_toNat_cond]; split <;> simp
      have hlt := x.isLt
      omega

/-! ## The side condition from a bound on the table's words (the contents a variable) -/

/-- If every word of the table reads at most 18, every block of window 5 lies inside its array and its
    transfer ends on whole words. -/
theorem ok0_of_le (pf : pre0.Contents (Elt F)) (hpf : ∀ x : S35.Idx, (show BitVec 32 from pf 0 x).toNat ≤ 18) :
    ok0 (F := F) pf := by
  unfold ok0
  intro i
  obtain ⟨w, hw, e⟩ : ∃ w : BitVec 32, w.toNat ≤ 18 ∧
      cc0_transform_5 k0_off1_inb numel1_S1 pf i = ![w.toNat, 0, 0] := ⟨_, hpf _, rfl⟩
  have hin : ∀ a, (cc0_transform_5 k0_off1_inb numel1_S1 pf i a + 1) * S1x2048x256.size a ≤ S19x2048x256.size a := by
    intro a
    rw [e]
    fin_cases a
    · show (w.toNat + 1) * 1 ≤ 19
      omega
    · show (0 + 1) * 2048 ≤ 2048
      omega
    · show (0 + 1) * 256 ≤ 256
      omega
  exact ⟨hin, .inr (Affine.block_words_dvd (of_decide_eq_true rfl) (by decide))⟩

/-! ## The table's contents: a clip of an earlier array -/

/-- Host operations run one list of stretches after another. -/
theorem after_flatten_append (L₁ L₂ : List (List (HloOp τ sig (Elt F)))) (W : Valuation τ sig (Elt F)) :
    StableHlo.after (L₁ ++ L₂).flatten W = StableHlo.after L₂.flatten (StableHlo.after L₁.flatten W) := by
  rw [List.flatten_append, StableHlo.after_append]

/-- From ANY contents `W` of the buffers, the last three stretches of host operations before the call (the two
    constants 0 and 18, the clip, and a conversion of another argument) leave in the table the clip of what
    `W` holds in the clip's operand. -/
theorem clip_stretch (W : Valuation τ sig (Elt F)) :
    StableHlo.after (List.flatten [hostOps0_20, hostOps0_21, hostOps0_22]) W (Proc.devRef .tc main_v76)
      = (minsi (broadcastInDim S35 ![] bcast_S_S35 (id (constantI S_ 32 18#32)))
          (maxsi (broadcastInDim S35 ![] bcast_S_S35 (id (constantI S_ 32 0#32))) (W (Proc.devRef .tc main_v75))) : IVec S35 32) := by
  simp only [hostOps0_20, hostOps0_21, hostOps0_22, List.flatten_cons, List.flatten_nil, List.append_nil, List.cons_append,
    List.nil_append]
  after_results
  rfl

/-- The buffers' contents on device 0 after all but the last three stretches of host operations. -/
def before (m : (ℓ : Loc nD τ sig) → Buf (Elt F) ℓ) : Valuation τ sig (Elt F) :=
  StableHlo.after (List.flatten
    [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      hostOps0_19]) (fun b => m ((0 : Dev nD), b))

/-- The table the launch memory `m` leads to is the clip into [0, 18] of an earlier array. -/
theorem tbl_clip (m : (ℓ : Loc nD τ sig) → Buf (Elt F) ℓ) :
    (tbl m 0 : IVec S35 32)
      = minsi (broadcastInDim S35 ![] bcast_S_S35 (id (constantI S_ 32 18#32)))
          (maxsi (broadcastInDim S35 ![] bcast_S_S35 (id (constantI S_ 32 0#32))) (before m (Proc.devRef .tc main_v75))) :=
  (congrFun (after_flatten_append
    [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      hostOps0_19]
    [hostOps0_20, hostOps0_21, hostOps0_22] (fun b => m ((0 : Dev nD), b))) (Proc.devRef .tc main_v76)).trans
    (clip_stretch (before m))

/-- Every word of the table reads at most 18. -/
theorem tbl_le (m : (ℓ : Loc nD τ sig) → Buf (Elt F) ℓ) (x : S35.Idx) : (show BitVec 32 from tbl m 0 x).toNat ≤ 18 := by
  have h := congrFun (tbl_clip (F := F) m) x
  show (show BitVec 32 from (tbl m 0 : IVec S35 32) x).toNat ≤ 18
  rw [h]
  exact clip_toNat_le _

/-! ## The side condition -/

/-- The side condition of the table's contents holds at every launch memory. -/
theorem ok (m : (ℓ : Loc nD τ sig) → Buf (Elt F) ℓ) : Cert.KernelIdeal.Gen.Ok (F := F) m :=
  ok0_of_le (tbl m) (tbl_le m)

end Cert.KernelIdeal.OkPre

end
-- ==== Proof.PreFacts.lean ====
/-
  The labels' range, read off the stated precondition.

  The precondition is the conjunction (a chain of `and`s of one-bit words) of three finiteness tests and of
  "every label l satisfies 0 ≤ l and l < 19", the latter an `and`-reduction over the 4096 labels of the
  pointwise conjunction of two signed comparisons. When the whole conjunction is the word 1, each conjunct is 1;
  a reduction by `and` that is 1 met only 1s; and a 32-bit word whose signed reading lies in [0, 19) has the
  same unsigned reading, which is then below 19.
-/
import proofs.«425194_j11605001634274_3_alg».proof.Pre_finite_inputs
import proofs.«425194_j11605001634274_3_alg».proof.Proof.Gen.Pre_finite_inputs
import Idealize.ShloMosaic.Lib.ReduceAll
import Idealize.ShloMosaic.Lib.ValueIdx

noncomputable section

namespace Cert.PreFacts

open Idealize.ShloMosaic Cert.Pre_finite_inputs

/-- A 32-bit word that is signed-nonnegative and signed-below 19 reads, unsigned, below 19. -/
theorem toNat_lt_of_signed_range (x : BitVec 32) (h0 : (0#32 : BitVec 32).toInt ≤ x.toInt)
    (h1 : x.toInt < (19#32 : BitVec 32).toInt) : x.toNat < 19 := by
  have e0 : (0#32 : BitVec 32).toInt = 0 := by decide
  have e19 : (19#32 : BitVec 32).toInt = 19 := by decide
  rw [e0] at h0
  rw [e19] at h1
  have hx : x.toInt = (x.toNat : Int) ∨ x.toInt = (x.toNat : Int) - 2 ^ 32 := by
    rw [BitVec.toInt_eq_toNat_cond]; split <;> simp
  have hlt := x.isLt
  omega

/-- The scalar shape has one index. -/
instance : Subsingleton S_.Idx := ⟨fun a b => funext fun d => d.elim0⟩

/-- Under the precondition every label, read unsigned, is below 19. -/
theorem labels_lt [Cert.Pre_finite_inputs.Facts] {F : FTy → Type} [FloatOps F]
    (A0 : FVec F S4096x256 .f32) (A1 : IVec S4096 32) (A2 : FVec F S19x32x256 .f32) (A3 : IVec S19x32 32)
    (A4 : FVec F S19x2048x256 .f32)
    (h : Cert.Pre_finite_inputs.fn (F := F) A0 A1 A2 A3 A4 = fun _ => 1#1) (a : Fin 4096) :
    (A1 (ValueIdx.ix1 a)).toNat < 19 := by
  have h' := congrFun h ValueIdx.ix0
  dsimp only [Cert.Pre_finite_inputs.fn, Cert.Pre_finite_inputs.fn_part1] at h'
  -- the outer conjunction: (finiteness tests) ∧ (all labels in range)
  have hall := (IntOp.andi_eq_one.1 h').2
  -- every element of the reduced array is 1
  have hel := Host.reduce_andi_all _ _ _ _ _ hall (ValueIdx.ix1 a)
  -- the element is the conjunction of the two comparisons
  obtain ⟨hge, hlt⟩ := IntOp.andi_eq_one.1 hel
  have hge' := IntOp.cmpi_sge.1 hge
  have hlt' := IntOp.cmpi_slt.1 hlt
  exact toNat_lt_of_signed_range _ hge' hlt'

end Cert.PreFacts

end
-- ==== Proof.Spec.lean ====
/-
  The mathematics both programs compute, as plain functions over the extended reals.

  An anchor row x with label lab is scored against 608 prototype rows (19 classes of 32, prototype p of class p / 32,
  kept when its mask word is nonzero) and against 38912 local-memory rows (19 classes of 2048, row l of class l / 2048):
    dp p  = (x · P p) / T                      the prototype logits, T the f32 word of the temperature
    mx    = max over the kept p of dp p        (bottom when none is kept)
    pos p = the label is p's class and p is kept
    ng    = sum over the local rows l of the label's class of exp ((x · L l) / T - mx)
    lp p  = (dp p - mx) - log (exp (dp p - mx) [pos p] + ng + eps)
    row   = - (sum over pos p of lp p) / (#pos + eps)
  and the result is the mean of row over the 4096 anchors.  `refRow` spells this as the reference does (a mask
  as a factor 0 / 1, a fill of bottom under exp); `kerRow` as the kernel does on one row of a tile: 640 prototype
  columns (the last 32 never kept), the product with the named reciprocal of T in place of the quotient, and only
  the 2048 local rows of the tile's class, the sum then multiplied by the indicator that the row's label is that class.
-/
import Idealize.ShloMosaic.PureOps.Ideal
import Idealize.ShloMosaic.Lib.ValueIdx

noncomputable section

namespace Cert.Spec

open Idealize.ShloMosaic

/-- The reference's temperature: the f32 word nearest 0.1. -/
def temp : EReal := Ideal.ofBits .f32 0x3DCCCCCD#32
/-- The epsilon both programs add: the f32 word nearest 1e-8. -/
def eps : EReal := Ideal.ofBits .f32 0x322BCC77#32
/-- The kernel's named factor: the exact reciprocal of the temperature word, 2^27 / 13421773. -/
def invTemp : EReal := ((134217728 / 13421773 : ℝ) : EReal)

/-- Prototype p counts for an anchor of label lab in the reference: it is of the label's class and kept. -/
def refPos (lab : BitVec 32) (msk : Fin 608 → BitVec 32) (p : Fin 608) : Prop :=
  lab = BitVec.ofNat 32 (p.val / 32) ∧ msk p ≠ 0#32
instance (lab : BitVec 32) (msk : Fin 608 → BitVec 32) (p : Fin 608) : Decidable (refPos lab msk p) := by
  unfold refPos; infer_instance

/-- Prototype column p counts for a row of label lab in the kernel: its label word is the row's and it is kept. -/
def kerPos (lab : BitVec 32) (plab vld : Fin 640 → BitVec 32) (p : Fin 640) : Prop :=
  lab = plab p ∧ vld p ≠ 0#32
instance (lab : BitVec 32) (plab vld : Fin 640 → BitVec 32) (p : Fin 640) : Decidable (kerPos lab plab vld p) := by
  unfold kerPos; infer_instance

/-- One anchor's loss as the reference computes it. -/
def refRow (x : Fin 256 → EReal) (lab : BitVec 32) (P : Fin 608 → Fin 256 → EReal) (msk : Fin 608 → BitVec 32)
    (L : Fin 38912 → Fin 256 → EReal) : EReal :=
  let dp : Fin 608 → EReal := fun p => Ideal.div (∑ d, x d * P p d) temp
  let mx : EReal := Finset.univ.fold max ⊥ (fun p => if msk p ≠ 0#32 then dp p else ⊥)
  let ng : EReal := ∑ l : Fin 38912, Ideal.exp (Ideal.div (∑ d, x d * L l d) temp - mx)
      * (if lab = BitVec.ofNat 32 (l.val / 2048) then (1 : EReal) else 0)
  let lp : Fin 608 → EReal := fun p =>
    (dp p - mx) - Ideal.log (Ideal.exp (if refPos lab msk p then dp p - mx else ⊥) + ng + eps)
  let mf : Fin 608 → EReal := fun p => if refPos lab msk p then 1 else 0
  Neg.neg (Ideal.div (∑ p, mf p * lp p) ((∑ p, mf p) + eps))

/-- One row of a tile as the kernel computes it: x the row's features, lab its label word, cls the tile's class
    word, Q the 640 prototype rows, plab and vld their label and mask words, B the 2048 local rows of the tile's
    class. -/
def kerRow (x : Fin 256 → EReal) (lab cls : BitVec 32) (Q : Fin 640 → Fin 256 → EReal) (plab vld : Fin 640 → BitVec 32)
    (B : Fin 2048 → Fin 256 → EReal) : EReal :=
  let dp : Fin 640 → EReal := fun p => (∑ d, x d * Q p d) * invTemp
  let mx : EReal := Finset.univ.fold max ⊥ (fun p => if vld p ≠ 0#32 then dp p else ⊥)
  let ng : EReal := (∑ l : Fin 2048, Ideal.exp ((∑ d, x d * B l d) * invTemp - mx))
      * (if lab = cls then (1 : EReal) else 0)
  let lp : Fin 640 → EReal := fun p =>
    (dp p - mx) - Ideal.log ((if kerPos lab plab vld p then Ideal.exp (dp p - mx) else 0) + ng + eps)
  let mf : Fin 640 → EReal := fun p => if kerPos lab plab vld p then 1 else 0
  0 - Ideal.div (∑ p, mf p * lp p) ((∑ p, mf p) + eps)

/-- The mean over the anchors: what both programs return. -/
def total (row : Fin 4096 → EReal) : EReal := Ideal.div (∑ a, row a) (Ideal.ofBits .f32 0x45800000#32)

/-! ### The answer over the argument arrays -/

open ValueIdx

/-- Prototype row p of the [19, 32, 256] array: class p / 32, unit p % 32. -/
def protoRow (A2 : (⟨3, ![19, 32, 256]⟩ : Shape).Idx → EReal) (p : Fin 608) (d : Fin 256) : EReal :=
  A2 (ix3 (⟨p.val / 32, by have := p.isLt; omega⟩ : Fin 19) (⟨p.val % 32, by omega⟩ : Fin 32) d)

/-- The mask word of prototype p. -/
def maskWord (A3 : (⟨2, ![19, 32]⟩ : Shape).Idx → BitVec 32) (p : Fin 608) : BitVec 32 :=
  A3 (ix2 (⟨p.val / 32, by have := p.isLt; omega⟩ : Fin 19) (⟨p.val % 32, by omega⟩ : Fin 32))

/-- Local-memory row l of the [19, 2048, 256] array: class l / 2048, slot l % 2048. -/
def localRow (A4 : (⟨3, ![19, 2048, 256]⟩ : Shape).Idx → EReal) (l : Fin 38912) (d : Fin 256) : EReal :=
  A4 (ix3 (⟨l.val / 2048, by have := l.isLt; omega⟩ : Fin 19) (⟨l.val % 2048, by omega⟩ : Fin 2048) d)

/-- Anchor a's loss, over the five argument arrays. -/
def anchorLoss (A0 : (⟨2, ![4096, 256]⟩ : Shape).Idx → EReal) (A1 : (⟨1, ![4096]⟩ : Shape).Idx → BitVec 32)
    (A2 : (⟨3, ![19, 32, 256]⟩ : Shape).Idx → EReal) (A3 : (⟨2, ![19, 32]⟩ : Shape).Idx → BitVec 32)
    (A4 : (⟨3, ![19, 2048, 256]⟩ : Shape).Idx → EReal) (a : Fin 4096) : EReal :=
  refRow (fun d => A0 (ix2 a d)) (A1 (ix1 a)) (protoRow A2) (maskWord A3) (localRow A4)

/-- What both programs return, over the five argument arrays. -/
def answer (A0 : (⟨2, ![4096, 256]⟩ : Shape).Idx → EReal) (A1 : (⟨1, ![4096]⟩ : Shape).Idx → BitVec 32)
    (A2 : (⟨3, ![19, 32, 256]⟩ : Shape).Idx → EReal) (A3 : (⟨2, ![19, 32]⟩ : Shape).Idx → BitVec 32)
    (A4 : (⟨3, ![19, 2048, 256]⟩ : Shape).Idx → EReal) : EReal :=
  total (anchorLoss A0 A1 A2 A3 A4)

end Cert.Spec

end
-- ==== Proof.HostChain.lean ====
/-
  The host side of the kernel program, as pure functions of the argument arrays.

  The anchors are grouped by class into a padded array of 35 tiles of 256 rows. With onehot[a, c] = [label a = c]:
    counts c     = Σ_a onehot[a, c]                      how many anchors of class c
    ntiles c     = ⌈counts c / 256⌉                      (floor division of counts c + 255)
    classStart c = 256 · Σ_{c' < c} ntiles c'            the first padded row of class c
    cum[a, c]    = Σ_{a' ≤ a} onehot[a', c]              a running count down the anchors
    localRank a  = Σ_c onehot[a, c] · (cum[a, c] − 1)    anchor a's rank among the anchors of its class
    dest a       = Σ_c onehot[a, c] · classStart c + localRank a
  and the padded features / labels are a scatter of the anchors' rows / labels at dest into zeros / −1. The class
  of tile t: with tileStart c = Σ_{c' < c} ntiles c' (a cumulative sum of ntiles rolled by one, its head zeroed),
  a 1 is added at position tileStart c of a zero vector of 35 for every class c, the cumulative sum of that minus
  one indexes the class numbers 0 … 18, and the result is clipped into [0, 18].
-/
import proofs.«425194_j11605001634274_3_alg».proof.KernelIdeal

noncomputable section

namespace Cert.KernelIdeal.Host

open Idealize.ShloMosaic Cert.KernelIdeal

variable [Facts]
open Facts₀ Facts

variable {F : FTy → Type} [FloatOps F]

/-- A scalar word everywhere on 19 / 35 / 4096 positions. -/
abbrev all19 (w : BitVec 32) : IVec S19 32 := broadcastInDim S19 ![] bcast_S_S19 (constantI S_ 32 w)
abbrev all35 (w : BitVec 32) : IVec S35 32 := broadcastInDim S35 ![] bcast_S_S35 (constantI S_ 32 w)
abbrev all4096 (w : BitVec 32) : IVec S4096 32 := broadcastInDim S4096 ![] bcast_S_S4096 (constantI S_ 32 w)

/-- The class numbers 0 … 18. -/
abbrev classIota : IVec S19 32 := iotaInDim S19 32 0

/-- The 640 prototype rows: the [19, 32, 256] array flattened to 608 rows, 32 zero rows appended. -/
def protoPad (A2 : FVec F S19x32x256 .f32) : FVec F S640x256 .bf16 :=
  truncf .bf16 (pad S640x256 ![0, 0] ![32, 0] ![0, 0] (shapeCast S608x256 A2 shapeCasts_S19x32x256_S608x256)
    (sitofp .f32 (constantI S_ 32 0#32)) pads_S608x256_S640x256_0320_000 h_S_) bitsLt_bf16_f32

/-- The 640 prototype label words: class p / 32 for p < 608, then −1. -/
def protoLab : IVec S1x640 32 :=
  shapeCast S1x640 (pad S640 ![0] ![32] ![0]
    (shapeCast S608 (broadcastInDim S19x32 ![0] bcast_S19_S19x32_0 classIota) shapeCasts_S19x32_S608)
    (id (constantI S_ 32 4294967295#32)) pads_S608_S640_0320 h_S_) shapeCasts_S640_S1x640

/-- The 640 mask words: the [19, 32] mask flattened, then 0. -/
def validPad (A3 : IVec S19x32 32) : IVec S1x640 32 :=
  shapeCast S1x640 (pad S640 ![0] ![32] ![0] (shapeCast S608 A3 shapeCasts_S19x32_S608)
    (id (constantI S_ 32 0#32)) pads_S608_S640_0320 h_S_) shapeCasts_S640_S1x640

/-- onehot[a, c] = 1 when anchor a's label is c, else 0. -/
def onehot (A1 : IVec S4096 32) : IVec S4096x19 32 :=
  extui 32 (cmpi .eq
    (broadcastInDim S4096x19 ![0, 1] bcast_S4096x1_S4096x19_0_1 (broadcastInDim S4096x1 ![0] bcast_S4096_S4096x1_0 A1))
    (broadcastInDim S4096x19 ![0, 1] bcast_S1x19_S4096x19_0_1 (broadcastInDim S1x19 ![1] bcast_S19_S1x19_1 classIota)))
    natLt_1_32

/-- How many anchors each class has. -/
def counts (A1 : IVec S4096 32) : IVec S19 32 :=
  Host.reduce IntOp.addi (onehot A1) (constantI S_ 32 0#32) reducesTo_S4096x19_S19_d0 h_S_

/-- Floor division by 256 as jnp spells it: the truncated quotient, less one where the signs differ and the remainder is not zero. -/
def floorDiv256 (x : IVec S19 32) : IVec S19 32 :=
  select
    (andi (cmpi .ne (signi x) (broadcastInDim S19 ![] bcast_S_S19 (signi (id (constantI S_ 32 256#32)))))
      (cmpi .ne (Host.remsi x (broadcastInDim S19 ![] bcast_S_S19 (id (constantI S_ 32 256#32)))) (all19 0#32)))
    (subi (Host.divsi x (broadcastInDim S19 ![] bcast_S_S19 (id (constantI S_ 32 256#32)))) (all19 1#32))
    (Host.divsi x (broadcastInDim S19 ![] bcast_S_S19 (id (constantI S_ 32 256#32))))

/-- How many tiles of 256 rows each class takes: ⌊(counts + 256 − 1) / 256⌋. -/
def ntiles (A1 : IVec S4096 32) : IVec S19 32 :=
  floorDiv256 (subi (addi (counts A1) (all19 256#32)) (all19 1#32))

/-- An inclusive cumulative sum along 19 / 35 positions. -/
def cumsum19 (x : IVec S19 32) : IVec S19 32 :=
  Host.reduceWindow IntOp.addi ![19] ![1] ![18] ![0] x (broadcastInDim S_ ![] bcast_S_S_ (constantI S_ 32 0#32))
    reduceWindows_S19_S19_w19s1p18_0 h_S_
def cumsum35 (x : IVec S35 32) : IVec S35 32 :=
  Host.reduceWindow IntOp.addi ![35] ![1] ![34] ![0] x (broadcastInDim S_ ![] bcast_S_S_ (constantI S_ 32 0#32))
    reduceWindows_S35_S35_w35s1p34_0 h_S_

/-- The first padded row of each class: 0, then the cumulative sum of the classes' padded row counts, shifted by one. -/
def classStart (A1 : IVec S4096 32) : IVec S19 32 :=
  concatenate S19 0
    [⟨S1, broadcastInDim S1 ![] bcast_S_S1 (constantI S_ 32 0#32)⟩,
     ⟨S18, extractStridedSlice S18 ![0] (cumsum19 (muli (ntiles A1) (all19 256#32))) slices_S19_S18_0⟩]
    concatenates_S1_S18_S19_d0

/-- cum[a, c]: how many anchors a' ≤ a have label c. -/
def cum (A1 : IVec S4096 32) : IVec S4096x19 32 :=
  Host.reduceWindow IntOp.addi ![4096, 1] ![1, 1] ![4095, 0] ![0, 0] (onehot A1)
    (broadcastInDim S_ ![] bcast_S_S_ (constantI S_ 32 0#32)) reduceWindows_S4096x19_S4096x19_w4096s1p4095_0_w1s1p0_0 h_S_

/-- Anchor a's rank among the anchors of its own class (0 for an anchor of no class). -/
def localRank (A1 : IVec S4096 32) : IVec S4096 32 :=
  Host.reduce IntOp.addi
    (muli (onehot A1) (subi (cum A1) (broadcastInDim S4096x19 ![] bcast_S_S4096x19 (constantI S_ 32 1#32))))
    (constantI S_ 32 0#32) reducesTo_S4096x19_S4096_d1 h_S_

/-- The first padded row of anchor a's class (0 for an anchor of no class). -/
def startSel (A1 : IVec S4096 32) : IVec S4096 32 :=
  Host.reduce IntOp.addi
    (muli (onehot A1) (broadcastInDim S4096x19 ![0, 1] bcast_S1x19_S4096x19_0_1
      (broadcastInDim S1x19 ![1] bcast_S19_S1x19_1 (classStart A1))))
    (constantI S_ 32 0#32) reducesTo_S4096x19_S4096_d1 h_S_

/-- The padded row anchor a is written to. -/
def dest (A1 : IVec S4096 32) : IVec S4096 32 := addi (startSel A1) (localRank A1)

/-- The scatter's index array: dest, a negative word wrapped by 8960, as a column. -/
def destIdx (A1 : IVec S4096 32) : IVec S4096x1 32 :=
  broadcastInDim S4096x1 ![0] bcast_S4096_S4096x1_0
    (select (cmpi .slt (dest A1) (all4096 0#32)) (addi (dest A1) (all4096 8960#32)) (dest A1))

/-- The padded features: zeros, with anchor a's row written at row dest a. -/
def ancPad (A0 : FVec F S4096x256 .f32) (A1 : IVec S4096 32) : FVec F S8960x256 .bf16 :=
  truncf .bf16 (Host.scatter scatter_S8960x256_S4096x1_S4096x256_1_0_0_1 (fun _ b => b)
    (broadcastInDim S8960x256 ![] bcast_S_S8960x256 (constant S_ .f32 0x00000000#32)) (destIdx A1) A0) bitsLt_bf16_f32

/-- The padded labels: −1, with anchor a's label written at row dest a. -/
def labPad (A1 : IVec S4096 32) : IVec S8960x1 32 :=
  shapeCast S8960x1 (Host.scatter scatter_S8960_S4096x1_S4096_n_0_0_1 (fun _ b => b)
    (broadcastInDim S8960 ![] bcast_S_S8960 (constantI S_ 32 4294967295#32)) (destIdx A1) A1) shapeCasts_S8960_S8960x1

/-- The local memory in the kernel's format. -/
def localBf (A4 : FVec F S19x2048x256 .f32) : FVec F S19x2048x256 .bf16 := truncf .bf16 A4 bitsLt_bf16_f32

/-- The first tile of each class: the tile counts rolled by one place, the head zeroed, summed cumulatively. -/
def tileStart (A1 : IVec S4096 32) : IVec S19 32 :=
  cumsum19 (Host.scatter scatter_S19_S1_S__n_0_0_0 (fun _ b => b)
    (concatenate S19 0
      [⟨S1, extractStridedSlice S1 ![18] (ntiles A1) slices_S19_S1_18⟩,
       ⟨S18, extractStridedSlice S18 ![0] (ntiles A1) slices_S19_S18_0⟩] concatenates_S1_S18_S19_d0)
    (broadcastInDim S1 ![] bcast_S_S1 (constantI S_ 32 0#32)) (constantI S_ 32 0#32))

/-- A one added at each class's first tile (a negative word wrapped by 35), over 35 zeros. -/
def splitMarks (A1 : IVec S4096 32) : IVec S35 32 :=
  Host.scatter scatter_S35_S19x1_S19_n_0_0_1 IntOp.addi (all35 0#32)
    (broadcastInDim S19x1 ![0] bcast_S19_S19x1_0
      (select (cmpi .slt (tileStart A1) (all19 0#32)) (addi (tileStart A1) (all19 35#32)) (tileStart A1)))
    (all19 1#32)

/-- For each tile, how many classes start at or before it, less one. -/
def gatherIdx (A1 : IVec S4096 32) : IVec S35 32 := subi (cumsum35 (splitMarks A1)) (all35 1#32)

/-- jnp.take of the class numbers at an index vector: a negative index wrapped by 19, an index outside [0, 18]
    filled with the least word. -/
def takeClass (g : IVec S35 32) : IVec S35 32 :=
  select
    (Host.reduce IntOp.andi
      (andi
        (cmpi .sge (broadcastInDim S35x1 ![0] bcast_S35_S35x1_0 (select (cmpi .slt g (all35 0#32)) (addi g (all35 19#32)) g))
          (broadcastInDim S35x1 ![] bcast_S_S35x1 (constantI S_ 32 0#32)))
        (cmpi .sle (broadcastInDim S35x1 ![0] bcast_S35_S35x1_0 (select (cmpi .slt g (all35 0#32)) (addi g (all35 19#32)) g))
          (broadcastInDim S35x1 ![0, 1] bcast_S1x1_S35x1_0_1 (broadcastInDim S1x1 ![1] bcast_S1_S1x1_1 (constantI S1 32 18#32)))))
      (constantI S_ 1 1#1) reducesTo_S35x1_S35_d1 h_S_)
    (Host.gather gather_S19_S35x1_S35_n_0_n_n_0_1_1 classIota
      (broadcastInDim S35x1 ![0] bcast_S35_S35x1_0 (select (cmpi .slt g (all35 0#32)) (addi g (all35 19#32)) g)))
    (all35 2147483648#32)

/-- The class of each of the 35 tiles, clipped into [0, 18]: the kernel's prefetched table. -/
def clsTable (A1 : IVec S4096 32) : IVec S35 32 :=
  minsi (broadcastInDim S35 ![] bcast_S_S35 (id (constantI S_ 32 18#32)))
    (maxsi (broadcastInDim S35 ![] bcast_S_S35 (id (constantI S_ 32 0#32))) (takeClass (gatherIdx A1)))

end Cert.KernelIdeal.Host

end
-- ==== Proof.HostRead.lean ====
/-
  The arrays the kernel region finds when it is entered, as the host functions of the argument arrays.

  The host operations before the call are run in eleven consecutive segments; the buffers' contents after each
  segment are named (X1 … X11, from the launch contents X0), and the last of them is what the region finds.
  Every buffer is written once, so a buffer keeps through every later segment the contents the segment that
  writes it gave it. Segment by segment, the buffer that carries a stage of the computation (the one-hot
  matrix, the tile counts, the classes' first rows, the running counts, the destination rows, the classes' first
  tiles, the marks, the gather indices, the classes taken) is read as the composition of that segment's
  operations over the stages before it, and that composition is the corresponding host function by unfolding.
-/
import proofs.«425194_j11605001634274_3_alg».proof.Proof.HostChain
import proofs.«425194_j11605001634274_3_alg».proof.Proof.Gen.KernelIdeal.Frame
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo Cert.KernelIdeal Cert.KernelIdeal.Gen

variable {F : FTy → Type} [FloatOps F] [Named F]

/-! ## The segments, and the buffers each writes -/

/-- Segment 1 of the host operations before the call: the reshapes and paddings of the prototype rows, prototype labels and mask. -/
abbrev seg1 : List (HloOp τ sig (Elt F)) := List.flatten [hostOps0, hostOps0_1, hostOps0_2, hostOps0_3, hostOps0_4, hostOps0_5]
/-- The buffers segment 1 writes. -/
abbrev seg1_W : List (Ref sig .tc) := [main_v0, main_v1, main_v2, main_v3, main_v4, main_c, main_call0_v0, main_v5, main_v6, main_c_0, main_call1_v0, main_v7, main_c_1, main_call2_v0, main_v8]
theorem seg1_writes : (seg1 : List (HloOp τ sig (Elt F))).Forall fun op => op.writes ⊆ ((seg1_W.map (Proc.devRef (τ := τ) .tc)).toFinset) := by
  simp only [seg1, hostOps0, hostOps0_1, hostOps0_2, hostOps0_3, hostOps0_4, hostOps0_5, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 2 of the host operations before the call: the one-hot matrix of the labels, the class counts, and counts + 256 − 1. -/
abbrev seg2 : List (HloOp τ sig (Elt F)) := List.flatten [hostOps0_6]
/-- The buffers segment 2 writes. -/
abbrev seg2_W : List (Ref sig .tc) := [main_v9, main_v10, main_v11, main_v12, main_v13, main_v14, main_v15, main_v16, main_v17, main_c_2, main_v18, main_c_3, main_v19, main_v20, main_c_4, main_v21, main_v22, main_c_5]
theorem seg2_writes : (seg2 : List (HloOp τ sig (Elt F))).Forall fun op => op.writes ⊆ ((seg2_W.map (Proc.devRef (τ := τ) .tc)).toFinset) := by
  simp only [seg2, hostOps0_6, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 3 of the host operations before the call: the floor division by 256: the tile counts. -/
abbrev seg3 : List (HloOp τ sig (Elt F)) := List.flatten [hostOps0_7]
/-- The buffers segment 3 writes. -/
abbrev seg3_W : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v23]
theorem seg3_writes : (seg3 : List (HloOp τ sig (Elt F))).Forall fun op => op.writes ⊆ ((seg3_W.map (Proc.devRef (τ := τ) .tc)).toFinset) := by
  simp only [seg3, hostOps0_7, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 4 of the host operations before the call: the first padded row of each class. -/
abbrev seg4 : List (HloOp τ sig (Elt F)) := List.flatten [hostOps0_8, hostOps0_9, hostOps0_10]
/-- The buffers segment 4 writes. -/
abbrev seg4_W : List (Ref sig .tc) := [main_c_6, main_v24, main_v25, main_c_7, main_v26, main_call4_call0_c, main_call4_call0_v0, main_v27, main_v28, main_v29]
theorem seg4_writes : (seg4 : List (HloOp τ sig (Elt F))).Forall fun op => op.writes ⊆ ((seg4_W.map (Proc.devRef (τ := τ) .tc)).toFinset) := by
  simp only [seg4, hostOps0_8, hostOps0_9, hostOps0_10, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 5 of the host operations before the call: the running counts down the anchors. -/
abbrev seg5 : List (HloOp τ sig (Elt F)) := List.flatten [hostOps0_11]
/-- The buffers segment 5 writes. -/
abbrev seg5_W : List (Ref sig .tc) := [main_call5_call0_c, main_call5_call0_v0, main_v30]
theorem seg5_writes : (seg5 : List (HloOp τ sig (Elt F))).Forall fun op => op.writes ⊆ ((seg5_W.map (Proc.devRef (τ := τ) .tc)).toFinset) := by
  simp only [seg5, hostOps0_11, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 6 of the host operations before the call: the destination rows and the two scatters. -/
abbrev seg6 : List (HloOp τ sig (Elt F)) := List.flatten [hostOps0_12]
/-- The buffers segment 6 writes. -/
abbrev seg6_W : List (Ref sig .tc) := [main_c_8, main_v31, main_v32, main_v33, main_c_9, main_v34, main_v35, main_v36, main_v37, main_c_10, main_v38, main_v39, main_cst, main_v40, main_c_11, main_v41, main_v42, main_c_12, main_v43, main_v44, main_v45, main_v46, main_v47, main_v48, main_c_13, main_v49, main_c_14, main_v50, main_v51, main_c_15, main_v52, main_v53, main_v54, main_v55, main_v56, main_v57, main_v58]
theorem seg6_writes : (seg6 : List (HloOp τ sig (Elt F))).Forall fun op => op.writes ⊆ ((seg6_W.map (Proc.devRef (τ := τ) .tc)).toFinset) := by
  simp only [seg6, hostOps0_12, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 7 of the host operations before the call: the first tile of each class. -/
abbrev seg7 : List (HloOp τ sig (Elt F)) := List.flatten [hostOps0_13, hostOps0_14, hostOps0_15]
/-- The buffers segment 7 writes. -/
abbrev seg7_W : List (Ref sig .tc) := [main_call6_v0, main_call6_v1, main_v59, main_c_16, main_v60, main_c_17, main_v61, main_call7_call0_c, main_call7_call0_v0, main_v62]
theorem seg7_writes : (seg7 : List (HloOp τ sig (Elt F))).Forall fun op => op.writes ⊆ ((seg7_W.map (Proc.devRef (τ := τ) .tc)).toFinset) := by
  simp only [seg7, hostOps0_13, hostOps0_14, hostOps0_15, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 8 of the host operations before the call: the marks at the classes' first tiles. -/
abbrev seg8 : List (HloOp τ sig (Elt F)) := List.flatten [hostOps0_16]
/-- The buffers segment 8 writes. -/
abbrev seg8_W : List (Ref sig .tc) := [main_c_18, main_v63, main_c_19, main_v64, main_v65, main_c_20, main_v66, main_v67, main_v68, main_v69, main_c_21, main_v70, main_v71]
theorem seg8_writes : (seg8 : List (HloOp τ sig (Elt F))).Forall fun op => op.writes ⊆ ((seg8_W.map (Proc.devRef (τ := τ) .tc)).toFinset) := by
  simp only [seg8, hostOps0_16, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 9 of the host operations before the call: the cumulative sum of the marks, less one. -/
abbrev seg9 : List (HloOp τ sig (Elt F)) := List.flatten [hostOps0_17, hostOps0_18]
/-- The buffers segment 9 writes. -/
abbrev seg9_W : List (Ref sig .tc) := [main_call8_call0_c, main_call8_call0_v0, main_v72, main_c_22, main_v73, main_v74]
theorem seg9_writes : (seg9 : List (HloOp τ sig (Elt F))).Forall fun op => op.writes ⊆ ((seg9_W.map (Proc.devRef (τ := τ) .tc)).toFinset) := by
  simp only [seg9, hostOps0_17, hostOps0_18, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 10 of the host operations before the call: the class numbers taken at those indices. -/
abbrev seg10 : List (HloOp τ sig (Elt F)) := List.flatten [hostOps0_19]
/-- The buffers segment 10 writes. -/
abbrev seg10_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_c_4, main_call9_v14, main_v75]
theorem seg10_writes : (seg10 : List (HloOp τ sig (Elt F))).Forall fun op => op.writes ⊆ ((seg10_W.map (Proc.devRef (τ := τ) .tc)).toFinset) := by
  simp only [seg10, hostOps0_19, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Segment 11 of the host operations before the call: the clip into [0, 18], and the conversion of the local memory. -/
abbrev seg11 : List (HloOp τ sig (Elt F)) := List.flatten [hostOps0_20, hostOps0_21, hostOps0_22]
/-- The buffers segment 11 writes. -/
abbrev seg11_W : List (Ref sig .tc) := [main_c_23, main_c_24, main_call10_v0, main_call10_v1, main_call10_v2, main_call10_v3, main_call10_v4, main_v76, main_v77]
theorem seg11_writes : (seg11 : List (HloOp τ sig (Elt F))).Forall fun op => op.writes ⊆ ((seg11_W.map (Proc.devRef (τ := τ) .tc)).toFinset) := by
  simp only [seg11, hostOps0_20, hostOps0_21, hostOps0_22, List.flatten_cons, List.flatten_nil, List.append_nil, List.cons_append, List.nil_append, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-! ## The buffers' contents after each segment -/

variable (m : (ℓ : Loc nD τ sig) → Buf (Elt F) ℓ) (c : Dev nD)

/-- Device `c`'s buffers at launch. -/
def X0 : Valuation τ sig (Elt F) := fun b => m (c, b)
/-- … and after segment 1. -/
def X1 : Valuation τ sig (Elt F) := StableHlo.after seg1 (X0 m c)
/-- … and after segment 2. -/
def X2 : Valuation τ sig (Elt F) := StableHlo.after seg2 (X1 m c)
/-- … and after segment 3. -/
def X3 : Valuation τ sig (Elt F) := StableHlo.after seg3 (X2 m c)
/-- … and after segment 4. -/
def X4 : Valuation τ sig (Elt F) := StableHlo.after seg4 (X3 m c)
/-- … and after segment 5. -/
def X5 : Valuation τ sig (Elt F) := StableHlo.after seg5 (X4 m c)
/-- … and after segment 6. -/
def X6 : Valuation τ sig (Elt F) := StableHlo.after seg6 (X5 m c)
/-- … and after segment 7. -/
def X7 : Valuation τ sig (Elt F) := StableHlo.after seg7 (X6 m c)
/-- … and after segment 8. -/
def X8 : Valuation τ sig (Elt F) := StableHlo.after seg8 (X7 m c)
/-- … and after segment 9. -/
def X9 : Valuation τ sig (Elt F) := StableHlo.after seg9 (X8 m c)
/-- … and after segment 10. -/
def X10 : Valuation τ sig (Elt F) := StableHlo.after seg10 (X9 m c)
/-- … and after segment 11. -/
def X11 : Valuation τ sig (Elt F) := StableHlo.after seg11 (X10 m c)

/-- A buffer a segment does not write keeps its contents through it. -/
theorem keep1 (r : Ref sig .tc) (h : r ∉ seg1_W := by decide) : X1 m c (Proc.devRef .tc r) = X0 m c (Proc.devRef .tc r) :=
  StableHlo.after_of_writes_sub seg1 _ seg1_writes h
theorem keep2 (r : Ref sig .tc) (h : r ∉ seg2_W := by decide) : X2 m c (Proc.devRef .tc r) = X1 m c (Proc.devRef .tc r) :=
  StableHlo.after_of_writes_sub seg2 _ seg2_writes h
theorem keep3 (r : Ref sig .tc) (h : r ∉ seg3_W := by decide) : X3 m c (Proc.devRef .tc r) = X2 m c (Proc.devRef .tc r) :=
  StableHlo.after_of_writes_sub seg3 _ seg3_writes h
theorem keep4 (r : Ref sig .tc) (h : r ∉ seg4_W := by decide) : X4 m c (Proc.devRef .tc r) = X3 m c (Proc.devRef .tc r) :=
  StableHlo.after_of_writes_sub seg4 _ seg4_writes h
theorem keep5 (r : Ref sig .tc) (h : r ∉ seg5_W := by decide) : X5 m c (Proc.devRef .tc r) = X4 m c (Proc.devRef .tc r) :=
  StableHlo.after_of_writes_sub seg5 _ seg5_writes h
theorem keep6 (r : Ref sig .tc) (h : r ∉ seg6_W := by decide) : X6 m c (Proc.devRef .tc r) = X5 m c (Proc.devRef .tc r) :=
  StableHlo.after_of_writes_sub seg6 _ seg6_writes h
theorem keep7 (r : Ref sig .tc) (h : r ∉ seg7_W := by decide) : X7 m c (Proc.devRef .tc r) = X6 m c (Proc.devRef .tc r) :=
  StableHlo.after_of_writes_sub seg7 _ seg7_writes h
theorem keep8 (r : Ref sig .tc) (h : r ∉ seg8_W := by decide) : X8 m c (Proc.devRef .tc r) = X7 m c (Proc.devRef .tc r) :=
  StableHlo.after_of_writes_sub seg8 _ seg8_writes h
theorem keep9 (r : Ref sig .tc) (h : r ∉ seg9_W := by decide) : X9 m c (Proc.devRef .tc r) = X8 m c (Proc.devRef .tc r) :=
  StableHlo.after_of_writes_sub seg9 _ seg9_writes h
theorem keep10 (r : Ref sig .tc) (h : r ∉ seg10_W := by decide) : X10 m c (Proc.devRef .tc r) = X9 m c (Proc.devRef .tc r) :=
  StableHlo.after_of_writes_sub seg10 _ seg10_writes h
theorem keep11 (r : Ref sig .tc) (h : r ∉ seg11_W := by decide) : X11 m c (Proc.devRef .tc r) = X10 m c (Proc.devRef .tc r) :=
  StableHlo.after_of_writes_sub seg11 _ seg11_writes h

/-- The contents the region finds are those after the last segment. -/
theorem V0_eq : V0 m c = X11 m c := by
  show StableHlo.after (List.flatten (([hostOps0, hostOps0_1, hostOps0_2, hostOps0_3, hostOps0_4, hostOps0_5] ++ [hostOps0_6] ++ [hostOps0_7]
      ++ [hostOps0_8, hostOps0_9, hostOps0_10] ++ [hostOps0_11] ++ [hostOps0_12] ++ [hostOps0_13, hostOps0_14, hostOps0_15] ++ [hostOps0_16]
      ++ [hostOps0_17, hostOps0_18] ++ [hostOps0_19] ++ [hostOps0_20, hostOps0_21, hostOps0_22] : List (List (HloOp τ sig (Elt F)))))) (fun b => m (c, b)) = _
  simp only [List.flatten_append, StableHlo.after_append]
  rfl

/-- The argument arrays. -/
abbrev A0 : FVec F S4096x256 .f32 := m ((c : Thread nD τ).loc main_arg0)
abbrev A1 : IVec S4096 32 := m ((c : Thread nD τ).loc main_arg1)
abbrev A2 : FVec F S19x32x256 .f32 := m ((c : Thread nD τ).loc main_arg2)
abbrev A3 : IVec S19x32 32 := m ((c : Thread nD τ).loc main_arg3)
abbrev A4 : FVec F S19x2048x256 .f32 := m ((c : Thread nD τ).loc main_arg4)

/- A scatter is a fold over its updates; nothing here looks inside one. -/
attribute [local irreducible] Host.scatter

/-- Read a buffer after a segment: the segment's operations laid out, each one's result rewritten to its function's value,
    and the transports along a reference's own type (identities) removed. -/
local macro "read_seg" : tactic => `(tactic| (
  simp only [seg1, seg2, seg3, seg4, seg5, seg6, seg7, seg8, seg9, seg10, seg11, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results
  try simp only [TRef.ofBuf, TRef.toBuf, cast_eq]))

/-- The same in one pass that visits each shared intermediate once: for the segments whose operations take several
    computed operands. -/
local macro "read_seg_shared" : tactic => `(tactic| (
  simp only [seg1, seg2, seg3, seg4, seg5, seg6, seg7, seg8, seg9, seg10, seg11, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_results_simp
  try simp only [TRef.ofBuf, TRef.toBuf, cast_eq]))

/-! ## Segment 1: the prototype rows, the prototype labels and the mask, padded to 640 -/

theorem X1_v6 : X1 m c (Proc.devRef .tc main_v6) = (Host.protoPad (A2 m c) : FVec F S640x256 .bf16) := by
  unfold X1
  have h2 : X0 m c (Proc.devRef .tc main_arg2) = A2 m c := rfl
  generalize X0 m c = W at *
  read_seg
  rw [h2]
  rfl

theorem X1_v7 : X1 m c (Proc.devRef .tc main_v7)
    = (pad S640 ![0] ![32] ![0]
        (shapeCast S608 (broadcastInDim S19x32 ![0] bcast_S19_S19x32_0 (iotaInDim S19 32 0)) shapeCasts_S19x32_S608)
        (id (constantI S_ 32 4294967295#32)) pads_S608_S640_0320 h_S_ : IVec S640 32) := by
  unfold X1
  generalize X0 m c = W at *
  read_seg
  rfl

theorem X1_v8 : X1 m c (Proc.devRef .tc main_v8)
    = (pad S640 ![0] ![32] ![0] (shapeCast S608 (A3 m c) shapeCasts_S19x32_S608)
        (id (constantI S_ 32 0#32)) pads_S608_S640_0320 h_S_ : IVec S640 32) := by
  unfold X1
  have h3 : X0 m c (Proc.devRef .tc main_arg3) = A3 m c := rfl
  generalize X0 m c = W at *
  read_seg
  rw [h3]
  rfl

/-! ## Segment 2: the padded label and mask rows; the one-hot matrix; the counts, plus 255 -/

theorem X2_v9 : X2 m c (Proc.devRef .tc main_v9) = (Host.protoLab : IVec S1x640 32) := by
  unfold X2
  have h7 := X1_v7 m c
  generalize X1 m c = W at *
  read_seg
  rw [h7]
  rfl

theorem X2_v10 : X2 m c (Proc.devRef .tc main_v10) = (Host.validPad (A3 m c) : IVec S1x640 32) := by
  unfold X2
  have h8 := X1_v8 m c
  generalize X1 m c = W at *
  read_seg
  rw [h8]
  rfl

theorem X2_v17 : X2 m c (Proc.devRef .tc main_v17) = (Host.onehot (A1 m c) : IVec S4096x19 32) := by
  unfold X2
  have h1 : X1 m c (Proc.devRef .tc main_arg1) = A1 m c := by rw [keep1 m c main_arg1]; rfl
  generalize X1 m c = W at *
  read_seg
  rw [h1]
  rfl

theorem X2_v22 : X2 m c (Proc.devRef .tc main_v22)
    = (subi (addi (Host.counts (A1 m c)) (Host.all19 256#32)) (Host.all19 1#32) : IVec S19 32) := by
  unfold X2
  have h1 : X1 m c (Proc.devRef .tc main_arg1) = A1 m c := by rw [keep1 m c main_arg1]; rfl
  generalize X1 m c = W at *
  read_seg
  rw [h1]
  rfl

theorem X2_c5 : X2 m c (Proc.devRef .tc main_c_5) = (constantI S_ 32 256#32 : IVec S_ 32) := by
  unfold X2
  generalize X1 m c = W at *
  read_seg

/-! ## Segment 3: the tile counts -/

theorem X3_v23 : X3 m c (Proc.devRef .tc main_v23) = (Host.ntiles (A1 m c) : IVec S19 32) := by
  unfold X3
  have h22 := X2_v22 m c
  have hc5 := X2_c5 m c
  generalize X2 m c = W at *
  read_seg
  rw [h22, hc5]
  rfl

/-! ## Segment 4: the classes' first rows -/

theorem X4_v29 : X4 m c (Proc.devRef .tc main_v29) = (Host.classStart (A1 m c) : IVec S19 32) := by
  unfold X4
  have h23 := X3_v23 m c
  generalize X3 m c = W at *
  read_seg
  rw [h23]
  rfl

/-! ## Segment 5: the running counts -/

theorem X4_v17 : X4 m c (Proc.devRef .tc main_v17) = (Host.onehot (A1 m c) : IVec S4096x19 32) := by
  rw [keep4 m c main_v17, keep3 m c main_v17]; exact X2_v17 m c

theorem X5_v30 : X5 m c (Proc.devRef .tc main_v30) = (Host.cum (A1 m c) : IVec S4096x19 32) := by
  unfold X5
  have h17 := X4_v17 m c
  generalize X4 m c = W at *
  read_seg
  rw [h17]
  rfl

/-! ## Segment 6: the destination rows, and the anchors' rows and labels scattered to them -/

theorem X5_v17 : X5 m c (Proc.devRef .tc main_v17) = (Host.onehot (A1 m c) : IVec S4096x19 32) := by
  rw [keep5 m c main_v17]; exact X4_v17 m c
theorem X5_v29 : X5 m c (Proc.devRef .tc main_v29) = (Host.classStart (A1 m c) : IVec S19 32) := by
  rw [keep5 m c main_v29]; exact X4_v29 m c
theorem X5_arg0 : X5 m c (Proc.devRef .tc main_arg0) = A0 m c := by
  rw [keep5 m c main_arg0, keep4 m c main_arg0, keep3 m c main_arg0, keep2 m c main_arg0, keep1 m c main_arg0]; rfl
theorem X5_arg1 : X5 m c (Proc.devRef .tc main_arg1) = A1 m c := by
  rw [keep5 m c main_arg1, keep4 m c main_arg1, keep3 m c main_arg1, keep2 m c main_arg1, keep1 m c main_arg1]; rfl

theorem X6_v39 : X6 m c (Proc.devRef .tc main_v39) = (Host.dest (A1 m c) : IVec S4096 32) := by
  unfold X6
  have h17 := X5_v17 m c
  have h29 := X5_v29 m c
  have h30 := X5_v30 m c
  generalize X5 m c = W at *
  read_seg
  rw [h17, h29, h30]
  rfl

theorem X6_v48 : X6 m c (Proc.devRef .tc main_v48) = (Host.ancPad (A0 m c) (A1 m c) : FVec F S8960x256 .bf16) := by
  unfold X6
  have h17 := X5_v17 m c
  have h29 := X5_v29 m c
  have h30 := X5_v30 m c
  have h0 := X5_arg0 m c
  generalize X5 m c = W at *
  read_seg_shared
  rw [h17, h29, h30, h0]
  unfold Host.ancPad Host.destIdx Host.dest Host.startSel Host.localRank
  rfl

theorem X6_v57 : X6 m c (Proc.devRef .tc main_v57) = (Host.labPad (A1 m c) : IVec S8960x1 32) := by
  unfold X6
  have h17 := X5_v17 m c
  have h29 := X5_v29 m c
  have h30 := X5_v30 m c
  have h1 := X5_arg1 m c
  generalize X5 m c = W at *
  read_seg_shared
  rw [h17, h29, h30, h1]
  unfold Host.labPad Host.destIdx Host.dest Host.startSel Host.localRank
  rfl

theorem X6_v58 : X6 m c (Proc.devRef .tc main_v58) = (Host.classIota : IVec S19 32) := by
  unfold X6
  generalize X5 m c = W at *
  read_seg

/-! ## Segment 7: the classes' first tiles -/

theorem X6_v23 : X6 m c (Proc.devRef .tc main_v23) = (Host.ntiles (A1 m c) : IVec S19 32) := by
  rw [keep6 m c main_v23, keep5 m c main_v23, keep4 m c main_v23]; exact X3_v23 m c

theorem X7_v62 : X7 m c (Proc.devRef .tc main_v62) = (Host.tileStart (A1 m c) : IVec S19 32) := by
  unfold X7
  have h23 := X6_v23 m c
  generalize X6 m c = W at *
  read_seg
  rw [h23]
  rfl

/-! ## Segment 8: the marks -/

theorem X8_v71 : X8 m c (Proc.devRef .tc main_v71) = (Host.splitMarks (A1 m c) : IVec S35 32) := by
  unfold X8
  have h62 := X7_v62 m c
  generalize X7 m c = W at *
  read_seg_shared
  rw [h62]
  unfold Host.splitMarks
  rfl

/-! ## Segment 9: the gather indices -/

/-- From any contents `W` holding the marks, segment 9 leaves the gather indices. -/
theorem read9_v74 (W : Valuation τ sig (Elt F))
    (h71 : W (Proc.devRef .tc main_v71) = (Host.splitMarks (A1 m c) : IVec S35 32)) :
    StableHlo.after seg9 W (Proc.devRef .tc main_v74) = (Host.gatherIdx (A1 m c) : IVec S35 32) := by
  read_seg
  rw [h71]
  rfl

theorem X9_v74 : X9 m c (Proc.devRef .tc main_v74) = (Host.gatherIdx (A1 m c) : IVec S35 32) :=
  read9_v74 m c (X8 m c) (X8_v71 m c)

/-! ## Segment 10: the classes taken at the gather indices -/

theorem X9_v58 : X9 m c (Proc.devRef .tc main_v58) = (Host.classIota : IVec S19 32) := by
  rw [keep9 m c main_v58, keep8 m c main_v58, keep7 m c main_v58]; exact X6_v58 m c

theorem X10_v75 : X10 m c (Proc.devRef .tc main_v75) = (Host.takeClass (Host.gatherIdx (A1 m c)) : IVec S35 32) := by
  unfold X10
  have h74 := X9_v74 m c
  have h58 := X9_v58 m c
  generalize X9 m c = W at *
  read_seg_shared
  rw [h74, h58]
  unfold Host.takeClass
  rfl

/-! ## Segment 11: the clip, and the local memory converted -/

theorem X11_v76 : X11 m c (Proc.devRef .tc main_v76) = (Host.clsTable (A1 m c) : IVec S35 32) := by
  unfold X11
  have h75 := X10_v75 m c
  generalize X10 m c = W at *
  read_seg
  rw [h75]
  rfl

theorem X10_arg4 : X10 m c (Proc.devRef .tc main_arg4) = A4 m c := by
  rw [keep10 m c main_arg4, keep9 m c main_arg4, keep8 m c main_arg4, keep7 m c main_arg4, keep6 m c main_arg4,
    keep5 m c main_arg4, keep4 m c main_arg4, keep3 m c main_arg4, keep2 m c main_arg4, keep1 m c main_arg4]; rfl

theorem X11_v77 : X11 m c (Proc.devRef .tc main_v77) = (Host.localBf (A4 m c) : FVec F S19x2048x256 .bf16) := by
  unfold X11
  have h4 := X10_arg4 m c
  generalize X10 m c = W at *
  read_seg
  rw [h4]
  rfl

/-! ## What the region finds -/

/-- The padded features the region stages. -/
theorem V_ancPad : V m c main_v48 = Host.ancPad (m ((c : Thread nD τ).loc main_arg0)) (m ((c : Thread nD τ).loc main_arg1)) := by
  refine (congrFun (V0_eq m c) (Proc.devRef .tc main_v48)).trans ?_
  rw [keep11 m c main_v48, keep10 m c main_v48, keep9 m c main_v48, keep8 m c main_v48, keep7 m c main_v48]
  exact X6_v48 m c

/-- The padded labels the region stages: the scatter of the labels at the destination rows. -/
theorem V_labPad : V m c main_v57 = Host.labPad (m ((c : Thread nD τ).loc main_arg1)) := by
  refine (congrFun (V0_eq m c) (Proc.devRef .tc main_v57)).trans ?_
  rw [keep11 m c main_v57, keep10 m c main_v57, keep9 m c main_v57, keep8 m c main_v57, keep7 m c main_v57]
  exact X6_v57 m c

/-- The padded prototype rows. -/
theorem V_protoPad : V m c main_v6 = Host.protoPad (m ((c : Thread nD τ).loc main_arg2)) := by
  refine (congrFun (V0_eq m c) (Proc.devRef .tc main_v6)).trans ?_
  rw [keep11 m c main_v6, keep10 m c main_v6, keep9 m c main_v6, keep8 m c main_v6, keep7 m c main_v6, keep6 m c main_v6,
    keep5 m c main_v6, keep4 m c main_v6, keep3 m c main_v6, keep2 m c main_v6]
  exact X1_v6 m c

/-- The padded prototype labels. -/
theorem V_protoLab : V m c main_v9 = Host.protoLab := by
  refine (congrFun (V0_eq m c) (Proc.devRef .tc main_v9)).trans ?_
  rw [keep11 m c main_v9, keep10 m c main_v9, keep9 m c main_v9, keep8 m c main_v9, keep7 m c main_v9, keep6 m c main_v9,
    keep5 m c main_v9, keep4 m c main_v9, keep3 m c main_v9]
  exact X2_v9 m c

/-- The padded mask. -/
theorem V_validPad : V m c main_v10 = Host.validPad (m ((c : Thread nD τ).loc main_arg3)) := by
  refine (congrFun (V0_eq m c) (Proc.devRef .tc main_v10)).trans ?_
  rw [keep11 m c main_v10, keep10 m c main_v10, keep9 m c main_v10, keep8 m c main_v10, keep7 m c main_v10, keep6 m c main_v10,
    keep5 m c main_v10, keep4 m c main_v10, keep3 m c main_v10]
  exact X2_v10 m c

/-- The local memory in the kernel's format. -/
theorem V_localBf : V m c main_v77 = Host.localBf (m ((c : Thread nD τ).loc main_arg4)) := by
  refine (congrFun (V0_eq m c) (Proc.devRef .tc main_v77)).trans ?_
  exact X11_v77 m c

/-- The prefetched table: the class of each tile, clipped. -/
theorem tbl_eq : (tbl m 0 : IVec S35 32) = Host.clsTable (m (((0 : Dev nD) : Thread nD τ).loc main_arg1)) := by
  refine (congrFun (V0_eq m 0) (Proc.devRef .tc main_v76)).trans ?_
  exact X11_v76 m 0

end Cert.KernelIdeal.HostRead

end
-- ==== Proof.RowFn.lean ====
/-
  One padded row of the kernel's output, as a function of the arrays the kernel region stages.
-/
import proofs.«425194_j11605001634274_3_alg».proof.Proof.Spec
import proofs.«425194_j11605001634274_3_alg».proof.KernelIdeal
import Idealize.ShloMosaic.Lib.ValueIdx

noncomputable section

namespace Cert.KernelIdeal.Value

open Idealize.ShloMosaic Cert.KernelIdeal ValueIdx

/-- The tile of a padded row. -/
def tileOf (R : Fin 8960) : Fin 35 := ⟨R.val / 256, by have := R.isLt; omega⟩

/-- The class a table word names (a word outside the classes is folded in: the table's words never are). -/
def classOf (w : BitVec 32) : Fin 19 := ⟨w.toNat % 19, Nat.mod_lt _ (by decide)⟩

theorem tileOf_mk (t : Fin 35) (r : Fin 256) (h : 256 * t.val + r.val < 8960) : tileOf ⟨256 * t.val + r.val, h⟩ = t :=
  Fin.ext (by show (256 * t.val + r.val) / 256 = t.val; have := r.isLt; omega)

theorem classOf_of_lt (w : BitVec 32) (h : w.toNat < 19) : classOf w = ⟨w.toNat, h⟩ :=
  Fin.ext (Nat.mod_eq_of_lt h)

/-- Row R of the output column as a function of the arrays the region stages: the kernel's row function of row R of the
    padded features and labels, the table's word at R's tile, the prototype block, and the local rows of the class that
    word names. -/
def rowFn (anc : S8960x256.Idx → EReal) (lab : S8960x1.Idx → BitVec 32) (tb : S35.Idx → BitVec 32)
    (Q : S640x256.Idx → EReal) (plab vld : S1x640.Idx → BitVec 32) (loc : S19x2048x256.Idx → EReal) (R : Fin 8960) : EReal :=
  Cert.Spec.kerRow (fun d => anc (ix2 R d)) (lab (ix2 R (0 : Fin 1))) (tb (ix1 (tileOf R)))
    (fun p d => Q (ix2 p d)) (fun p => plab (ix2 (0 : Fin 1) p)) (fun p => vld (ix2 (0 : Fin 1) p))
    (fun l d => loc (ix3 (classOf (tb (ix1 (tileOf R)))) l d))

/-- The output column: at (R, 0) the row function of R. -/
def rowsOut (anc : S8960x256.Idx → EReal) (lab : S8960x1.Idx → BitVec 32) (tb : S35.Idx → BitVec 32)
    (Q : S640x256.Idx → EReal) (plab vld : S1x640.Idx → BitVec 32) (loc : S19x2048x256.Idx → EReal) :
    S8960x1.Idx → EReal := fun i => rowFn anc lab tb Q plab vld loc ⟨(i 0).val, (i 0).isLt⟩

/-- Row 256 t + r, with the table's word at t a class. -/
theorem rowsOut_at (anc : S8960x256.Idx → EReal) (lab : S8960x1.Idx → BitVec 32) (tb : S35.Idx → BitVec 32)
    (Q : S640x256.Idx → EReal) (plab vld : S1x640.Idx → BitVec 32) (loc : S19x2048x256.Idx → EReal)
    (t : Fin 35) (r : Fin 256) (h : 256 * t.val + r.val < 8960) (hlt : (tb (ix1 t)).toNat < 19) :
    rowsOut anc lab tb Q plab vld loc (ix2 (⟨256 * t.val + r.val, h⟩ : Fin 8960) (0 : Fin 1))
      = Cert.Spec.kerRow (fun d => anc (ix2 (⟨256 * t.val + r.val, h⟩ : Fin 8960) d))
          (lab (ix2 (⟨256 * t.val + r.val, h⟩ : Fin 8960) (0 : Fin 1))) (tb (ix1 t))
          (fun p d => Q (ix2 p d)) (fun p => plab (ix2 (0 : Fin 1) p)) (fun p => vld (ix2 (0 : Fin 1) p))
          (fun l d => loc (ix3 (⟨(tb (ix1 t)).toNat, hlt⟩ : Fin 19) l d)) := by
  show rowFn anc lab tb Q plab vld loc ⟨256 * t.val + r.val, h⟩ = _
  unfold rowFn
  rw [tileOf_mk t r h, classOf_of_lt _ hlt]

/-- The same with the tile given by its number and the table's word at it given by name. -/
theorem rowsOut_at' (anc : S8960x256.Idx → EReal) (lab : S8960x1.Idx → BitVec 32) (tb : S35.Idx → BitVec 32)
    (Q : S640x256.Idx → EReal) (plab vld : S1x640.Idx → BitVec 32) (loc : S19x2048x256.Idx → EReal)
    (tv : ℕ) (htv : tv < 35) (r : Fin 256) (h : 256 * tv + r.val < 8960) (w : BitVec 32)
    (hw : tb (ix1 (⟨tv, htv⟩ : Fin 35)) = w) (hlt : w.toNat < 19) :
    rowsOut anc lab tb Q plab vld loc (ix2 (⟨256 * tv + r.val, h⟩ : Fin 8960) (0 : Fin 1))
      = Cert.Spec.kerRow (fun d => anc (ix2 (⟨256 * tv + r.val, h⟩ : Fin 8960) d))
          (lab (ix2 (⟨256 * tv + r.val, h⟩ : Fin 8960) (0 : Fin 1))) (tb (ix1 (⟨tv, htv⟩ : Fin 35)))
          (fun p d => Q (ix2 p d)) (fun p => plab (ix2 (0 : Fin 1) p)) (fun p => vld (ix2 (0 : Fin 1) p))
          (fun l d => loc (ix3 (⟨w.toNat, hlt⟩ : Fin 19) l d)) := by
  subst hw
  exact rowsOut_at anc lab tb Q plab vld loc ⟨tv, htv⟩ r h hlt

end Cert.KernelIdeal.Value

end
-- ==== Proof.CountFacts.lean ====
/-
  The class counts behind the grouping, as natural numbers.

  cnt c is the number of anchors whose label word is c; nt c = ⌈cnt c / 256⌉ the tiles class c takes; ts c the tiles
  of the classes before c. The host's words hold exactly these numbers: the sums stay far below 2^31.
-/
import proofs.«425194_j11605001634274_3_alg».proof.Proof.HostChain
import Idealize.ShloMosaic.Lib.ValueIdx
import Idealize.ShloMosaic.Lib.StableHlo.Predicate
import Idealize.ShloMosaic.Lib.Pipeline.Value

noncomputable section

namespace Cert.KernelIdeal.Counts

open Idealize.ShloMosaic Cert.KernelIdeal ValueIdx

variable [Facts]

/-- How many anchors have the label word c. -/
def cnt (A1 : IVec S4096 32) (c : Fin 19) : ℕ :=
  (Finset.univ.filter fun a : Fin 4096 => (A1 (ix1 a)).toNat = c.val).card

/-- The tiles of 256 rows class c takes. -/
def nt (A1 : IVec S4096 32) (c : Fin 19) : ℕ := (cnt A1 c + 255) / 256

/-- The tiles of the classes before c. -/
def ts (A1 : IVec S4096 32) (c : Fin 19) : ℕ := ∑ c' ∈ Finset.univ.filter (fun c' : Fin 19 => c' < c), nt A1 c'

/-! ## The counts as natural numbers: every class's tiles fit -/

/-- The classes' anchor sets are disjoint subsets of the 4096 anchors. -/
theorem sum_cnt_le (A1 : IVec S4096 32) : ∑ c : Fin 19, cnt A1 c ≤ 4096 := by
  classical
  unfold cnt
  rw [← Finset.card_biUnion]
  · exact le_trans (Finset.card_le_univ _) (by simp)
  · intro x _ y _ hxy
    show Disjoint _ _
    rw [Finset.disjoint_left]
    intro a ha hb
    rw [Finset.mem_filter] at ha hb
    exact hxy (Fin.ext (ha.2.symm.trans hb.2))

theorem cnt_le (A1 : IVec S4096 32) (c : Fin 19) : cnt A1 c ≤ 4096 := by
  unfold cnt
  exact le_trans (Finset.card_le_univ _) (by simp)

/-- 256 · ⌈cnt c / 256⌉ ≤ cnt c + 255, summed over the 19 classes: 256 · Σ nt ≤ 4096 + 19 · 255 < 256 · 35. -/
theorem sum_nt_le (A1 : IVec S4096 32) : ∑ c : Fin 19, nt A1 c ≤ 35 := by
  have h1 : ∀ c : Fin 19, 256 * nt A1 c ≤ cnt A1 c + 255 := fun c => Nat.mul_div_le _ _
  have h2 : ∑ c : Fin 19, 256 * nt A1 c ≤ ∑ c : Fin 19, (cnt A1 c + 255) := Finset.sum_le_sum fun c _ => h1 c
  rw [← Finset.mul_sum, Finset.sum_add_distrib] at h2
  have h3 := sum_cnt_le A1
  simp only [Finset.sum_const, Finset.card_univ, Fintype.card_fin, smul_eq_mul] at h2
  omega

/-- Every class's tiles lie inside the 35 tiles: Σ_c ⌈cnt c / 256⌉ ≤ 4096 / 256 + 19. -/
theorem ts_add_nt_le (A1 : IVec S4096 32) (c : Fin 19) : ts A1 c + nt A1 c ≤ 35 := by
  classical
  refine le_trans ?_ (sum_nt_le A1)
  unfold ts
  have hc : c ∉ Finset.univ.filter (fun c' : Fin 19 => c' < c) := by simp
  rw [add_comm, ← Finset.sum_insert hc]
  exact Finset.sum_le_sum_of_subset (Finset.subset_univ _)

/-! ## counts: the column sums of the one-hot array -/

theorem ofFin_eq_ix1 {n : ℕ} (p : Fin n) : Shape.Idx.ofFin p = ix1 p := by
  funext a; match a with | ⟨0, _⟩ => exact Fin.ext rfl

open StableHlo.Predicate Facts₀ Facts in
theorem counts_eq (A1 : IVec S4096 32) (c : Fin 19) : (Host.counts A1 (ix1 c)).toNat = cnt A1 c := by
  unfold Host.counts Host.onehot cnt
  rw [toNat_reduce_count_rows (n := 4096) (m := 19) (by norm_num) _ natLt_1_32 reducesTo_S4096x19_S19_d0 h_S_ (ix1 c)]
  congr 1
  apply Finset.filter_congr
  intro p _
  have hX := bcast_rows bcast_S4096_S4096x1_0 bcast_S4096x1_S4096x19_0_1 A1 p c
  have hY := bcast_cols bcast_S19_S1x19_1 bcast_S1x19_S4096x19_0_1 Host.classIota p c
  change IntOp.cmpi .eq (broadcastInDim S4096x19 ![0, 1] bcast_S4096x1_S4096x19_0_1 (broadcastInDim S4096x1 ![0] bcast_S4096_S4096x1_0 A1) (ij p c))
    (broadcastInDim S4096x19 ![0, 1] bcast_S1x19_S4096x19_0_1 (broadcastInDim S1x19 ![1] bcast_S19_S1x19_1 Host.classIota) (ij p c)) = 1#1 ↔ _
  rw [hX, hY, cmpi_eq_iff, ofFin_eq_ix1]
  show A1 (ix1 p) = BitVec.ofNat 32 c.val ↔ _
  have hc := c.isLt
  constructor
  · intro h
    rw [h, BitVec.toNat_ofNat]
    exact Nat.mod_eq_of_lt (by omega)
  · intro h
    apply BitVec.eq_of_toNat_eq
    rw [h, BitVec.toNat_ofNat]
    exact (Nat.mod_eq_of_lt (by omega)).symm

/-! ## ntiles: the floor division of a small positive word by 256 -/

/-- A small word divided by 256: signed division meets no corner, on any unit. -/
theorem divsi_256 (u : ArithUnit) (w : BitVec 32) (hw : w.toNat < 2 ^ 31) : (IntOp.divsi u w 256#32).toNat = w.toNat / 256 := by
  have hcorner : ¬ IntOp.SDivCorner w 256#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (256#32 : BitVec 32).msb = false from by decide, BitVec.udiv_eq,
    BitVec.toNat_udiv, BitVec.toNat_ofNat]

/-- On a positive word below 2³¹ the signs of the word and of 256 agree, so jnp's floor division takes the plain
    quotient. -/
theorem floorDiv256_apply (x : IVec S19 32) (c : Fin 19) (h0 : 0 < (x (ix1 c)).toNat) (hlt : (x (ix1 c)).toNat < 2 ^ 31) :
    (Host.floorDiv256 x (ix1 c)).toNat = (x (ix1 c)).toNat / 256 := by
  have key : Host.floorDiv256 x (ix1 c)
      = Scalar.select
          (IntOp.andi
            (IntOp.cmpi .ne (if x (ix1 c) = 0 then 0 else if (x (ix1 c)).msb then -1 else 1)
              (if (256#32 : BitVec 32) = 0 then 0 else if (256#32 : BitVec 32).msb then -1 else 1))
            (IntOp.cmpi .ne (IntOp.remsi .host (x (ix1 c)) 256#32) 0#32))
          (IntOp.subi (IntOp.divsi .host (x (ix1 c)) 256#32) 1#32)
          (IntOp.divsi .host (x (ix1 c)) 256#32) := rfl
  have hw0 : x (ix1 c) ≠ 0 := by
    intro h; rw [h] at h0; simp at h0
  have hm : (x (ix1 c)).msb = false := BitVec.msb_eq_false_iff_two_mul_lt.mpr (by omega)
  have h1 : IntOp.cmpi .ne (1 : BitVec 32) (if (256#32 : BitVec 32) = 0 then 0 else if (256#32 : BitVec 32).msb then -1 else 1) = 0#1 := by decide
  rw [key, if_neg hw0, hm]
  simp only [Bool.false_eq_true, if_false]
  rw [h1]
  unfold IntOp.andi
  rw [BitVec.zero_and, select_zero]
  exact divsi_256 .host _ hlt

theorem ntiles_eq (A1 : IVec S4096 32) (c : Fin 19) : (Host.ntiles A1 (ix1 c)).toNat = nt A1 c := by
  unfold Host.ntiles nt
  have h2 := cnt_le A1 c
  have hx : (subi (addi (Host.counts A1) (Host.all19 256#32)) (Host.all19 1#32) (ix1 c)).toNat = cnt A1 c + 255 := by
    show (Host.counts A1 (ix1 c) + 256#32 - 1#32).toNat = _
    have h1 := counts_eq A1 c
    simp only [BitVec.toNat_sub, BitVec.toNat_add, BitVec.toNat_ofNat]
    omega
  rw [floorDiv256_apply _ c (by rw [hx]; omega) (by rw [hx]; omega), hx]

/-! ## An inclusive cumulative sum along 19 positions -/

/-- A left fold of word addition from zero whose terms' values sum below 2³² has the sum of the values. -/
theorem toNat_foldl_addi {ι : Type} (l : List ι) (g : ι → BitVec 32) (t : ι → ℕ) (hg : ∀ n, (g n).toNat = t n) (v : BitVec 32)
    (h : v.toNat + (l.map t).sum < 2 ^ 32) :
    (l.foldl (fun r n => IntOp.addi r (g n)) v).toNat = v.toNat + (l.map t).sum := by
  induction l generalizing v with
  | nil => simp
  | cons a l ih =>
    simp only [List.foldl_cons, List.map_cons, List.sum_cons] at h ⊢
    have ha : (IntOp.addi v (g a)).toNat = v.toNat + t a := by
      show (v + g a).toNat = _
      rw [BitVec.toNat_add, hg]
      exact Nat.mod_eq_of_lt (by omega)
    rw [ih _ (by rw [ha]; omega), ha]
    omega

/-- The window of N + 1 positions ending at c reads y at 0 … c: position m of the window reads c + m − N. -/
theorem sum_window (N c : ℕ) (hc : c ≤ N) (y : ℕ → ℕ) :
    ∑ m ∈ Finset.range (N + 1), (if N ≤ c + m then y (c + m - N) else 0) = ∑ k ∈ Finset.range (c + 1), y k := by
  rw [← Finset.sum_filter]
  refine Finset.sum_nbij' (fun m => c + m - N) (fun k => k + N - c) ?_ ?_ ?_ ?_ ?_
  · intro a ha; simp only [Finset.mem_filter, Finset.mem_range] at ha ⊢; omega
  · intro a ha; simp only [Finset.mem_filter, Finset.mem_range] at ha ⊢; omega
  · intro a ha; simp only [Finset.mem_filter, Finset.mem_range] at ha; show c + a - N + N - c = a; omega
  · intro a ha; simp only [Finset.mem_range] at ha; show c + (a + N - c) - N = a; omega
  · intro a _; rfl

/-- The cumulative sum at c is the sum of the words at 0 … c, while the total stays below 2³². -/
theorem cumsum19_toNat (x : IVec S19 32) (y : ℕ → ℕ) (hy : ∀ k : Fin 19, (x (ix1 k)).toNat = y k.val) (c : Fin 19)
    (hsum : ∑ k ∈ Finset.range 19, y k < 2 ^ 32) :
    (Host.cumsum19 x (ix1 c)).toNat = ∑ k ∈ Finset.range (c.val + 1), y k := by
  have hK : (⟨1, ![19]⟩ : Shape).numel = 19 := by decide
  have hc := c.isLt
  -- a window position is its number
  have hpos : ∀ n : Fin (⟨1, ![19]⟩ : Shape).numel, (((⟨1, ![19]⟩ : Shape).rowMajor.symm n) 0).val = n.val := by
    intro n
    have := Shape.rowMajor_val_one ((⟨1, ![19]⟩ : Shape).rowMajor.symm n)
    rw [Equiv.apply_symm_apply] at this
    exact this.symm
  -- the window's values, summed
  have hS : ((List.finRange (⟨1, ![19]⟩ : Shape).numel).map
      (fun n => if 18 ≤ c.val + n.val then y (c.val + n.val - 18) else 0)).sum = ∑ k ∈ Finset.range (c.val + 1), y k := by
    rw [← Fin.sum_univ_def, Fin.sum_univ_eq_sum_range (fun m => if 18 ≤ c.val + m then y (c.val + m - 18) else 0), hK]
    exact sum_window 18 c.val (by omega) y
  have hle : ∑ k ∈ Finset.range (c.val + 1), y k ≤ ∑ k ∈ Finset.range 19, y k :=
    Finset.sum_le_sum_of_subset (Finset.range_mono (by omega))
  unfold Host.cumsum19 Host.reduceWindow
  dsimp only
  refine (toNat_foldl_addi _ _ (fun n => if 18 ≤ c.val + n.val then y (c.val + n.val - 18) else 0) ?_ _ ?_).trans ?_
  · intro n
    have hp := hpos n
    have hn : n.val < 19 := lt_of_lt_of_eq n.isLt hK
    split
    · next hin =>
      have h0 := hin 0
      change 18 ≤ c.val * 1 + ((⟨1, ![19]⟩ : Shape).rowMajor.symm n 0).val
        ∧ c.val * 1 + ((⟨1, ![19]⟩ : Shape).rowMajor.symm n 0).val - 18 < 19 at h0
      rw [hp] at h0
      have hk : c.val + n.val - 18 < 19 := by omega
      rw [if_pos (by omega), ← hy ⟨c.val + n.val - 18, hk⟩]
      apply congrArg BitVec.toNat
      apply congrArg x
      funext a
      obtain rfl : a = 0 := Subsingleton.elim _ _
      apply Fin.ext
      show c.val * 1 + ((⟨1, ![19]⟩ : Shape).rowMajor.symm n 0).val - 18 = c.val + n.val - 18
      rw [hp]; omega
    · next hin =>
      rw [if_neg]
      · rfl
      · intro h
        apply hin
        intro a
        obtain rfl : a = 0 := Subsingleton.elim _ _
        show 18 ≤ c.val * 1 + ((⟨1, ![19]⟩ : Shape).rowMajor.symm n 0).val
          ∧ c.val * 1 + ((⟨1, ![19]⟩ : Shape).rowMajor.symm n 0).val - 18 < 19
        rw [hp]; omega
  · rw [hS]
    show (0#32 : BitVec 32).toNat + _ < _
    simp only [BitVec.toNat_ofNat, Nat.zero_mod, zero_add]
    omega
  · rw [hS]
    show (0#32 : BitVec 32).toNat + _ = _
    simp

/-! ## The tile counts along the natural numbers, and classStart -/

/-- nt at a natural number (0 past the 19 classes). -/
def ntN (A1 : IVec S4096 32) (k : ℕ) : ℕ := if h : k < 19 then nt A1 ⟨k, h⟩ else 0

theorem ntN_val (A1 : IVec S4096 32) (c : Fin 19) : ntN A1 c.val = nt A1 c := dif_pos c.isLt

theorem sum_ntN_range (A1 : IVec S4096 32) : ∑ k ∈ Finset.range 19, ntN A1 k = ∑ c : Fin 19, nt A1 c := by
  rw [← Fin.sum_univ_eq_sum_range]
  exact Finset.sum_congr rfl fun c _ => ntN_val A1 c

theorem sum_ntN_le (A1 : IVec S4096 32) (m : ℕ) (hm : m ≤ 19) : ∑ k ∈ Finset.range m, ntN A1 k ≤ 35 :=
  le_trans (Finset.sum_le_sum_of_subset (Finset.range_mono hm)) (le_of_eq_of_le (sum_ntN_range A1) (sum_nt_le A1))

/-- The tiles before class c, summed along the natural numbers below c. -/
theorem ts_eq_range (A1 : IVec S4096 32) (c : Fin 19) : ts A1 c = ∑ k ∈ Finset.range c.val, ntN A1 k := by
  unfold ts
  refine Finset.sum_bij (fun c' _ => c'.val) ?_ ?_ ?_ ?_
  · intro a ha
    rw [Finset.mem_filter] at ha
    exact Finset.mem_range.2 ha.2
  · intro a _ b _ h
    exact Fin.ext h
  · intro b hb
    have hc := c.isLt
    have hb' := Finset.mem_range.1 hb
    exact ⟨⟨b, by omega⟩, Finset.mem_filter.2 ⟨Finset.mem_univ _, hb'⟩, rfl⟩
  · intro a _
    exact (ntN_val A1 a).symm

theorem nt_le (A1 : IVec S4096 32) (c : Fin 19) : nt A1 c ≤ 16 := by
  unfold nt
  have := cnt_le A1 c
  omega

open Facts₀ Facts in
theorem classStart_eq (A1 : IVec S4096 32) (c : Fin 19) : (Host.classStart A1 (ix1 c)).toNat = 256 * ts A1 c := by
  have hc := c.isLt
  unfold Host.classStart
  by_cases h0 : c.val = 0
  · -- the head: the one zero word, and no class before class 0
    rw [concatenate_pair_apply_left (0 : Fin S19.rank) _ _ concatenates_S1_S18_S19_d0 (ix1 c) rfl (ix1 (0 : Fin 1))
      (by intro b; obtain rfl : b = 0 := Subsingleton.elim _ _; show 0 = c.val; omega)]
    rw [ts_eq_range, h0]
    rfl
  · -- past the head: the cumulative sum of 256 · nt at c − 1
    rw [concatenate_pair_apply_right (0 : Fin S19.rank) _ _ concatenates_S1_S18_S19_d0 (ix1 c) rfl rfl (ix1 (⟨c.val - 1, by omega⟩ : Fin 18))
      (by intro b hb; exact absurd (Subsingleton.elim _ _) hb)
      (by show c.val - 1 + 1 = c.val; omega)]
    rw [extractStridedSlice_apply ![0] _ slices_S19_S18_0 (ix1 (⟨c.val - 1, by omega⟩ : Fin 18)) (ix1 (⟨c.val - 1, by omega⟩ : Fin 19))
      (by intro a; obtain rfl : a = 0 := Subsingleton.elim _ _; show c.val - 1 = 0 + (c.val - 1); omega)]
    rw [cumsum19_toNat _ (fun k => 256 * ntN A1 k) ?_ _ ?_]
    · show ∑ k ∈ Finset.range (c.val - 1 + 1), 256 * ntN A1 k = _
      rw [← Finset.mul_sum, ts_eq_range, show c.val - 1 + 1 = c.val by omega]
    · intro k
      show (Host.ntiles A1 (ix1 k) * 256#32).toNat = 256 * ntN A1 k.val
      rw [BitVec.toNat_mul, ntiles_eq, ntN_val]
      have := nt_le A1 k
      simp only [BitVec.toNat_ofNat]
      omega
    · rw [← Finset.mul_sum]
      have := sum_ntN_le A1 19 le_rfl
      omega

/-! ## tileStart: the tile counts rolled by one, the head zeroed, summed cumulatively -/

open Facts₀ Facts in
/-- The one update at the literal index 0 sets position 0 and leaves the rest. -/
theorem scatter_head (r : IVec S19 32) (k : Fin 19) :
    Host.scatter scatter_S19_S1_S__n_0_0_0 (fun _ b => b) r (broadcastInDim S1 ![] bcast_S_S1 (constantI S_ 32 0#32))
      (constantI S_ 32 0#32) (ix1 k) = if k.val = 0 then 0#32 else r (ix1 k) := by
  have hl : List.finRange S_.numel = [⟨0, by decide⟩] := by decide
  have hres : scatter_S19_S1_S__n_0_0_0.resultIdx? (S_.rowMajor.symm ⟨0, by decide⟩)
      (broadcastInDim S1 ![] bcast_S_S1 (constantI S_ 32 0#32)) = some (ix1 (0 : Fin 19)) := by
    have hst : ∀ a : Fin S19.rank, scatter_S19_S1_S__n_0_0_0.start (S_.rowMajor.symm ⟨0, by decide⟩)
        (broadcastInDim S1 ![] bcast_S_S1 (constantI S_ 32 0#32)) a = 0 := by
      intro a
      unfold ScatterDims.start
      split
      · rfl
      · rfl
    have hwi : ∀ a : Fin S19.rank, scatter_S19_S1_S__n_0_0_0.window (S_.rowMajor.symm ⟨0, by decide⟩) a = 0 := by
      intro a
      obtain rfl : a = 0 := Subsingleton.elim _ _
      unfold ScatterDims.window
      have hmem : (0 : Fin S19.rank) ∉ scatter_S19_S1_S__n_0_0_0.sKept := by
        show (0 : Fin S19.rank) ∉ S19.kept [0]
        decide
      rw [dif_neg hmem]
    unfold ScatterDims.resultIdx?
    rw [dif_pos (by
      intro a
      obtain rfl : a = 0 := Subsingleton.elim _ _
      rw [hst, hwi]
      exact ⟨le_rfl, by decide⟩)]
    congr 1
    funext a
    obtain rfl : a = 0 := Subsingleton.elim _ _
    apply Fin.ext
    simp only [hst, hwi] <;> rfl
  unfold Host.scatter
  rw [hl]
  simp only [List.foldl_cons, List.foldl_nil]
  rw [hres]
  show (if ix1 k = ix1 (0 : Fin 19) then (0#32 : BitVec 32) else r (ix1 k)) = _
  by_cases hk : k.val = 0
  · rw [if_pos hk, if_pos (by rw [show k = 0 from Fin.ext hk])]
  · rw [if_neg hk, if_neg (by intro h; exact hk (congrArg (fun j : S19.Idx => (j 0).val) h))]

open Facts₀ Facts in
theorem tileStart_eq (A1 : IVec S4096 32) (c : Fin 19) : (Host.tileStart A1 (ix1 c)).toNat = ts A1 c := by
  unfold Host.tileStart
  refine (cumsum19_toNat _ (fun k => if k = 0 then 0 else ntN A1 (k - 1)) ?_ c ?_).trans ?_
  · -- the summand: 0 at the head, nt (k − 1) past it
    intro k
    have hk19 := k.isLt
    rw [scatter_head]
    by_cases hk : k.val = 0
    · rw [if_pos hk, if_pos hk]; rfl
    · rw [if_neg hk, if_neg hk]
      rw [concatenate_pair_apply_right (0 : Fin S19.rank) _ _ concatenates_S1_S18_S19_d0 (ix1 k) rfl rfl (ix1 (⟨k.val - 1, by omega⟩ : Fin 18))
        (by intro b hb; exact absurd (Subsingleton.elim _ _) hb)
        (by show k.val - 1 + 1 = k.val; omega)]
      rw [extractStridedSlice_apply ![0] _ slices_S19_S18_0 (ix1 (⟨k.val - 1, by omega⟩ : Fin 18)) (ix1 (⟨k.val - 1, by omega⟩ : Fin 19))
        (by intro a; obtain rfl : a = 0 := Subsingleton.elim _ _; show k.val - 1 = 0 + (k.val - 1); omega)]
      rw [ntiles_eq]
      exact (ntN_val A1 ⟨k.val - 1, by omega⟩).symm
  · -- the total: Σ_{k < 18} nt k
    rw [Finset.sum_range_succ']
    have := sum_ntN_le A1 18 (by omega)
    simp only [Nat.add_sub_cancel, Nat.succ_ne_zero, if_false, if_true, add_zero]
    omega
  · rw [Finset.sum_range_succ', ts_eq_range]
    simp only [Nat.add_sub_cancel, Nat.succ_ne_zero, if_false, if_true, add_zero]

end Cert.KernelIdeal.Counts

end
-- ==== Proof.DestFacts.lean ====
/-
  Where each anchor goes in the padded arrays, and what the padded arrays hold.

  Under labels in [0, 19): anchor a of class c goes to row 256 · ts c + rank a, rank a its rank among the anchors of
  class c. The classes' row ranges are disjoint and ranks within a class are distinct, so the map is injective.
-/
import proofs.«425194_j11605001634274_3_alg».proof.Proof.HostChain
import proofs.«425194_j11605001634274_3_alg».proof.Proof.CountFacts
import Idealize.ShloMosaic.Lib.ValueIdx
import Idealize.ShloMosaic.PureOps.Ideal
import Idealize.ShloMosaic.Lib.StableHlo.Predicate

noncomputable section

namespace Cert.KernelIdeal.Dest

open Idealize.ShloMosaic Cert.KernelIdeal ValueIdx Cert.KernelIdeal.Counts
open Idealize.ShloMosaic.StableHlo

variable [Facts]
open Facts₀ Facts

/-- Anchor a's rank among the earlier anchors of its own label. -/
def rank (A1 : IVec S4096 32) (a : Fin 4096) : ℕ :=
  (Finset.univ.filter fun a' : Fin 4096 => a' < a ∧ A1 (ix1 a') = A1 (ix1 a)).card

/-- The padded row anchor a is written to, as a number. -/
def destN (A1 : IVec S4096 32) (a : Fin 4096) : ℕ := (Host.dest A1 (ix1 a)).toNat

/-! ### Indices: the two spellings of a row-and-column index and of a position agree -/

theorem ij_eq_ix2 {n m : Nat} (p : Fin n) (q : Fin m) : Predicate.ij p q = ix2 p q := by
  funext d; match d with | ⟨0, _⟩ => rfl | ⟨1, _⟩ => rfl

theorem ofFin_eq_ix1 {n : Nat} (p : Fin n) : Shape.Idx.ofFin p = ix1 p := by
  funext d; match d with | ⟨0, _⟩ => rfl

/-! ### The one-hot array: entry (a, c) is 1 when anchor a's label is c, else 0 -/

/-- Entry (a, c) is the widened bit of "label a = c". -/
theorem onehot_apply (A1 : IVec S4096 32) (a : Fin 4096) (c : Fin 19) :
    Host.onehot A1 (ix2 a c) = (IntOp.cmpi .eq (A1 (ix1 a)) (BitVec.ofNat 32 c.val)).setWidth 32 := by
  unfold Host.onehot
  rw [extui_apply]
  show (IntOp.cmpi .eq (broadcastInDim S4096x19 ![0, 1] bcast_S4096x1_S4096x19_0_1 (broadcastInDim S4096x1 ![0] bcast_S4096_S4096x1_0 A1) (ix2 a c))
    (broadcastInDim S4096x19 ![0, 1] bcast_S1x19_S4096x19_0_1 (broadcastInDim S1x19 ![1] bcast_S19_S1x19_1 Host.classIota) (ix2 a c))).setWidth 32 = _
  rw [← ij_eq_ix2, Predicate.bcast_rows, Predicate.bcast_cols, ofFin_eq_ix1 a]
  rfl

/-- A label word is the word of class c exactly when its number is c (c < 19 < 2³²). -/
theorem label_eq_iff (A1 : IVec S4096 32) (a : Fin 4096) (c : Fin 19) :
    A1 (ix1 a) = BitVec.ofNat 32 c.val ↔ (A1 (ix1 a)).toNat = c.val := by
  have hc : c.val % 2 ^ 32 = c.val := Nat.mod_eq_of_lt (by have := c.isLt; omega)
  constructor
  · intro h; rw [h, BitVec.toNat_ofNat]; exact hc
  · intro h; apply BitVec.eq_of_toNat_eq; rw [h, BitVec.toNat_ofNat]; exact hc.symm

theorem onehot_toNat (A1 : IVec S4096 32) (a : Fin 4096) (c : Fin 19) :
    (Host.onehot A1 (ix2 a c)).toNat = if (A1 (ix1 a)).toNat = c.val then 1 else 0 := by
  rw [onehot_apply, Predicate.toNat_setWidth_bit]
  by_cases h : (A1 (ix1 a)).toNat = c.val
  · rw [if_pos h, if_pos (Predicate.cmpi_eq_iff.2 ((label_eq_iff A1 a c).2 h))]
  · rw [if_neg h, if_neg (fun h' => h ((label_eq_iff A1 a c).1 (Predicate.cmpi_eq_iff.1 h')))]

theorem onehot_hit (A1 : IVec S4096 32) (a : Fin 4096) (c : Fin 19) (h : (A1 (ix1 a)).toNat = c.val) :
    Host.onehot A1 (ix2 a c) = 1#32 := by
  apply BitVec.eq_of_toNat_eq; rw [onehot_toNat, if_pos h]; rfl

theorem onehot_miss (A1 : IVec S4096 32) (a : Fin 4096) (c : Fin 19) (h : (A1 (ix1 a)).toNat ≠ c.val) :
    Host.onehot A1 (ix2 a c) = 0#32 := by
  apply BitVec.eq_of_toNat_eq; rw [onehot_toNat, if_neg h]; rfl

theorem onehot_le_one (A1 : IVec S4096 32) (i : S4096x19.Idx) : (Host.onehot A1 i).toNat ≤ 1 := by
  obtain ⟨a, c, rfl⟩ : ∃ (a : Fin 4096) (c : Fin 19), i = ix2 a c := ⟨i 0, i 1, eq_ix2 i⟩
  rw [onehot_toNat]; split <;> omega

/-! ### A sum along a row with one entry that is not zero is that entry -/

/-- Summing row p of an [n × m] array of words over its columns gives the entry at column q when every other entry of
    the row is zero: the sum is over the indices of row p, and all but one of its terms vanish. -/
theorem reduce_cols_single {n m : Nat} (x : IVec ⟨2, ![n, m]⟩ 32)
    (h : (⟨2, ![n, m]⟩ : Shape).ReducesTo [1] ⟨1, ![n]⟩) {u : Shape} (hu : 0 < u.numel)
    (p : Fin n) (q : Fin m) (hz : ∀ q' : Fin m, q' ≠ q → x (ix2 p q') = 0#32) :
    Host.reduce IntOp.addi x (constantI u 32 0#32) h hu (ix1 p) = x (ix2 p q) := by
  classical
  rw [Host.reduce_eq_fold]
  apply BitVec.eq_of_toNat_eq
  -- an index that drops to position p lies in row p
  have hdrop : ∀ (r : Fin n) (s : Fin m), h.drop (ix2 r s) = ix1 p → r = p := by
    intro r s e
    have hv : (h.drop (ix2 r s) 0 : Nat) = (ix2 r s) 0 := Shape.ReducesTo.drop_apply_val h (ix2 r s) 0
    rw [e] at hv
    exact Fin.ext hv.symm
  have hmem : h.drop (ix2 p q) = ix1 p := by
    funext b
    have hb : b = 0 := Subsingleton.elim _ _
    subst hb
    exact Fin.ext (Shape.ReducesTo.drop_apply_val h (ix2 p q) 0)
  have hsum : ∑ i ∈ Finset.univ.filter (fun i : (⟨2, ![n, m]⟩ : Shape).Idx => h.drop i = ix1 p), (x i).toNat
      = (x (ix2 p q)).toNat := by
    refine Finset.sum_eq_single (ix2 p q) ?_ ?_
    · intro i hi hne
      obtain ⟨r, s, rfl⟩ : ∃ (r : Fin n) (s : Fin m), i = ix2 r s := ⟨i 0, i 1, eq_ix2 i⟩
      have h0 : r = p := hdrop r s (Finset.mem_filter.1 hi).2
      subst h0
      have hq : s ≠ q := fun e => hne (by rw [e])
      rw [hz s hq]; rfl
    · intro hnot
      exact absurd (Finset.mem_filter.2 ⟨Finset.mem_univ (ix2 p q), hmem⟩) hnot
  show (Finset.fold IntOp.addi 0#32 x (Finset.univ.filter fun i : (⟨2, ![n, m]⟩ : Shape).Idx => h.drop i = ix1 p)).toNat = _
  rw [Predicate.toNat_fold_addi _ _ (by rw [hsum]; exact (x _).isLt), hsum]

/-! ### The running count down the rows -/

/-- A left fold of word addition over a list has the value of the start plus the sum of the terms' values, when that
    does not reach 2³². -/
theorem toNat_foldl_addi {ι : Type} (l : List ι) (g : ι → BitVec 32) (acc : BitVec 32)
    (hb : acc.toNat + (l.map fun k => (g k).toNat).sum < 2 ^ 32) :
    (l.foldl (fun r k => IntOp.addi r (g k)) acc).toNat = acc.toNat + (l.map fun k => (g k).toNat).sum := by
  induction l generalizing acc with
  | nil => simp
  | cons k l ih =>
    rw [List.map_cons, List.sum_cons] at hb
    rw [List.map_cons, List.sum_cons, List.foldl_cons]
    have hk : (IntOp.addi acc (g k)).toNat = acc.toNat + (g k).toNat := by
      show (acc + g k).toNat = _
      rw [BitVec.toNat_add]; exact Nat.mod_eq_of_lt (by omega)
    rw [ih _ (by rw [hk]; omega), hk]; omega

/-- Column c of a [4096 × 19] array of words as a function of the row number, zero past the last row. -/
def colN (x : IVec S4096x19 32) (c : Fin 19) (k : ℕ) : ℕ :=
  if hk : k < 4096 then (x (ix2 ⟨k, hk⟩ c)).toNat else 0

/-- Window position k of the window ending at row a reads row a + k − 4095 (padding below row 0): over all 4096
    positions that is rows 0 … a. -/
theorem sum_shift (f : ℕ → ℕ) (a : ℕ) (ha : a < 4096) :
    ∑ k ∈ Finset.range 4096, (if 4095 ≤ a + k then f (a + k - 4095) else 0)
      = ∑ k ∈ Finset.range 4096, if k ≤ a then f k else 0 := by
  rw [← Finset.sum_filter, ← Finset.sum_filter]
  refine Finset.sum_nbij' (fun k => a + k - 4095) (fun k => k + 4095 - a) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; show a + k - 4095 + 4095 - a = k; omega
  · intro k hk; simp only [Finset.mem_filter, Finset.mem_range] at hk; show a + (k + 4095 - a) - 4095 = k; omega
  · intro k _; rfl

/-- The cumulative sum down the rows (a window of 4096 rows and one column, padded 4095 rows low) of an array of
    zeros and ones holds, at (a, c), the sum of column c over the rows a' ≤ a. The window's positions are listed in
    row-major order; position (r, 0) reads row a + r − 4095 when that is a row and the padding's zero otherwise. -/
theorem cumRows_toNat (x : IVec S4096x19 32) (hx : ∀ i, (x i).toNat ≤ 1) (a : Fin 4096) (c : Fin 19) :
    (Host.reduceWindow IntOp.addi ![4096, 1] ![1, 1] ![4095, 0] ![0, 0] x
      (broadcastInDim S_ ![] bcast_S_S_ (constantI S_ 32 0#32))
      reduceWindows_S4096x19_S4096x19_w4096s1p4095_0_w1s1p0_0 h_S_ (ix2 a c)).toNat
    = ∑ a' : Fin 4096, if a' ≤ a then (x (ix2 a' c)).toNat else 0 := by
  unfold Host.reduceWindow
  dsimp only
  have hv : broadcastInDim S_ ![] bcast_S_S_ (constantI S_ 32 0#32) (Shape.Idx.first h_S_) = 0#32 := rfl
  rw [hv]
  -- the sum is at most 4096: no wrap
  have hR : (∑ a' : Fin 4096, if a' ≤ a then (x (ix2 a' c)).toNat else 0) < 2 ^ 32 := by
    have h1 : (∑ a' : Fin 4096, if a' ≤ a then (x (ix2 a' c)).toNat else 0) ≤ ∑ _a' : Fin 4096, 1 :=
      Finset.sum_le_sum fun a' _ => by
        split
        · exact hx _
        · exact Nat.zero_le _
    have h2 : (∑ _a' : Fin 4096, 1) = 4096 := by simp
    omega
  have step : ∀ (N : ℕ) (g : Fin N → BitVec 32) (R : ℕ), R < 2 ^ 32 →
      (List.map (fun k => (g k).toNat) (List.finRange N)).sum = R →
      (List.foldl (fun r k => IntOp.addi r (g k)) 0#32 (List.finRange N)).toNat = R := by
    intro N g R hR hs
    rw [toNat_foldl_addi _ _ _ (by rw [hs]; show 0 + R < _; omega), hs]
    show 0 + R = R
    omega
  refine step _ _ _ hR ?_
  rw [← Fin.sum_univ_def]
  -- the sum over the window's row-major positions is the sum over the window's indices (r, s)
  refine (Fintype.sum_equiv (⟨2, ![4096, 1]⟩ : Shape).rowMajor.symm _
    (fun k => if 4095 ≤ a.val + (k 0).val then colN x c (a.val + (k 0).val - 4095) else 0) (fun n => ?_)).trans ?_
  · obtain ⟨r, s, hk⟩ : ∃ (r : Fin 4096) (s : Fin 1), (⟨2, ![4096, 1]⟩ : Shape).rowMajor.symm n = ix2 r s :=
      ⟨_, _, eq_ix2 _⟩
    simp only [hk]
    show _ = if 4095 ≤ a.val + r.val then colN x c (a.val + r.val - 4095) else 0
    split
    · next hin =>
      -- inside the array: the element at row a + r − 4095, column c
      have h0 : 4095 ≤ a.val * 1 + r.val ∧ a.val * 1 + r.val - 4095 < 4096 := hin 0
      have hc : 4095 ≤ a.val + r.val := by omega
      rw [if_pos hc]
      unfold colN
      rw [dif_pos (by omega)]
      refine congrArg (fun i => (x i).toNat) (funext fun d => ?_)
      match d with
      | ⟨0, _⟩ => exact Fin.ext (show a.val * 1 + r.val - 4095 = a.val + r.val - 4095 by omega)
      | ⟨1, _⟩ => exact Fin.ext (show c.val * 1 + s.val - 0 = c.val by have := s.isLt; omega)
    · next hin =>
      -- padding: the row number a + r − 4095 would be negative
      have hc : ¬ 4095 ≤ a.val + r.val := by
        intro hc
        apply hin
        intro d
        match d with
        | ⟨0, _⟩ =>
          exact (show 4095 ≤ a.val * 1 + r.val ∧ a.val * 1 + r.val - 4095 < 4096 from
            ⟨by omega, by have := r.isLt; have := a.isLt; omega⟩)
        | ⟨1, _⟩ =>
          exact (show 0 ≤ c.val * 1 + s.val ∧ c.val * 1 + s.val - 0 < 19 from
            ⟨by omega, by have := s.isLt; have := c.isLt; omega⟩)
      rw [if_neg hc]; rfl
  · rw [sum_idx2]
    simp only [Fin.sum_univ_one]
    show ∑ r : Fin 4096, (if 4095 ≤ a.val + r.val then colN x c (a.val + r.val - 4095) else 0) = _
    rw [Fin.sum_univ_eq_sum_range (fun k => if 4095 ≤ a.val + k then colN x c (a.val + k - 4095) else 0) 4096,
      sum_shift _ _ a.isLt, ← Fin.sum_univ_eq_sum_range (fun k => if k ≤ a.val then colN x c k else 0) 4096]
    refine Finset.sum_congr rfl fun a' _ => ?_
    have hcol : colN x c a'.val = (x (ix2 a' c)).toNat := by
      unfold colN; rw [dif_pos a'.isLt]
    by_cases h : a' ≤ a
    · rw [if_pos h, if_pos (Fin.le_def.1 h), hcol]
    · rw [if_neg h, if_neg (fun h' => h (Fin.le_def.2 h'))]

/-- cum[a, c] is the number of anchors a' ≤ a of label c. -/
theorem cum_toNat (A1 : IVec S4096 32) (a : Fin 4096) (c : Fin 19) :
    (Host.cum A1 (ix2 a c)).toNat
      = (Finset.univ.filter fun a' : Fin 4096 => a' ≤ a ∧ (A1 (ix1 a')).toNat = c.val).card := by
  unfold Host.cum
  rw [cumRows_toNat _ (onehot_le_one A1), Finset.card_filter]
  refine Finset.sum_congr rfl fun a' _ => ?_
  rw [onehot_toNat]
  by_cases h1 : a' ≤ a <;> by_cases h2 : (A1 (ix1 a')).toNat = c.val <;> simp [h1, h2]

/-- At anchor a's own class the running count is a's rank plus one: the anchors a' ≤ a of a's label are the earlier
    ones and a itself. -/
theorem cum_self (A1 : IVec S4096 32) (hA : ∀ a : Fin 4096, (A1 (ix1 a)).toNat < 19) (a : Fin 4096) :
    (Host.cum A1 (ix2 a ⟨(A1 (ix1 a)).toNat, hA a⟩)).toNat = rank A1 a + 1 := by
  rw [cum_toNat]
  unfold rank
  have hset : (Finset.univ.filter fun a' : Fin 4096 => a' ≤ a ∧ (A1 (ix1 a')).toNat = (A1 (ix1 a)).toNat)
      = insert a (Finset.univ.filter fun a' : Fin 4096 => a' < a ∧ A1 (ix1 a') = A1 (ix1 a)) := by
    ext a'
    simp only [Finset.mem_filter, Finset.mem_univ, true_and, Finset.mem_insert]
    constructor
    · rintro ⟨h1, h2⟩
      rcases lt_or_eq_of_le h1 with h | h
      · exact Or.inr ⟨h, BitVec.eq_of_toNat_eq h2⟩
      · exact Or.inl h
    · rintro (h | ⟨h1, h2⟩)
      · subst h; exact ⟨le_refl _, rfl⟩
      · exact ⟨le_of_lt h1, congrArg BitVec.toNat h2⟩
  show (Finset.univ.filter fun a' : Fin 4096 => a' ≤ a ∧ (A1 (ix1 a')).toNat = (A1 (ix1 a)).toNat).card = _
  rw [hset, Finset.card_insert_of_notMem (by simp)]

/-- A rank is at most the number of anchors. -/
theorem rank_le (A1 : IVec S4096 32) (a : Fin 4096) : rank A1 a ≤ 4096 := by
  unfold rank
  exact (Finset.card_le_univ _).trans (by simp)

/-! ### The two sums along the classes -/

/-- The first padded row of anchor a's class: of the sum Σ_c onehot[a, c] · classStart c only a's own class is left. -/
theorem startSel_eq (A1 : IVec S4096 32) (hA : ∀ a : Fin 4096, (A1 (ix1 a)).toNat < 19) (a : Fin 4096) :
    Host.startSel A1 (ix1 a) = Host.classStart A1 (ix1 ⟨(A1 (ix1 a)).toNat, hA a⟩) := by
  unfold Host.startSel
  rw [reduce_cols_single _ _ _ a ⟨(A1 (ix1 a)).toNat, hA a⟩]
  · show IntOp.muli (Host.onehot A1 (ix2 a ⟨(A1 (ix1 a)).toNat, hA a⟩))
      (broadcastInDim S4096x19 ![0, 1] bcast_S1x19_S4096x19_0_1
        (broadcastInDim S1x19 ![1] bcast_S19_S1x19_1 (Host.classStart A1)) (ix2 a ⟨(A1 (ix1 a)).toNat, hA a⟩)) = _
    rw [onehot_hit A1 a _ rfl, ← ij_eq_ix2, Predicate.bcast_cols, ofFin_eq_ix1]
    exact BitVec.one_mul _
  · intro q' hq'
    show IntOp.muli (Host.onehot A1 (ix2 a q')) _ = 0#32
    rw [onehot_miss A1 a q' (fun e => hq' (Fin.ext e.symm))]
    exact BitVec.zero_mul

/-- Anchor a's rank in its class: of the sum Σ_c onehot[a, c] · (cum[a, c] − 1) only a's own class is left, where the
    running count is rank a + 1. -/
theorem localRank_eq (A1 : IVec S4096 32) (hA : ∀ a : Fin 4096, (A1 (ix1 a)).toNat < 19) (a : Fin 4096) :
    Host.localRank A1 (ix1 a) = BitVec.ofNat 32 (rank A1 a) := by
  unfold Host.localRank
  rw [reduce_cols_single _ _ _ a ⟨(A1 (ix1 a)).toNat, hA a⟩]
  · show IntOp.muli (Host.onehot A1 (ix2 a ⟨(A1 (ix1 a)).toNat, hA a⟩))
      (IntOp.subi (Host.cum A1 (ix2 a ⟨(A1 (ix1 a)).toNat, hA a⟩)) 1#32) = _
    have hcum : Host.cum A1 (ix2 a ⟨(A1 (ix1 a)).toNat, hA a⟩) = BitVec.ofNat 32 (rank A1 a + 1) := by
      apply BitVec.eq_of_toNat_eq
      rw [cum_self A1 hA a, BitVec.toNat_ofNat]
      exact (Nat.mod_eq_of_lt (by have := rank_le A1 a; omega)).symm
    rw [onehot_hit A1 a _ rfl, hcum]
    show 1#32 * (BitVec.ofNat 32 (rank A1 a + 1) - 1#32) = _
    rw [BitVec.one_mul, Predicate.sub_one_ofNat _ (by omega) (by have := rank_le A1 a; omega)]
    rfl
  · intro q' hq'
    show IntOp.muli (Host.onehot A1 (ix2 a q')) _ = 0#32
    rw [onehot_miss A1 a q' (fun e => hq' (Fin.ext e.symm))]
    exact BitVec.zero_mul

/-! ### Ranks and tile starts -/

/-- Of two anchors of one label the earlier has the smaller rank: it is counted in the later one's rank and not in
    its own. -/
theorem rank_lt_of_lt (A1 : IVec S4096 32) (a a' : Fin 4096) (hl : A1 (ix1 a) = A1 (ix1 a')) (h : a < a') :
    rank A1 a < rank A1 a' := by
  unfold rank
  apply Finset.card_lt_card
  rw [Finset.ssubset_iff_of_subset]
  · refine ⟨a, ?_, ?_⟩
    · simp only [Finset.mem_filter, Finset.mem_univ, true_and]; exact ⟨h, hl⟩
    · simp
  · intro b hb
    simp only [Finset.mem_filter, Finset.mem_univ, true_and] at hb ⊢
    exact ⟨lt_trans hb.1 h, hb.2.trans hl⟩

/-- A later class starts after the tiles of an earlier one: the classes before c' include c and the classes before c. -/
theorem ts_add_nt_le_ts (A1 : IVec S4096 32) (c c' : Fin 19) (h : c < c') : ts A1 c + nt A1 c ≤ ts A1 c' := by
  unfold ts
  have hnot : c ∉ Finset.univ.filter (fun c'' : Fin 19 => c'' < c) := by simp
  rw [add_comm, ← Finset.sum_insert hnot]
  apply Finset.sum_le_sum_of_subset
  intro c'' hc''
  simp only [Finset.mem_insert, Finset.mem_filter, Finset.mem_univ, true_and] at hc'' ⊢
  rcases hc'' with rfl | h'
  · exact h
  · exact lt_trans h' h

/-- The anchors of a class fit in its tiles. -/
theorem cnt_le (A1 : IVec S4096 32) (c : Fin 19) : cnt A1 c ≤ 256 * nt A1 c := by
  have h : nt A1 c = (cnt A1 c + 255) / 256 := rfl
  omega

/-! ### The destination rows -/

theorem rank_lt_cnt (A1 : IVec S4096 32) (hA : ∀ a : Fin 4096, (A1 (ix1 a)).toNat < 19) (a : Fin 4096) : rank A1 a < cnt A1 ⟨(A1 (ix1 a)).toNat, hA a⟩ := by
  unfold rank cnt
  apply Finset.card_lt_card
  rw [Finset.ssubset_iff_of_subset]
  · exact ⟨a, by simp, by simp⟩
  · intro a' ha'
    simp only [Finset.mem_filter, Finset.mem_univ, true_and] at ha' ⊢
    exact congrArg BitVec.toNat ha'.2

theorem destN_eq (A1 : IVec S4096 32) (hA : ∀ a : Fin 4096, (A1 (ix1 a)).toNat < 19) (a : Fin 4096) : destN A1 a = 256 * ts A1 ⟨(A1 (ix1 a)).toNat, hA a⟩ + rank A1 a := by
  unfold destN Host.dest
  show (Host.startSel A1 (ix1 a) + Host.localRank A1 (ix1 a)).toNat = _
  have hts := ts_add_nt_le A1 ⟨(A1 (ix1 a)).toNat, hA a⟩
  have hr := rank_le A1 a
  have hs : (Host.startSel A1 (ix1 a)).toNat = 256 * ts A1 ⟨(A1 (ix1 a)).toNat, hA a⟩ := by
    rw [startSel_eq A1 hA a, classStart_eq]
  have hl : (Host.localRank A1 (ix1 a)).toNat = rank A1 a := by
    rw [localRank_eq A1 hA a, BitVec.toNat_ofNat]
    exact Nat.mod_eq_of_lt (by omega)
  rw [BitVec.toNat_add, hs, hl]
  exact Nat.mod_eq_of_lt (by omega)

theorem destN_lt (A1 : IVec S4096 32) (hA : ∀ a : Fin 4096, (A1 (ix1 a)).toNat < 19) (a : Fin 4096) : destN A1 a < 8960 := by
  rw [destN_eq A1 hA a]
  have h1 := rank_lt_cnt A1 hA a
  have h2 := ts_add_nt_le A1 ⟨(A1 (ix1 a)).toNat, hA a⟩
  have h3 := cnt_le A1 ⟨(A1 (ix1 a)).toNat, hA a⟩
  omega

theorem destN_inj (A1 : IVec S4096 32) (hA : ∀ a : Fin 4096, (A1 (ix1 a)).toNat < 19) : Function.Injective (destN A1) := by
  intro a a' he
  rw [destN_eq A1 hA a, destN_eq A1 hA a'] at he
  have hra := rank_lt_cnt A1 hA a
  have hra' := rank_lt_cnt A1 hA a'
  have hca := cnt_le A1 ⟨(A1 (ix1 a)).toNat, hA a⟩
  have hca' := cnt_le A1 ⟨(A1 (ix1 a')).toNat, hA a'⟩
  rcases Nat.lt_trichotomy (A1 (ix1 a)).toNat (A1 (ix1 a')).toNat with hlt | heq | hgt
  · -- a's class is earlier: its rows end before the rows of the class of a' begin
    have h := ts_add_nt_le_ts A1 ⟨(A1 (ix1 a)).toNat, hA a⟩ ⟨(A1 (ix1 a')).toNat, hA a'⟩ hlt
    omega
  · -- one class: equal rows mean equal ranks, and ranks within a class are distinct
    have hlab : A1 (ix1 a) = A1 (ix1 a') := BitVec.eq_of_toNat_eq heq
    have hc : (⟨(A1 (ix1 a)).toNat, hA a⟩ : Fin 19) = ⟨(A1 (ix1 a')).toNat, hA a'⟩ := Fin.ext heq
    rw [hc] at he
    have hr : rank A1 a = rank A1 a' := by omega
    rcases lt_trichotomy a a' with h | h | h
    · have := rank_lt_of_lt A1 a a' hlab h; omega
    · exact h
    · have := rank_lt_of_lt A1 a' a hlab.symm h; omega
  · have h := ts_add_nt_le_ts A1 ⟨(A1 (ix1 a')).toNat, hA a'⟩ ⟨(A1 (ix1 a)).toNat, hA a⟩ hgt
    omega

end Cert.KernelIdeal.Dest

end
-- ==== Proof.ScatterFacts.lean ====
/-
  What the padded arrays hold: the scatters read at an index.

  The destination rows are distinct and inside the array, so the scatter that writes anchor a's features (label) at
  its row, over zeros (over −1), holds at that row exactly what anchor a brought, and at a row no anchor goes to what
  was there before.

  The road: a scatter that overwrites is a left fold of single-place overwrites over the update elements. Read at a
  place that exactly one update element lands on, the fold holds that element (later steps write elsewhere, earlier
  ones are overwritten or write elsewhere); read at a place none lands on, it holds the operand. Where an update
  element lands is its start, read signed off the index array, plus its window coordinate, axis by axis; for the two
  scatters here the start is the anchor's destination row on axis 0 and the window coordinate is the column (features)
  or nothing (labels). The destination rows are pairwise distinct, so each place is landed on at most once.
-/
import proofs.«425194_j11605001634274_3_alg».proof.Proof.HostChain
import proofs.«425194_j11605001634274_3_alg».proof.Proof.CountFacts
import proofs.«425194_j11605001634274_3_alg».proof.Proof.DestFacts
import Idealize.ShloMosaic.Lib.ValueIdx
import Idealize.ShloMosaic.Lib.StableHlo.Predicate
import Idealize.ShloMosaic.Lib.Pipeline.Value
import Idealize.ShloMosaic.PureOps.Ideal

noncomputable section

namespace Cert.KernelIdeal.Scatter

open Idealize.ShloMosaic Cert.KernelIdeal ValueIdx Cert.KernelIdeal.Counts Cert.KernelIdeal.Dest
open Idealize.ShloMosaic.StableHlo.Predicate

/-! A fold of single-place overwrites, over any list. -/

/-- A fold of overwrites read at a place exactly one listed element targets: that element's value. The step is
    given by what it does: it writes val n at tgt n and leaves every other place as it was. -/
theorem foldl_set_hit {κ ι α : Type} (tgt : κ → Option ι) (val : κ → α) (stp : (ι → α) → κ → ι → α)
    (hhit : ∀ r n i, tgt n = some i → stp r n i = val n) (hoth : ∀ r n i, tgt n ≠ some i → stp r n i = r i)
    (i : ι) (n₀ : κ) (h₀ : tgt n₀ = some i) (l : List κ) (huniq : ∀ n ∈ l, tgt n = some i → n = n₀) (hmem : n₀ ∈ l)
    (x : ι → α) : (l.foldl stp x) i = val n₀ := by
  induction l using List.reverseRecOn with
  | nil => exact absurd hmem (List.not_mem_nil)
  | append_singleton l n ih =>
    rw [List.foldl_append, List.foldl_cons, List.foldl_nil]
    by_cases hn : tgt n = some i
    · rw [hhit _ _ _ hn, huniq n (List.mem_append_right _ (List.mem_singleton_self n)) hn]
    · rw [hoth _ _ _ hn]
      have hne : n₀ ≠ n := by intro h; rw [h] at h₀; exact hn h₀
      have hmem' : n₀ ∈ l := by
        rcases List.mem_append.1 hmem with h | h
        · exact h
        · exact absurd (List.mem_singleton.1 h) hne
      exact ih (fun m hm => huniq m (List.mem_append_left _ hm)) hmem'

/-- A fold of overwrites read at a place no listed element targets: what was there before. -/
theorem foldl_set_miss {κ ι α : Type} (tgt : κ → Option ι) (stp : (ι → α) → κ → ι → α)
    (hoth : ∀ r n i, tgt n ≠ some i → stp r n i = r i)
    (i : ι) (l : List κ) (hno : ∀ n ∈ l, tgt n ≠ some i) (x : ι → α) : (l.foldl stp x) i = x i := by
  induction l using List.reverseRecOn with
  | nil => rfl
  | append_singleton l n ih =>
    rw [List.foldl_append, List.foldl_cons, List.foldl_nil,
      hoth _ _ _ (hno n (List.mem_append_right _ (List.mem_singleton_self n)))]
    exact ih (fun m hm => hno m (List.mem_append_left _ hm))

/-- A scatter that overwrites, read at a place exactly one update element lands on: that element. -/
theorem scatter_set_hit {s si u : Shape} {w : Nat} {α : Type} (d : ScatterDims s si u) (x : s.Idx → α) (idx : IVec si w)
    (upd : u.Idx → α) (i : s.Idx) (j₀ : u.Idx) (h₀ : d.resultIdx? j₀ idx = some i)
    (huniq : ∀ j, d.resultIdx? j idx = some i → j = j₀) :
    Host.scatter d (fun _ b => b) x idx upd i = upd j₀ := by
  unfold Host.scatter
  refine (foldl_set_hit (fun n => d.resultIdx? (u.rowMajor.symm n) idx) (fun n => upd (u.rowMajor.symm n)) _
    ?_ ?_ i (u.rowMajor j₀) ?_ (List.finRange u.numel) ?_ (List.mem_finRange _) x).trans ?_
  · intro r n i h
    simp only [h, ↓reduceIte]
  · intro r n i h
    cases h' : d.resultIdx? (u.rowMajor.symm n) idx with
    | none => simp only [h']
    | some i' =>
      simp only [h']
      rw [if_neg]
      intro e
      apply h
      simp only [h', e]
  · simp only [Equiv.symm_apply_apply]; exact h₀
  · intro n _ hn
    have := huniq _ hn
    rw [← this, Equiv.apply_symm_apply]
  · simp only [Equiv.symm_apply_apply]

/-- A scatter that overwrites, read at a place no update element lands on: the operand. -/
theorem scatter_set_miss {s si u : Shape} {w : Nat} {α : Type} (d : ScatterDims s si u) (x : s.Idx → α) (idx : IVec si w)
    (upd : u.Idx → α) (i : s.Idx) (hno : ∀ j, d.resultIdx? j idx ≠ some i) :
    Host.scatter d (fun _ b => b) x idx upd i = x i := by
  unfold Host.scatter
  refine foldl_set_miss (fun n => d.resultIdx? (u.rowMajor.symm n) idx) _ ?_ i (List.finRange u.numel) (fun n _ => hno _) x
  intro r n i h
  cases h' : d.resultIdx? (u.rowMajor.symm n) idx with
  | none => simp only [h']
  | some i' =>
    simp only [h']
    rw [if_neg]
    intro e
    apply h
    simp only [h', e]

/-- An update element lands at a place exactly when, on every axis, its start plus its window coordinate is that place's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split_ifs with h
  · constructor
    · intro he a
      have h1 := congrFun (Option.some.inj he) a
      have h2 := congrArg Fin.val h1
      simp only at h2
      have := h a
      omega
    · intro he
      congr 1
      funext a
      apply Fin.ext
      have := he a
      simp only
      omega
  · constructor
    · intro he; cases he
    · intro he
      exfalso
      apply h
      intro a
      have := he a
      have := (i a).isLt
      omega

/-! The index array: anchor a's word is its destination row. -/

variable [Facts]
open Facts₀ Facts

/-- A vector as a column reads, at (a, 0), the vector at a. -/
theorem col_at {α : Type} (v : S4096.Idx → α) (a : Fin 4096) :
    broadcastInDim S4096x1 ![0] bcast_S4096_S4096x1_0 v (ix2 a (0 : Fin 1)) = v (ix1 a) := by
  unfold broadcastInDim
  congr 1
  funext b
  match b with
  | ⟨0, _⟩ =>
    apply Fin.ext
    split
    · next h1 => exact absurd h1 (by decide +revert)
    · rfl

/-- The scatter's index word of anchor a is its destination row itself: a row below 8960 is not negative. -/
theorem destIdx_at (A1 : IVec S4096 32) (hA : ∀ a : Fin 4096, (A1 (ix1 a)).toNat < 19) (a : Fin 4096) :
    Host.destIdx A1 (ix2 a (0 : Fin 1)) = Host.dest A1 (ix1 a) := by
  unfold Host.destIdx
  rw [col_at]
  have hlt : (Host.dest A1 (ix1 a)).toNat < 8960 := destN_lt A1 hA a
  show Scalar.select (IntOp.cmpi .slt (Host.dest A1 (ix1 a)) 0#32) (IntOp.addi (Host.dest A1 (ix1 a)) 8960#32)
    (Host.dest A1 (ix1 a)) = _
  unfold Scalar.select
  rw [if_neg]
  intro h
  have := (slt_iff_toNat (by omega) (by decide)).1 h
  simp at this

/-- Read signed, the index word of anchor a is its destination row. -/
theorem destIdx_toInt (A1 : IVec S4096 32) (hA : ∀ a : Fin 4096, (A1 (ix1 a)).toNat < 19) (a : Fin 4096) :
    (Host.destIdx A1 (ix2 a (0 : Fin 1))).toInt = (destN A1 a : Int) := by
  rw [destIdx_at A1 hA]
  have hlt : (Host.dest A1 (ix1 a)).toNat < 8960 := destN_lt A1 hA a
  rw [toInt_eq_toNat_of_lt (by omega)]
  rfl

/-! The label scatter: one update word per anchor, the one operand axis inserted. -/

theorem lab_start (idx : IVec S4096x1 32) (j : S4096.Idx) (b : Fin 1) :
    scatter_S8960_S4096x1_S4096_n_0_0_1.start j idx b = (idx (ix2 (j 0 : Fin 4096) (0 : Fin 1))).toInt := by
  obtain rfl : b = 0 := Subsingleton.elim _ _
  unfold ScatterDims.start
  split
  · congr 2
    funext c
    match c with
    | ⟨0, _⟩ =>
      unfold ScatterDims.siIdx
      split
      · next hb => exact absurd hb Nat.zero_ne_one
      · apply Fin.ext
        rfl
    | ⟨1, _⟩ =>
      unfold ScatterDims.siIdx
      split
      · rfl
      · next hb => exact absurd rfl hb
  · next hb => exact absurd (List.mem_singleton.2 rfl) hb

theorem lab_window (j : S4096.Idx) (b : Fin 1) : scatter_S8960_S4096x1_S4096_n_0_0_1.window j b = 0 := by
  obtain rfl : b = 0 := Subsingleton.elim _ _
  unfold ScatterDims.window
  split
  · next ha =>
    exfalso
    exact of_decide_eq_true (List.mem_filter.1 ha).2 (List.mem_singleton.2 rfl)
  · rfl

/-- Anchor j's label lands at row r exactly when its index word, read signed, is r. -/
theorem lab_lands (idx : IVec S4096x1 32) (j : S4096.Idx) (r : Fin 8960) :
    scatter_S8960_S4096x1_S4096_n_0_0_1.resultIdx? j idx = some (ix1 r)
      ↔ (idx (ix2 (j 0 : Fin 4096) (0 : Fin 1))).toInt = (r.val : Int) := by
  rw [resultIdx?_eq_some_iff]
  constructor
  · intro h
    have h0 := h ⟨0, by decide⟩
    rw [lab_start, lab_window] at h0
    simpa using h0
  · intro h b
    rw [lab_start, lab_window]
    match b with
    | ⟨0, _⟩ => simpa using h

/-! The feature scatter: one update row per anchor, the column kept as the window. -/

theorem anc_start0 (idx : IVec S4096x1 32) (j : S4096x256.Idx) (h : 0 < 2) :
    scatter_S8960x256_S4096x1_S4096x256_1_0_0_1.start j idx ⟨0, h⟩ = (idx (ix2 (j 0 : Fin 4096) (0 : Fin 1))).toInt := by
  unfold ScatterDims.start
  split
  · congr 2
    funext c
    match c with
    | ⟨0, _⟩ =>
      unfold ScatterDims.siIdx
      split
      · next hb => exact absurd hb Nat.zero_ne_one
      · apply Fin.ext
        rfl
    | ⟨1, _⟩ =>
      unfold ScatterDims.siIdx
      split
      · rfl
      · next hb => exact absurd rfl hb
  · next hb => exact absurd (List.mem_singleton.2 rfl) hb

theorem anc_start1 (idx : IVec S4096x1 32) (j : S4096x256.Idx) (h : 1 < 2) :
    scatter_S8960x256_S4096x1_S4096x256_1_0_0_1.start j idx ⟨1, h⟩ = 0 := by
  unfold ScatterDims.start
  split
  · next hb => exact absurd (congrArg Fin.val (List.mem_singleton.1 hb)) Nat.one_ne_zero
  · rfl

theorem anc_window0 (j : S4096x256.Idx) (h : 0 < 2) :
    scatter_S8960x256_S4096x1_S4096x256_1_0_0_1.window j ⟨0, h⟩ = 0 := by
  unfold ScatterDims.window
  split
  · next ha =>
    exfalso
    exact of_decide_eq_true (List.mem_filter.1 ha).2 (List.mem_singleton.2 rfl)
  · rfl

theorem anc_window1 (j : S4096x256.Idx) (h : 1 < 2) :
    scatter_S8960x256_S4096x1_S4096x256_1_0_0_1.window j ⟨1, h⟩ = (j 1).val := by
  unfold ScatterDims.window
  split
  · rfl
  · next ha =>
    exfalso
    apply ha
    refine List.mem_filter.2 ⟨List.mem_finRange _, decide_eq_true ?_⟩
    intro hm
    exact absurd (congrArg Fin.val (List.mem_singleton.1 hm)) Nat.one_ne_zero

/-- Element (j 0, j 1) of the update lands at (r, q) exactly when anchor j 0's index word, read signed, is r, and
    the column is kept. -/
theorem anc_lands (idx : IVec S4096x1 32) (j : S4096x256.Idx) (r : Fin 8960) (q : Fin 256) :
    scatter_S8960x256_S4096x1_S4096x256_1_0_0_1.resultIdx? j idx = some (ix2 r q)
      ↔ (idx (ix2 (j 0 : Fin 4096) (0 : Fin 1))).toInt = (r.val : Int) ∧ (j 1).val = q.val := by
  rw [resultIdx?_eq_some_iff]
  constructor
  · intro h
    have h0 := h ⟨0, by decide⟩
    have h1 := h ⟨1, by decide⟩
    rw [anc_start0, anc_window0] at h0
    rw [anc_start1, anc_window1] at h1
    refine ⟨by simpa using h0, ?_⟩
    have h1' : (0 : Int) + ((j 1).val : Int) = (q.val : Int) := h1
    omega
  · rintro ⟨h0, h1⟩ b
    match b with
    | ⟨0, _⟩ =>
      rw [anc_start0, anc_window0]
      simpa using h0
    | ⟨1, _⟩ =>
      rw [anc_start1, anc_window1]
      show (0 : Int) + ((j 1).val : Int) = (q.val : Int)
      omega

/-- The padded features at anchor a's row are anchor a's features (at the exact instance a change of format is the identity). -/
theorem ancPad_at (A1 : IVec S4096 32) (hA : ∀ a : Fin 4096, (A1 (ix1 a)).toNat < 19) (A0 : FVec Ideal S4096x256 .f32) (a : Fin 4096) (d : Fin 256) :
    Host.ancPad (F := Ideal) A0 A1 (ix2 (⟨destN A1 a, destN_lt A1 hA a⟩ : Fin 8960) d) = A0 (ix2 a d) := by
  unfold Host.ancPad
  rw [truncf_apply]
  refine scatter_set_hit _ _ _ _ _ (ix2 a d) ?_ ?_
  · rw [anc_lands]
    exact ⟨destIdx_toInt A1 hA a, rfl⟩
  · intro j hj
    rw [anc_lands] at hj
    obtain ⟨h0, h1⟩ := hj
    have h2 : (destN A1 (j 0) : Int) = (destN A1 a : Int) := (destIdx_toInt A1 hA (j 0)).symm.trans h0
    have h3 : (j 0 : Fin 4096) = a := destN_inj A1 hA (by exact_mod_cast h2)
    have h4 : (j 1 : Fin 256) = d := Fin.ext h1
    exact (eq_ix2 j).trans (congrArg₂ ix2 h3 h4)

/-- A vector of 8960 as a column reads, at (r, 0), the vector at r. -/
theorem cast_col_at {α : Type} (v : S8960.Idx → α) (r : Fin 8960) :
    shapeCast S8960x1 v shapeCasts_S8960_S8960x1 (ix2 r (0 : Fin 1)) = v (ix1 r) :=
  shapeCast_apply v _ _ _ (by
    rw [Shape.rowMajor_val_one, Shape.rowMajor_val_two]
    show r.val = r.val * 1 + 0
    omega)

/-- The padded label at anchor a's row is anchor a's label. -/
theorem labPad_at (A1 : IVec S4096 32) (hA : ∀ a : Fin 4096, (A1 (ix1 a)).toNat < 19) (a : Fin 4096) :
    Host.labPad A1 (ix2 (⟨destN A1 a, destN_lt A1 hA a⟩ : Fin 8960) (0 : Fin 1)) = A1 (ix1 a) := by
  unfold Host.labPad
  rw [cast_col_at]
  refine scatter_set_hit _ _ _ _ _ (ix1 a) ?_ ?_
  · rw [lab_lands]
    exact destIdx_toInt A1 hA a
  · intro j hj
    rw [lab_lands] at hj
    have h2 : (destN A1 (j 0) : Int) = (destN A1 a : Int) := (destIdx_toInt A1 hA (j 0)).symm.trans hj
    have h3 : (j 0 : Fin 4096) = a := destN_inj A1 hA (by exact_mod_cast h2)
    exact (eq_ix1 j).trans (congrArg ix1 h3)

/-- A row no anchor goes to keeps the label word −1. -/
theorem labPad_off (A1 : IVec S4096 32) (hA : ∀ a : Fin 4096, (A1 (ix1 a)).toNat < 19) (r : Fin 8960) (hr : ∀ a : Fin 4096, destN A1 a ≠ r.val) :
    Host.labPad A1 (ix2 r (0 : Fin 1)) = 0xFFFFFFFF#32 := by
  unfold Host.labPad
  rw [cast_col_at, scatter_set_miss]
  · rfl
  · intro j hj
    rw [lab_lands] at hj
    have h2 : (destN A1 (j 0) : Int) = (r.val : Int) := (destIdx_toInt A1 hA (j 0)).symm.trans hj
    exact hr (j 0) (by exact_mod_cast h2)

end Cert.KernelIdeal.Scatter

end
-- ==== Proof.ClsFacts.lean ====
/-
  The class table: tile t belongs to the class whose tile range holds t.

  A one is added at position ts c for every class c (positions may coincide when a class is empty), the running sum
  at t counts the classes with ts c ≤ t, and that count less one is the last such class: for t inside class c's
  nonempty range [ts c, ts c + nt c) it is c itself, since ts is monotone and ts c' ≥ ts c + nt c > t for c' > c.
-/
import proofs.«425194_j11605001634274_3_alg».proof.Proof.HostChain
import proofs.«425194_j11605001634274_3_alg».proof.Proof.CountFacts
import Idealize.ShloMosaic.Lib.ValueIdx
import Idealize.ShloMosaic.Lib.ValueIdxRank1
import Idealize.ShloMosaic.Lib.StableHlo.Predicate

noncomputable section

namespace Cert.KernelIdeal.Cls

open Idealize.ShloMosaic Cert.KernelIdeal ValueIdx Cert.KernelIdeal.Counts
open Idealize.ShloMosaic.StableHlo.Predicate

variable [Facts]
open Facts₀ Facts

/-! ## Folds of word addition -/

/-- A left fold of word addition that does not wrap is the sum of the values. -/
theorem foldl_addi_sum {ι : Type} (g : ι → BitVec 32) :
    ∀ (l : List ι) (v : BitVec 32), v.toNat + (l.map fun n => (g n).toNat).sum < 2 ^ 32 →
      (l.foldl (fun r n => IntOp.addi r (g n)) v).toNat = v.toNat + (l.map fun n => (g n).toNat).sum
  | [], v, _ => by simp
  | a :: l, v, h => by
    simp only [List.map_cons, List.sum_cons] at h
    have e : (IntOp.addi v (g a)).toNat = v.toNat + (g a).toNat := by
      show (v + g a).toNat = _
      rw [BitVec.toNat_add]; exact Nat.mod_eq_of_lt (by omega)
    rw [List.foldl_cons, foldl_addi_sum g l _ (by rw [e]; omega), e]
    simp only [List.map_cons, List.sum_cons]; omega

/-- The same over all of `Fin n`, as a sum. -/
theorem foldl_addi_sum_finRange {n : Nat} (g : Fin n → BitVec 32) (v : BitVec 32)
    (h : v.toNat + ∑ k : Fin n, (g k).toNat < 2 ^ 32) :
    ((List.finRange n).foldl (fun r k => IntOp.addi r (g k)) v).toNat = v.toNat + ∑ k : Fin n, (g k).toNat := by
  have e : ∑ k : Fin n, (g k).toNat = ((List.finRange n).map fun k => (g k).toNat).sum := Fin.sum_univ_def _
  rw [e] at h ⊢
  exact foldl_addi_sum g _ v h

/-! ## A scatter that adds -/

/-- A scatter by addition read at one element: the operand's element plus, in order, every update that lands there. -/
theorem scatter_addi_apply {s si u : Shape} {w : Nat} (d : ScatterDims s si u) (x : IVec s 32) (idx : IVec si w)
    (upd : IVec u 32) (i : s.Idx) :
    Host.scatter d IntOp.addi x idx upd i
      = (List.finRange u.numel).foldl (fun r n => IntOp.addi r
          (if d.resultIdx? (u.rowMajor.symm n) idx = some i then upd (u.rowMajor.symm n) else 0#32)) (x i) := by
  unfold Host.scatter
  generalize List.finRange u.numel = l
  induction l generalizing x with
  | nil => rfl
  | cons a l ih =>
    rw [List.foldl_cons, List.foldl_cons, ih]
    congr 1
    cases hr : d.resultIdx? (u.rowMajor.symm a) idx with
    | none => simp [IntOp.addi]
    | some i' =>
      by_cases hi : i = i'
      · subst hi; simp
      · have : ¬ (some i' = some i) := fun e => hi (Option.some.inj e).symm
        simp [hi, this, IntOp.addi]

/-! ## Where the class marks land -/

/-- The start of update `c` of the marks' scatter: its index word read signed. -/
theorem marks_start (idx : IVec S19x1 32) (c : Fin 19) (a : Fin S35.rank) :
    scatter_S35_S19x1_S19_n_0_0_1.start (ix1 c) idx a = (idx (ix2 c 0)).toInt := by
  have ha : a = 0 := Subsingleton.elim _ _
  subst ha
  unfold ScatterDims.start
  rw [dif_pos (show (0 : Fin 1) ∈ scatter_S35_S19x1_S19_n_0_0_1.scatterDimsToOperandDims from List.mem_singleton.mpr rfl)]
  congr 2
  funext b
  match b with
  | ⟨0, _⟩ =>
    unfold ScatterDims.siIdx
    split
    · next hb => exact absurd hb (show ¬ ((0 : Nat) = 1) from by decide)
    · unfold ScatterDims.siCoord
      apply Fin.ext
      simp only [Fin.val_cast]
      have e : ∀ X : Fin 1, ((ix1 c : S19.Idx) X).val = c.val := fun X => by
        have hX : X = 0 := Subsingleton.elim _ _
        subst hX; rfl
      exact e _
  | ⟨1, _⟩ =>
    unfold ScatterDims.siIdx
    split
    · apply Fin.ext
      show List.idxOf (0 : Fin 1) [0] = 0
      simp
    · next hb => exact absurd (show ((1 : Nat) = 1) from rfl) hb

/-- The marks' scatter has no window axes. -/
theorem marks_window (j : S19.Idx) (a : Fin S35.rank) : scatter_S35_S19x1_S19_n_0_0_1.window j a = 0 := by
  have ha : a = 0 := Subsingleton.elim _ _
  subst ha
  unfold ScatterDims.window
  split
  · next ha => exact absurd ha (show (0 : Fin 1) ∉ S35.kept [0] from by decide)
  · rfl

/-- Update `c` lands at position `t` exactly when its index word, read signed, is `t`. -/
theorem marks_resultIdx (idx : IVec S19x1 32) (c : Fin 19) (t : Fin 35) :
    scatter_S35_S19x1_S19_n_0_0_1.resultIdx? (ix1 c) idx = some (ix1 t) ↔ (idx (ix2 c 0)).toInt = (t.val : Int) := by
  have hval : ∀ a, scatter_S35_S19x1_S19_n_0_0_1.start (ix1 c) idx a + (scatter_S35_S19x1_S19_n_0_0_1.window (ix1 c) a : Int) = (idx (ix2 c 0)).toInt := by
    intro a; rw [marks_start, marks_window]; simp
  have hs : ((S35.size 0 : Nat) : Int) = 35 := rfl
  have ht := t.isLt
  unfold ScatterDims.resultIdx?
  by_cases h : ∀ a, 0 ≤ scatter_S35_S19x1_S19_n_0_0_1.start (ix1 c) idx a + (scatter_S35_S19x1_S19_n_0_0_1.window (ix1 c) a : Int)
      ∧ scatter_S35_S19x1_S19_n_0_0_1.start (ix1 c) idx a + (scatter_S35_S19x1_S19_n_0_0_1.window (ix1 c) a : Int) < S35.size a
  · rw [dif_pos h]
    have h0 := h 0
    rw [hval, hs] at h0
    rw [Option.some.injEq]
    constructor
    · intro e
      have e0 := congrArg (fun i : S35.Idx => (i 0).val) e
      change (scatter_S35_S19x1_S19_n_0_0_1.start (ix1 c) idx 0 + (scatter_S35_S19x1_S19_n_0_0_1.window (ix1 c) 0 : Int)).toNat = t.val at e0
      rw [hval] at e0
      omega
    · intro e
      funext a
      have ha : a = 0 := Subsingleton.elim _ _
      subst ha
      apply Fin.ext
      change (scatter_S35_S19x1_S19_n_0_0_1.start (ix1 c) idx 0 + (scatter_S35_S19x1_S19_n_0_0_1.window (ix1 c) 0 : Int)).toNat = t.val
      rw [hval]; omega
  · rw [dif_neg h]
    constructor
    · intro e; exact absurd e (by simp)
    · intro e
      exfalso; apply h
      intro a
      rw [hval]
      have ha : a = 0 := Subsingleton.elim _ _
      subst ha
      rw [hs]
      omega

/-- The marks read at `t`: how many classes have the index word `t` (the index words small non-negative numbers). -/
theorem marks_count (idx : IVec S19x1 32) (hidx : ∀ c : Fin 19, (idx (ix2 c 0)).toNat < 2 ^ 31) (t : Fin 35) :
    (Host.scatter scatter_S35_S19x1_S19_n_0_0_1 IntOp.addi (Host.all35 0#32) idx (Host.all19 1#32) (ix1 t)).toNat
      = (Finset.univ.filter fun c : Fin 19 => (idx (ix2 c 0)).toNat = t.val).card := by
  classical
  have hone : ∀ c : Fin 19, scatter_S35_S19x1_S19_n_0_0_1.resultIdx? (ix1 c) idx = some (ix1 t) ↔ (idx (ix2 c 0)).toNat = t.val := by
    intro c
    rw [marks_resultIdx, toInt_eq_toNat_of_lt (hidx c)]
    omega
  have hsum : ∑ n : Fin S19.numel, (if scatter_S35_S19x1_S19_n_0_0_1.resultIdx? (S19.rowMajor.symm n) idx = some (ix1 t)
      then Host.all19 1#32 (S19.rowMajor.symm n) else 0#32).toNat
        = (Finset.univ.filter fun c : Fin 19 => (idx (ix2 c 0)).toNat = t.val).card := by
    rw [Equiv.sum_comp S19.rowMajor.symm (fun j : S19.Idx => (if scatter_S35_S19x1_S19_n_0_0_1.resultIdx? j idx = some (ix1 t)
      then Host.all19 1#32 j else 0#32).toNat)]
    rw [← Equiv.sum_comp (idxEquiv1 (n := 19)).symm]
    rw [Finset.card_filter]
    refine Finset.sum_congr rfl fun c _ => ?_
    show (if scatter_S35_S19x1_S19_n_0_0_1.resultIdx? (ix1 c) idx = some (ix1 t) then Host.all19 1#32 (ix1 c) else 0#32).toNat = _
    by_cases hc : (idx (ix2 c 0)).toNat = t.val
    · rw [if_pos ((hone c).2 hc), if_pos hc]; rfl
    · rw [if_neg (fun h => hc ((hone c).1 h)), if_neg hc]; rfl
  have hle := Finset.card_le_univ (Finset.univ.filter fun c : Fin 19 => (idx (ix2 c 0)).toNat = t.val)
  rw [Fintype.card_fin] at hle
  have h0 : (Host.all35 0#32 (ix1 t)).toNat = 0 := rfl
  rw [scatter_addi_apply, foldl_addi_sum_finRange _ _ (by rw [hsum, h0]; omega), hsum, h0, Nat.zero_add]

/-! ## The running sum along 35 positions -/

/-- A left fold of word addition from zero over all of `Fin n` whose values sum to `S` below 2³² is `S`. -/
theorem foldl_addi_sum_zero {n : Nat} (g : Fin n → BitVec 32) (S : ℕ) (hS : ∑ k : Fin n, (g k).toNat = S) (hlt : S < 2 ^ 32) :
    ((List.finRange n).foldl (fun r k => IntOp.addi r (g k)) 0#32).toNat = S := by
  rw [foldl_addi_sum_finRange _ _ (by rw [hS]; simpa using hlt), hS]; simp

/-- The words of a vector of 35 by position, zero beyond. -/
def xv (x : IVec S35 32) (k : ℕ) : ℕ := if h : k < 35 then (x (ix1 ⟨k, h⟩)).toNat else 0

/-- The inclusive running sum read at `t`: the window's 35 positions hold the words at positions 0 … t and zero padding. -/
theorem cumsum35_toNat (x : IVec S35 32) (hx : ∑ k : Fin 35, (x (ix1 k)).toNat < 2 ^ 32) (t : Fin 35) :
    (Host.cumsum35 x (ix1 t)).toNat = ∑ k ∈ Finset.range (t.val + 1), xv x k := by
  have ht := t.isLt
  have hwin : ∀ F : ℕ → ℕ, (∑ k ∈ Finset.range 35, if 34 ≤ t.val + k then F (t.val + k - 34) else 0)
      = ∑ k ∈ Finset.range (t.val + 1), F k := by
    intro F
    rw [← Finset.sum_filter]
    have hf : (Finset.range 35).filter (fun k => 34 ≤ t.val + k) = Finset.Ico (34 - t.val) 35 := by
      ext k; simp only [Finset.mem_filter, Finset.mem_range, Finset.mem_Ico]; omega
    rw [hf, Finset.sum_Ico_eq_sum_range]
    have : 35 - (34 - t.val) = t.val + 1 := by omega
    rw [this]
    refine Finset.sum_congr rfl fun k hk => ?_
    rw [Finset.mem_range] at hk
    congr 1; omega
  have hall : ∑ k ∈ Finset.range 35, xv x k = ∑ k : Fin 35, (x (ix1 k)).toNat := by
    rw [← Fin.sum_univ_eq_sum_range]
    refine Finset.sum_congr rfl fun k _ => ?_
    unfold xv; rw [dif_pos k.isLt]
  have hle : ∑ k ∈ Finset.range (t.val + 1), xv x k ≤ ∑ k ∈ Finset.range 35, xv x k :=
    Finset.sum_le_sum_of_subset (by intro k; simp only [Finset.mem_range]; omega)
  unfold Host.cumsum35 Host.reduceWindow
  dsimp only
  refine foldl_addi_sum_zero _ _ ?_ (by omega)
  rw [← hwin (xv x), ← Fin.sum_univ_eq_sum_range (fun k => if 34 ≤ t.val + k then xv x (t.val + k - 34) else 0) 35]
  refine (Fintype.sum_equiv ((idxEquiv1 (n := 35)).symm.trans (⟨1, ![35]⟩ : Shape).rowMajor) _ _ fun k => ?_).symm
  simp only [Equiv.trans_apply, Equiv.symm_apply_apply]
  have hk35 := k.isLt
  split
  · next hq =>
    split
    · next hin =>
      have hk : t.val + k.val - 34 < 35 := by omega
      unfold xv
      rw [dif_pos hk]
      apply congrArg BitVec.toNat
      apply congrArg x
      funext a
      have ha : a = 0 := Subsingleton.elim _ _
      subst ha
      apply Fin.ext
      show t.val + k.val - 34 = t.val * 1 + k.val - 34
      omega
    · next hin =>
      exfalso
      apply hin
      intro a
      have ha : a = 0 := Subsingleton.elim _ _
      subst ha
      show 34 ≤ t.val * 1 + k.val ∧ t.val * 1 + k.val - 34 < 35
      omega
  · next hq =>
    split
    · next hin =>
      exfalso
      apply hq
      have h0 := (hin 0).1
      change 34 ≤ t.val * 1 + k.val at h0
      omega
    · rfl

/-! ## The classes that start at or before a tile -/

/-- The tile starts are monotone: a sum of more non-negative terms. -/
theorem cls_ts_mono (A1 : IVec S4096 32) {c c' : Fin 19} (h : c' ≤ c) : ts A1 c' ≤ ts A1 c := by
  unfold ts
  apply Finset.sum_le_sum_of_subset
  intro k hk
  simp only [Finset.mem_filter, Finset.mem_univ, true_and] at hk ⊢
  exact lt_of_lt_of_le hk h

/-- A later class starts at or after the end of class `c`'s range. -/
theorem cls_ts_succ_le (A1 : IVec S4096 32) {c c' : Fin 19} (h : c < c') : ts A1 c + nt A1 c ≤ ts A1 c' := by
  unfold ts
  have hsub : insert c (Finset.univ.filter (· < c)) ⊆ Finset.univ.filter (· < c') := by
    intro k hk
    simp only [Finset.mem_insert, Finset.mem_filter, Finset.mem_univ, true_and] at hk ⊢
    rcases hk with rfl | hk
    · exact h
    · exact lt_trans hk h
  have := Finset.sum_le_sum_of_subset (f := nt A1) hsub
  rw [Finset.sum_insert (by simp)] at this
  omega

/-- For a tile inside class `c`'s range the classes starting at or before it are 0 … c. -/
theorem count_starts (A1 : IVec S4096 32) (t : ℕ) (c : Fin 19) (h1 : ts A1 c ≤ t) (h2 : t < ts A1 c + nt A1 c) :
    (Finset.univ.filter fun c' : Fin 19 => ts A1 c' ≤ t).card = c.val + 1 := by
  have : (Finset.univ.filter fun c' : Fin 19 => ts A1 c' ≤ t) = Finset.Iic c := by
    ext c'
    simp only [Finset.mem_filter, Finset.mem_univ, true_and, Finset.mem_Iic]
    constructor
    · intro h
      by_contra hc
      have := cls_ts_succ_le A1 (lt_of_not_ge hc)
      omega
    · intro h; exact le_trans (cls_ts_mono A1 h) h1
  rw [this, Fin.card_Iic]

/-- Counting by value: the classes with `f c ≤ t` are those with `f c = k`, over `k ≤ t`. -/
theorem sum_fibers (f : Fin 19 → ℕ) (t : ℕ) :
    ∑ k ∈ Finset.range (t + 1), (Finset.univ.filter fun c : Fin 19 => f c = k).card
      = (Finset.univ.filter fun c : Fin 19 => f c ≤ t).card := by
  rw [Finset.card_eq_sum_card_fiberwise (s := Finset.univ.filter fun c => f c ≤ t) (t := Finset.range (t + 1)) (f := f)]
  · refine Finset.sum_congr rfl fun k hk => ?_
    rw [Finset.filter_filter]
    congr 1
    ext c
    simp only [Finset.mem_range] at hk
    simp only [Finset.mem_filter, Finset.mem_univ, true_and]
    omega
  · intro c hc
    simp only [Finset.mem_filter, Finset.mem_univ, true_and, Finset.coe_filter, Set.mem_setOf_eq] at hc
    simp only [Finset.coe_range, Set.mem_Iio, Finset.mem_range]
    omega

/-! ## The take of the class numbers, and the clip -/

theorem ix2_zero_ixP {n : Nat} (p : Fin n) : (ix2 p (0 : Fin 1) : (⟨2, ![n, 1]⟩ : Shape).Idx) = ixP p := by
  funext d; match d with | ⟨0, _⟩ => rfl | ⟨1, _⟩ => rfl

theorem ofFin_ix1 {n : Nat} (p : Fin n) : (Shape.Idx.ofFin p : (⟨1, ![n]⟩ : Shape).Idx) = ix1 p := by
  funext d; match d with | ⟨0, _⟩ => rfl

/-- A vector of 35 as a column reads, at row `p`, the vector at `p`. -/
theorem col35_apply (g : IVec S35 32) (p : Fin 35) :
    broadcastInDim S35x1 ![0] bcast_S35_S35x1_0 g (ix2 p 0) = g (ix1 p) := by
  rw [ix2_zero_ixP, ← ofFin_ix1]
  exact bcast_col1 bcast_S35_S35x1_0 g p

/-- An and-reduce from one whose elements are all one is one. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  have key : ∀ (l : List s.Idx), (∀ i ∈ l, x i = 1#1) → l.foldl (fun r i => IntOp.andi r (x i)) 1#1 = 1#1 := by
    intro l
    induction l with
    | nil => intro _; rfl
    | cons a l ih =>
      intro hl
      rw [List.foldl_cons, hl a List.mem_cons_self, show IntOp.andi 1#1 1#1 = 1#1 from by decide]
      exact ih fun i hi => hl i (List.mem_cons_of_mem _ hi)
  apply key
  intro i hi
  rw [List.mem_filter] at hi
  exact hx i (by simpa using hi.2)

/-- jnp's wrap of a negative index leaves a small non-negative word alone. -/
theorem wrap19_apply (g : IVec S35 32) (t : Fin 35) (h : (g (ix1 t)).toNat < 2 ^ 31) :
    select (cmpi .slt g (Host.all35 0#32)) (addi g (Host.all35 19#32)) g (ix1 t) = g (ix1 t) := by
  show Scalar.select (IntOp.cmpi .slt (g (ix1 t)) 0#32) _ (g (ix1 t)) = _
  have h0 : IntOp.cmpi .slt (g (ix1 t)) 0#32 = 0#1 :=
    eq_zero_of_ne_one fun e => by
      have := (slt_iff_toNat h (by decide)).1 e
      simp at this
  rw [h0, select_zero]

/-- The in-bounds test of the take is one where the index word is in [0, 18]. -/
theorem inb_one (gw : IVec S35 32) (t : Fin 35) (h : (gw (ix1 t)).toNat ≤ 18) :
    Host.reduce IntOp.andi
      (andi
        (cmpi .sge (broadcastInDim S35x1 ![0] bcast_S35_S35x1_0 gw)
          (broadcastInDim S35x1 ![] bcast_S_S35x1 (constantI S_ 32 0#32)))
        (cmpi .sle (broadcastInDim S35x1 ![0] bcast_S35_S35x1_0 gw)
          (broadcastInDim S35x1 ![0, 1] bcast_S1x1_S35x1_0_1 (broadcastInDim S1x1 ![1] bcast_S1_S1x1_1 (constantI S1 32 18#32)))))
      (constantI S_ 1 1#1) reducesTo_S35x1_S35_d1 h_S_ (ix1 t) = 1#1 := by
  apply reduce_andi_one
  · rfl
  · intro i hi
    have hi0 : (i 0).val = t.val := by
      have hv : (reducesTo_S35x1_S35_d1.drop i 0 : Nat) = i 0 := Shape.ReducesTo.drop_apply_val reducesTo_S35x1_S35_d1 i 0
      rw [hi] at hv
      exact hv.symm
    obtain ⟨a, b, rfl⟩ : ∃ a b, i = ix2 a b := ⟨i 0, i 1, eq_ix2 i⟩
    have hat : a = t := Fin.ext hi0
    subst hat
    have hb : b = 0 := Subsingleton.elim _ _
    subst hb
    show IntOp.andi (IntOp.cmpi .sge (broadcastInDim S35x1 ![0] bcast_S35_S35x1_0 gw (ix2 a 0)) 0#32)
      (IntOp.cmpi .sle (broadcastInDim S35x1 ![0] bcast_S35_S35x1_0 gw (ix2 a 0)) 18#32) = 1#1
    rw [col35_apply, (sge_iff_toNat (by omega) (by decide)).2 (by simp),
      (sle_iff_toNat (by omega) (by decide)).2 (by simpa using h)]
    decide

/-- The take reads the class number at an index word in [0, 18]. -/
theorem take_apply (gw : IVec S35 32) (t : Fin 35) (c : ℕ) (hc : c ≤ 18) (hg : gw (ix1 t) = BitVec.ofNat 32 c) :
    Host.gather gather_S19_S35x1_S35_n_0_n_n_0_1_1 Host.classIota
      (broadcastInDim S35x1 ![0] bcast_S35_S35x1_0 gw) (ix1 t) = BitVec.ofNat 32 c := by
  rw [← ofFin_ix1, gather_take gather_S19_S35x1_S35_n_0_n_n_0_1_1 rfl rfl rfl rfl Host.classIota _ t (by decide)]
  show BitVec.ofNat 32 (min (broadcastInDim S35x1 ![0] bcast_S35_S35x1_0 gw (ixP t)).toInt.toNat (19 - 1)) = _
  rw [← ix2_zero_ixP, col35_apply, hg, toInt_ofNat_small c (by omega)]
  congr 1
  omega

/-- The take of the class numbers at a vector whose word at `t` is `c ≤ 18`. -/
theorem takeClass_eq (g : IVec S35 32) (t : Fin 35) (c : ℕ) (hc : c ≤ 18) (hg : g (ix1 t) = BitVec.ofNat 32 c) :
    Host.takeClass g (ix1 t) = BitVec.ofNat 32 c := by
  have hgn : (g (ix1 t)).toNat = c := by rw [hg, BitVec.toNat_ofNat]; exact Nat.mod_eq_of_lt (by omega)
  have hw := wrap19_apply g t (by omega)
  unfold Host.takeClass
  rw [select_apply, inb_one _ t (by rw [hw]; omega), select_one, take_apply _ t c hc (by rw [hw]; exact hg)]

/-- The clip into [0, 18] of a word already there. -/
theorem clip_eq (c : ℕ) (hc : c ≤ 18) : IntOp.minsi 18#32 (IntOp.maxsi 0#32 (BitVec.ofNat 32 c)) = BitVec.ofNat 32 c := by
  have hi : (BitVec.ofNat 32 c).toInt = c := toInt_ofNat_small c (by omega)
  have hm : IntOp.maxsi 0#32 (BitVec.ofNat 32 c) = BitVec.ofNat 32 c := by
    unfold IntOp.maxsi
    rw [if_neg]
    rw [BitVec.slt_iff_toInt_lt, hi]
    have : (0#32 : BitVec 32).toInt = 0 := by decide
    omega
  rw [hm]
  unfold IntOp.minsi
  rw [if_neg]
  rw [BitVec.slt_iff_toInt_lt, hi]
  have : (18#32 : BitVec 32).toInt = 18 := by decide
  omega

/-! ## The class table -/

/-- A vector of 19 as a column reads, at row `p`, the vector at `p`. -/
theorem col19_apply (g : IVec S19 32) (p : Fin 19) :
    broadcastInDim S19x1 ![0] bcast_S19_S19x1_0 g (ix2 p 0) = g (ix1 p) := by
  rw [ix2_zero_ixP, ← ofFin_ix1]
  exact bcast_col1 bcast_S19_S19x1_0 g p

/-- jnp's wrap of a negative position leaves a small non-negative word alone. -/
theorem wrap35_apply (g : IVec S19 32) (c : Fin 19) (h : (g (ix1 c)).toNat < 2 ^ 31) :
    select (cmpi .slt g (Host.all19 0#32)) (addi g (Host.all19 35#32)) g (ix1 c) = g (ix1 c) := by
  show Scalar.select (IntOp.cmpi .slt (g (ix1 c)) 0#32) _ (g (ix1 c)) = _
  have h0 : IntOp.cmpi .slt (g (ix1 c)) 0#32 = 0#1 :=
    eq_zero_of_ne_one fun e => by
      have := (slt_iff_toNat h (by decide)).1 e
      simp at this
  rw [h0, select_zero]

/-- The marks at position `k`: how many classes start at tile `k`. -/
theorem splitMarks_toNat (A1 : IVec S4096 32) (k : Fin 35) :
    (Host.splitMarks A1 (ix1 k)).toNat = (Finset.univ.filter fun c : Fin 19 => ts A1 c = k.val).card := by
  have hts : ∀ c : Fin 19, (Host.tileStart A1 (ix1 c)).toNat < 2 ^ 31 := fun c => by
    rw [tileStart_eq]; have := ts_add_nt_le A1 c; omega
  have hidx : ∀ c : Fin 19, (broadcastInDim S19x1 ![0] bcast_S19_S19x1_0
      (select (cmpi .slt (Host.tileStart A1) (Host.all19 0#32)) (addi (Host.tileStart A1) (Host.all19 35#32)) (Host.tileStart A1))
      (ix2 c 0)).toNat = ts A1 c := fun c => by
    rw [col19_apply, wrap35_apply _ c (hts c), tileStart_eq]
  unfold Host.splitMarks
  rw [marks_count _ (fun c => by rw [hidx]; have := ts_add_nt_le A1 c; omega) k]
  refine congrArg Finset.card (Finset.filter_congr fun c _ => ?_)
  rw [hidx]

/-- The running count at tile `t` inside class `c`'s range is `c + 1`. -/
theorem cumMarks_toNat (A1 : IVec S4096 32) (t : Fin 35) (c : Fin 19) (h1 : ts A1 c ≤ t.val) (h2 : t.val < ts A1 c + nt A1 c) :
    (Host.cumsum35 (Host.splitMarks A1) (ix1 t)).toNat = c.val + 1 := by
  have hb : ∑ k : Fin 35, (Host.splitMarks A1 (ix1 k)).toNat < 2 ^ 32 := by
    have : ∑ k : Fin 35, (Host.splitMarks A1 (ix1 k)).toNat ≤ ∑ _k : Fin 35, 19 := by
      refine Finset.sum_le_sum fun k _ => ?_
      rw [splitMarks_toNat]
      exact (Finset.card_le_univ _).trans (by simp)
    simp at this
    omega
  rw [cumsum35_toNat _ hb t]
  have hx : ∀ k ∈ Finset.range (t.val + 1), xv (Host.splitMarks A1) k = (Finset.univ.filter fun c : Fin 19 => ts A1 c = k).card := by
    intro k hk
    rw [Finset.mem_range] at hk
    have hk35 : k < 35 := by have := t.isLt; omega
    unfold xv
    rw [dif_pos hk35]
    exact splitMarks_toNat A1 ⟨k, hk35⟩
  rw [Finset.sum_congr rfl hx, sum_fibers, count_starts A1 t.val c h1 h2]

/-- The table word of a tile inside class c's tile range is c. -/
theorem clsTable_eq (A1 : IVec S4096 32) (t : Fin 35) (c : Fin 19) (h1 : ts A1 c ≤ t.val) (h2 : t.val < ts A1 c + nt A1 c) :
    Host.clsTable A1 (ix1 t) = BitVec.ofNat 32 c.val := by
  have hc := c.isLt
  have hcs := cumMarks_toNat A1 t c h1 h2
  have hg : Host.gatherIdx A1 (ix1 t) = BitVec.ofNat 32 c.val := by
    show IntOp.subi (Host.cumsum35 (Host.splitMarks A1) (ix1 t)) 1#32 = _
    have hw : Host.cumsum35 (Host.splitMarks A1) (ix1 t) = BitVec.ofNat 32 (c.val + 1) := by
      apply BitVec.eq_of_toNat_eq
      rw [hcs, BitVec.toNat_ofNat]
      exact (Nat.mod_eq_of_lt (by omega)).symm
    rw [hw]
    exact sub_one_ofNat (c.val + 1) (by omega) (by omega)
  show IntOp.minsi 18#32 (IntOp.maxsi 0#32 (Host.takeClass (Host.gatherIdx A1) (ix1 t))) = _
  rw [takeClass_eq _ t c.val (by omega) hg, clip_eq c.val (by omega)]

end Cert.KernelIdeal.Cls

end
-- ==== Proof.PadFacts.lean ====
/-
  The prototype side of the kernel's inputs, read at an index.

  The 640 prototype rows are the 608 rows of the [19, 32, 256] array in row-major order (row p is class p / 32, unit
  p % 32) followed by 32 zero rows; their label words are p / 32 then −1; their mask words the [19, 32] mask in the same
  order then 0. The local memory keeps its shape: row l of class c is the flat row 2048 c + l.
-/
import proofs.«425194_j11605001634274_3_alg».proof.Proof.Spec
import proofs.«425194_j11605001634274_3_alg».proof.Proof.HostChain
import Idealize.ShloMosaic.Lib.ValueIdx
import Idealize.ShloMosaic.Lib.ValueLayout
import Idealize.ShloMosaic.Lib.Pipeline.Value
import Idealize.ShloMosaic.PureOps.Ideal
import Idealize.ShloMosaic.Lib.KernelVsHost

noncomputable section

namespace Cert.KernelIdeal.Pads

open Idealize.ShloMosaic Cert.KernelIdeal ValueIdx

variable [Facts]

/-! ### Indices with equal coordinates -/

/-- Two rank-3 indices whose coordinates are equal as numbers are equal. -/
theorem ix3_congr {n0 n1 n2 : Nat} {a a' : Fin n0} {b b' : Fin n1} {c c' : Fin n2}
    (ha : a.val = a'.val) (hb : b.val = b'.val) (hc : c.val = c'.val) : ix3 a b c = ix3 a' b' c' := by
  obtain rfl : a = a' := Fin.ext ha
  obtain rfl : b = b' := Fin.ext hb
  obtain rfl : c = c' := Fin.ext hc
  rfl

/-! ### The layout operations of the prototype side, each read at an index -/

/-- The [19, 32, 256] array as 608 rows: row p is class p / 32, unit p % 32. -/
theorem cast_rows {α : Type} (x : S19x32x256.Idx → α) (h : S19x32x256.ShapeCasts S608x256) (p : Fin 608) (d : Fin 256) :
    shapeCast S608x256 x h (ix2 p d)
      = x (ix3 (⟨p.val / 32, by have := p.isLt; omega⟩ : Fin 19) (⟨p.val % 32, by omega⟩ : Fin 32) d) :=
  shapeCast_apply x h _ _ (by
    rw [Shape.rowMajor_val_three, Shape.rowMajor_val_two]
    show (p.val / 32 * 32 + p.val % 32) * 256 + d.val = p.val * 256 + d.val
    omega)

/-- The [19, 32] array as 608 words: word p is class p / 32, unit p % 32. -/
theorem cast_words {α : Type} (x : S19x32.Idx → α) (h : S19x32.ShapeCasts S608) (p : Fin 608) :
    shapeCast S608 x h (ix1 p)
      = x (ix2 (⟨p.val / 32, by have := p.isLt; omega⟩ : Fin 19) (⟨p.val % 32, by omega⟩ : Fin 32)) :=
  shapeCast_apply x h _ _ (by
    rw [Shape.rowMajor_val_two, Shape.rowMajor_val_one]
    show p.val / 32 * 32 + p.val % 32 = p.val
    omega)

/-- 608 words padded to 640: below 608 the operand's word. -/
theorem pad_words_inside {α : Type} (x : S608.Idx → α) (v : S_.Idx → α) (h : S608.Pads ![0] ![32] ![0] S640)
    (hu : 0 < S_.numel) (p : Fin 640) (hp : p.val < 608) :
    pad S640 ![0] ![32] ![0] x v h hu (ix1 p) = x (ix1 (⟨p.val, hp⟩ : Fin 608)) :=
  pad_apply_of_inside _ _ _ x v h hu _ _ (fun a => by
    match a with
    | ⟨0, _⟩ =>
      show p.val = 0 + p.val * (0 + 1)
      omega)

/-- 608 words padded to 640: from 608 on the padding word. -/
theorem pad_words_outside {α : Type} (x : S608.Idx → α) (v : S_.Idx → α) (h : S608.Pads ![0] ![32] ![0] S640)
    (hu : 0 < S_.numel) (p : Fin 640) (hp : 608 ≤ p.val) :
    pad S640 ![0] ![32] ![0] x v h hu (ix1 p) = v (Shape.Idx.first hu) :=
  pad_apply_of_not_inside _ _ _ x v h hu _ (0 : Fin 1) (by
    intro hin
    have h3 : (p.val - 0) / (0 + 1) < 608 := hin.2.2
    rw [Nat.sub_zero, Nat.zero_add, Nat.div_one] at h3
    omega)

/-- 608 rows padded to 640: below 608 the operand's row. -/
theorem pad_rows_inside {α : Type} (x : S608x256.Idx → α) (v : S_.Idx → α)
    (h : S608x256.Pads ![0, 0] ![32, 0] ![0, 0] S640x256) (hu : 0 < S_.numel) (p : Fin 608) (d : Fin 256) :
    pad S640x256 ![0, 0] ![32, 0] ![0, 0] x v h hu (ix2 (⟨p.val, by have := p.isLt; omega⟩ : Fin 640) d) = x (ix2 p d) :=
  pad_apply_of_inside _ _ _ x v h hu _ _ (fun a => by
    match a with
    | ⟨0, _⟩ =>
      show p.val = 0 + p.val * (0 + 1)
      omega
    | ⟨1, _⟩ =>
      show d.val = 0 + d.val * (0 + 1)
      omega)

/-- The class numbers copied along the 32 units: entry (c, u) is c. -/
theorem bcast_class (h : S19.BroadcastsInDim S19x32 (![0] : Fin 1 → Fin S19x32.rank)) (c : Fin 19) (u : Fin 32) :
    broadcastInDim S19x32 ![0] h Host.classIota (ix2 c u) = BitVec.ofNat 32 c.val :=
  (broadcastInDim_apply _ h _ _ (ix1 c) (fun a => by
    match a with
    | ⟨0, _⟩ => rfl)).trans rfl

/-! ### The five facts -/

theorem protoPad_at (A2 : FVec Ideal S19x32x256 .f32) (p : Fin 608) (d : Fin 256) :
    Host.protoPad (F := Ideal) A2 (ix2 (⟨p.val, by have := p.isLt; omega⟩ : Fin 640) d) = Cert.Spec.protoRow A2 p d := by
  unfold Host.protoPad Cert.Spec.protoRow
  show pad S640x256 ![0, 0] ![32, 0] ![0, 0] (shapeCast S608x256 A2 Facts₀.shapeCasts_S19x32x256_S608x256)
    (sitofp .f32 (constantI S_ 32 0#32)) Facts₀.pads_S608x256_S640x256_0320_000 Facts₀.h_S_ _ = _
  rw [pad_rows_inside, cast_rows]

theorem protoLab_at (p : Fin 640) (hp : p.val < 608) :
    Host.protoLab (ix2 (0 : Fin 1) p) = BitVec.ofNat 32 (p.val / 32) := by
  unfold Host.protoLab
  rw [shapeCast_a_1a_apply, pad_words_inside _ _ _ _ p hp, cast_words, bcast_class]

theorem validPad_at (A3 : IVec S19x32 32) (p : Fin 608) :
    Host.validPad A3 (ix2 (0 : Fin 1) (⟨p.val, by have := p.isLt; omega⟩ : Fin 640)) = Cert.Spec.maskWord A3 p := by
  have hp := p.isLt
  unfold Host.validPad Cert.Spec.maskWord
  rw [shapeCast_a_1a_apply, pad_words_inside _ _ _ _ _ (show (⟨p.val, by omega⟩ : Fin 640).val < 608 from hp), cast_words]

theorem validPad_pad (A3 : IVec S19x32 32) (p : Fin 640) (hp : 608 ≤ p.val) :
    Host.validPad A3 (ix2 (0 : Fin 1) p) = 0#32 := by
  unfold Host.validPad
  rw [shapeCast_a_1a_apply, pad_words_outside _ _ _ _ p hp]
  rfl

theorem localBf_at (A4 : FVec Ideal S19x2048x256 .f32) (c : Fin 19) (l : Fin 2048) (d : Fin 256) :
    Host.localBf (F := Ideal) A4 (ix3 c l d)
      = Cert.Spec.localRow A4 (⟨2048 * c.val + l.val, by have := c.isLt; have := l.isLt; omega⟩ : Fin 38912) d := by
  have hc := c.isLt
  have hl := l.isLt
  unfold Host.localBf Cert.Spec.localRow
  show A4 (ix3 c l d) = A4 _
  exact congrArg A4 (ix3_congr (by show c.val = (2048 * c.val + l.val) / 2048; omega)
    (by show l.val = (2048 * c.val + l.val) % 2048; omega) rfl)

end Cert.KernelIdeal.Pads

end
-- ==== Proof.RowBridge.lean ====
/-
  The kernel's row and the reference's row are one number.
-/
import proofs.«425194_j11605001634274_3_alg».proof.Proof.Spec
import Idealize.ShloMosaic.PureOps.Ideal.Laws
import Mathlib.Algebra.BigOperators.Group.Finset.Basic
import Mathlib.Data.Finset.Lattice.Fold
import Mathlib.Data.Fin.Embedding

noncomputable section

namespace Cert.RowBridge

open Idealize.ShloMosaic Cert.Spec

/-! ### The two constants -/

/-- The temperature word denotes the real 13421773 / 2^27. -/
theorem temp_eq : temp = ((13421773 / 134217728 : ℝ) : EReal) := by
  unfold temp
  simp [Ideal.ofBits, Ideal.ieee, -EReal.coe_mul]; norm_num

/-- The epsilon word denotes the real 11258999 / 2^50. -/
theorem eps_eq : eps = ((11258999 / 1125899906842624 : ℝ) : EReal) := by
  unfold eps
  simp [Ideal.ofBits, Ideal.ieee, -EReal.coe_mul]; norm_num

/-- The quotient by the temperature is the product with the named reciprocal, at every extended real. -/
theorem div_temp (y : EReal) : Ideal.div y temp = y * invTemp := by
  rw [temp_eq, Ideal.div_coe (by norm_num) y, invTemp]
  congr 2; norm_num

/-- The epsilon is not zero. -/
theorem eps_ne_zero : eps ≠ 0 := by
  rw [eps_eq]
  have : (11258999 / 1125899906842624 : ℝ) ≠ 0 := by norm_num
  exact_mod_cast this

/-- Zero over a nonzero divisor is zero. -/
theorem div_zero_left {y : EReal} (h : y ≠ 0) : Ideal.div 0 y = 0 := by
  rw [Ideal.div, if_neg h, zero_mul]

/-! ### Folds and sums over a longer index range whose tail is neutral -/

/-- A maximum over m indices whose values from n on are bottom is the maximum over the first n. -/
theorem fold_max_castLE {n m : Nat} (h : n ≤ m) (f : Fin m → EReal) (hf : ∀ p : Fin m, n ≤ p.val → f p = ⊥) :
    Finset.univ.fold max ⊥ f = Finset.univ.fold max ⊥ (fun p : Fin n => f (Fin.castLE h p)) := by
  show Finset.univ.sup f = Finset.univ.sup (fun p : Fin n => f (Fin.castLE h p))
  apply le_antisymm
  · apply Finset.sup_le
    intro p _
    by_cases hp : n ≤ p.val
    · rw [hf p hp]; exact bot_le
    · have hp' : p.val < n := by omega
      exact Finset.le_sup (f := fun q : Fin n => f (Fin.castLE h q)) (Finset.mem_univ (⟨p.val, hp'⟩ : Fin n))
  · apply Finset.sup_le
    intro p _
    exact Finset.le_sup (f := f) (Finset.mem_univ (Fin.castLE h p))

/-- A sum over m indices whose terms from n on are zero is the sum over the first n. -/
theorem sum_castLE {n m : Nat} (h : n ≤ m) (f : Fin m → EReal) (hf : ∀ p : Fin m, n ≤ p.val → f p = 0) :
    ∑ p, f p = ∑ p : Fin n, f (Fin.castLE h p) := by
  have e : ∑ p : Fin n, f (Fin.castLE h p) = ∑ p ∈ Finset.univ.map (Fin.castLEEmb h), f p := by
    rw [Finset.sum_map]; rfl
  rw [e]
  symm
  apply Finset.sum_subset (Finset.subset_univ _)
  intro p _ hp
  apply hf
  by_contra hlt
  apply hp
  rw [Finset.mem_map]
  exact ⟨⟨p.val, by omega⟩, Finset.mem_univ _, rfl⟩

/-! ### The label's class among the local rows -/

/-- For a row index below 38912 the label is the row's class word exactly when its number is the class number. -/
theorem lab_eq_ofNat_iff (lab : BitVec 32) (l : Nat) (hl : l < 38912) :
    lab = BitVec.ofNat 32 (l / 2048) ↔ lab.toNat = l / 2048 := by
  have hlt : l / 2048 < 2 ^ 32 := by omega
  constructor
  · intro h
    rw [h, BitVec.toNat_ofNat, Nat.mod_eq_of_lt hlt]
  · intro h
    apply BitVec.eq_of_toNat_eq
    rw [BitVec.toNat_ofNat, Nat.mod_eq_of_lt hlt, h]

/-- The sum over all 38912 local rows, each weighted by the indicator that the label is its class, is the sum over
    the 2048 rows of the label's class. -/
theorem sum_local (lab : BitVec 32) (hlab : lab.toNat < 19) (e : Fin 38912 → EReal) :
    ∑ l : Fin 38912, e l * (if lab = BitVec.ofNat 32 (l.val / 2048) then (1 : EReal) else 0)
      = ∑ l : Fin 2048, e ⟨2048 * lab.toNat + l.val, by have := l.isLt; omega⟩ := by
  let emb : Fin 2048 ↪ Fin 38912 :=
    ⟨fun l => ⟨2048 * lab.toNat + l.val, by have := l.isLt; omega⟩, by
      intro a b hab
      have := congrArg Fin.val hab
      apply Fin.ext
      simp only at this
      omega⟩
  let g : Fin 38912 → EReal := fun l => if lab = BitVec.ofNat 32 (l.val / 2048) then e l else 0
  have h1 : ∀ l : Fin 38912, e l * (if lab = BitVec.ofNat 32 (l.val / 2048) then (1 : EReal) else 0) = g l := by
    intro l
    show _ = if _ then _ else _
    split_ifs <;> simp
  have h2 : ∀ l : Fin 2048, e ⟨2048 * lab.toNat + l.val, by have := l.isLt; omega⟩ = g (emb l) := by
    intro l
    have hl := l.isLt
    have hc : lab = BitVec.ofNat 32 ((emb l).val / 2048) := by
      rw [lab_eq_ofNat_iff lab _ (emb l).isLt]
      show lab.toNat = (2048 * lab.toNat + l.val) / 2048
      omega
    show _ = if _ then _ else _
    rw [if_pos hc]
    rfl
  simp only [h1, h2]
  rw [← Finset.sum_map Finset.univ emb g]
  symm
  apply Finset.sum_subset (Finset.subset_univ _)
  intro l _ hl
  show (if _ then _ else _) = _
  rw [if_neg]
  intro hc
  apply hl
  rw [lab_eq_ofNat_iff lab _ l.isLt] at hc
  rw [Finset.mem_map]
  have hlt := l.isLt
  refine ⟨⟨l.val - 2048 * lab.toNat, by omega⟩, Finset.mem_univ _, ?_⟩
  apply Fin.ext
  show 2048 * lab.toNat + (l.val - 2048 * lab.toNat) = l.val
  omega

/-- The exponential of a value filled with bottom off a condition is the exponential kept on it and zero off it. -/
theorem exp_ite (c : Prop) [Decidable c] (y : EReal) :
    Ideal.exp (if c then y else ⊥) = if c then Ideal.exp y else 0 := by
  split_ifs
  · rfl
  · exact Ideal.exp_bot

/-! ### The two rows -/

/-- A row whose label is the tile's class, a class in range: the kernel's value is the reference's. The 640 prototype
    columns are the 608 prototypes then 32 columns never kept; the tile's 2048 local rows are the label's class. -/
theorem kerRow_eq_refRow (x : Fin 256 → EReal) (lab : BitVec 32) (hlab : lab.toNat < 19)
    (P : Fin 608 → Fin 256 → EReal) (msk : Fin 608 → BitVec 32) (L : Fin 38912 → Fin 256 → EReal)
    (Q : Fin 640 → Fin 256 → EReal) (plab vld : Fin 640 → BitVec 32) (B : Fin 2048 → Fin 256 → EReal)
    (hQ : ∀ (p : Fin 608) (d : Fin 256), Q ⟨p.val, by have := p.isLt; omega⟩ d = P p d)
    (hplab : ∀ p : Fin 608, plab ⟨p.val, by have := p.isLt; omega⟩ = BitVec.ofNat 32 (p.val / 32))
    (hvld : ∀ p : Fin 608, vld ⟨p.val, by have := p.isLt; omega⟩ = msk p)
    (hpad : ∀ p : Fin 640, 608 ≤ p.val → vld p = 0#32)
    (hB : ∀ (l : Fin 2048) (d : Fin 256), B l d = L ⟨2048 * lab.toNat + l.val, by have := l.isLt; omega⟩ d) :
    kerRow x lab lab Q plab vld B = refRow x lab P msk L := by
  have h608 : 608 ≤ 640 := by norm_num
  -- the logits of the first 608 columns are the reference's
  have hdp : ∀ p : Fin 608, (∑ d, x d * Q (Fin.castLE h608 p) d) * invTemp = Ideal.div (∑ d, x d * P p d) temp := by
    intro p
    rw [div_temp]
    congr 1
    exact Finset.sum_congr rfl (fun d _ => by rw [show Q (Fin.castLE h608 p) d = P p d from hQ p d])
  -- a column counts in the kernel exactly when its prototype counts in the reference; the last 32 never count
  have hpos : ∀ p : Fin 608, kerPos lab plab vld (Fin.castLE h608 p) ↔ refPos lab msk p := by
    intro p
    unfold kerPos refPos
    rw [show plab (Fin.castLE h608 p) = BitVec.ofNat 32 (p.val / 32) from hplab p,
      show vld (Fin.castLE h608 p) = msk p from hvld p]
  have hnpos : ∀ p : Fin 640, 608 ≤ p.val → ¬ kerPos lab plab vld p := by
    intro p hp h
    exact h.2 (hpad p hp)
  -- the two maxima
  have hmx : (Finset.univ.fold max ⊥ fun p : Fin 640 => if vld p ≠ 0#32 then (∑ d, x d * Q p d) * invTemp else ⊥)
      = Finset.univ.fold max ⊥ fun p : Fin 608 => if msk p ≠ 0#32 then Ideal.div (∑ d, x d * P p d) temp else ⊥ := by
    rw [fold_max_castLE h608 _ (fun p hp => by rw [hpad p hp]; simp)]
    congr 1
    funext p
    rw [show vld (Fin.castLE h608 p) = msk p from hvld p, hdp p]
  unfold kerRow refRow
  simp only []
  rw [hmx]
  generalize (Finset.univ.fold max ⊥ fun p : Fin 608 =>
    if msk p ≠ 0#32 then Ideal.div (∑ d, x d * P p d) temp else ⊥) = m
  -- the local sums
  rw [if_pos trivial, mul_one]
  have hng : (∑ l : Fin 2048, Ideal.exp ((∑ d, x d * B l d) * invTemp - m))
      = ∑ l : Fin 38912, Ideal.exp (Ideal.div (∑ d, x d * L l d) temp - m)
          * (if lab = BitVec.ofNat 32 (l.val / 2048) then (1 : EReal) else 0) := by
    rw [sum_local lab hlab (fun l => Ideal.exp (Ideal.div (∑ d, x d * L l d) temp - m))]
    refine Finset.sum_congr rfl (fun l _ => ?_)
    rw [div_temp]
    congr 3
    exact Finset.sum_congr rfl (fun d _ => by rw [hB l d])
  rw [hng]
  generalize (∑ l : Fin 38912, Ideal.exp (Ideal.div (∑ d, x d * L l d) temp - m)
          * (if lab = BitVec.ofNat 32 (l.val / 2048) then (1 : EReal) else 0)) = g
  rw [zero_sub]
  congr 2
  · rw [sum_castLE h608 _ (fun p hp => by rw [if_neg (hnpos p hp), zero_mul])]
    refine Finset.sum_congr rfl (fun p _ => ?_)
    by_cases h : refPos lab msk p
    · rw [if_pos ((hpos p).mpr h), if_pos ((hpos p).mpr h), if_pos h, if_pos h, hdp p]
    · rw [if_neg (fun h' => h ((hpos p).mp h')), if_neg h, zero_mul, zero_mul]
  · congr 1
    rw [sum_castLE h608 _ (fun p hp => by rw [if_neg (hnpos p hp)])]
    exact Finset.sum_congr rfl (fun p _ => if_congr (hpos p) rfl rfl)

/-- A filler row (label word -1): it counts no prototype, and its value is 0 whatever else it holds. -/
theorem kerRow_filler (x : Fin 256 → EReal) (cls : BitVec 32)
    (Q : Fin 640 → Fin 256 → EReal) (plab vld : Fin 640 → BitVec 32) (B : Fin 2048 → Fin 256 → EReal)
    (hplab : ∀ p : Fin 640, p.val < 608 → plab p = BitVec.ofNat 32 (p.val / 32))
    (hpad : ∀ p : Fin 640, 608 ≤ p.val → vld p = 0#32) :
    kerRow x 0xFFFFFFFF#32 cls Q plab vld B = 0 := by
  -- no column counts: the first 608 carry a class word at most 18, the last 32 are never kept
  have hnpos : ∀ p : Fin 640, ¬ kerPos 0xFFFFFFFF#32 plab vld p := by
    intro p h
    by_cases hp : p.val < 608
    · have h1 := h.1
      rw [hplab p hp] at h1
      have h2 := congrArg BitVec.toNat h1
      simp only [BitVec.toNat_ofNat] at h2
      omega
    · exact h.2 (hpad p (by omega))
  unfold kerRow
  simp only []
  have hs1 : ∀ (lp : Fin 640 → EReal),
      (∑ p : Fin 640, (if kerPos 0xFFFFFFFF#32 plab vld p then (1 : EReal) else 0) * lp p) = 0 :=
    fun lp => Finset.sum_eq_zero (fun p _ => by rw [if_neg (hnpos p), zero_mul])
  have hs2 : (∑ p : Fin 640, (if kerPos 0xFFFFFFFF#32 plab vld p then (1 : EReal) else 0)) = 0 :=
    Finset.sum_eq_zero (fun p _ => by rw [if_neg (hnpos p)])
  rw [hs1, hs2, zero_add, div_zero_left eps_ne_zero, sub_zero]

end Cert.RowBridge

end
-- ==== Proof.SumBridge.lean ====
/-
  A sum over the padded rows is the sum over the anchors.

  The anchors go to distinct padded rows; a row no anchor goes to contributes zero; so the sum over all 8960 rows is
  the sum over the 4096 anchors of what sits at each anchor's row.
-/
import Mathlib.Algebra.BigOperators.Group.Finset.Basic
import Mathlib.Data.EReal.Basic
import Mathlib.Data.Fintype.BigOperators

noncomputable section

namespace Cert.SumBridge

/-- A function that vanishes off the range of an injection sums as its pull-back does. -/
theorem sum_of_injective {α β : Type} [Fintype α] [Fintype β] [DecidableEq β] (f : α → β) (hf : Function.Injective f)
    (g : β → EReal) (h0 : ∀ b, (∀ a, f a ≠ b) → g b = 0) : ∑ b, g b = ∑ a, g (f a) := by
  rw [← Finset.sum_image (s := Finset.univ) (g := f) (f := g) (fun x _ y _ h => hf h)]
  symm
  apply Finset.sum_subset (Finset.subset_univ _)
  intro b _ hb
  apply h0
  intro a ha
  exact hb (Finset.mem_image.mpr ⟨a, Finset.mem_univ _, ha⟩)

end Cert.SumBridge

end
-- ==== Proof.RowsSum.lean ====
/-
  The sum of the kernel's padded rows is the sum of the anchors' losses.

  Anchor a sits at padded row destN a with its features and label; its tile's class word is its label; so its padded
  row's value is the kernel's row function at label = class, which is the reference's loss of the anchor. A padded
  row no anchor sits at has the label word −1 and the value 0. The anchors' rows are distinct, so the 8960 rows sum
  to the 4096 losses.
-/
import proofs.«425194_j11605001634274_3_alg».proof.Proof.Spec
import proofs.«425194_j11605001634274_3_alg».proof.Proof.HostChain
import proofs.«425194_j11605001634274_3_alg».proof.Proof.RowFn
import proofs.«425194_j11605001634274_3_alg».proof.Proof.CountFacts
import proofs.«425194_j11605001634274_3_alg».proof.Proof.DestFacts
import proofs.«425194_j11605001634274_3_alg».proof.Proof.ScatterFacts
import proofs.«425194_j11605001634274_3_alg».proof.Proof.ClsFacts
import proofs.«425194_j11605001634274_3_alg».proof.Proof.PadFacts
import proofs.«425194_j11605001634274_3_alg».proof.Proof.RowBridge
import proofs.«425194_j11605001634274_3_alg».proof.Proof.SumBridge
import Idealize.ShloMosaic.Lib.ValueIdx

noncomputable section

namespace Cert.KernelIdeal.RowsSum

open Idealize.ShloMosaic Cert.KernelIdeal ValueIdx Cert.KernelIdeal.Counts Cert.KernelIdeal.Dest Cert.KernelIdeal.Value

variable [Facts]

/-- A word below 19 is the 32-bit word of its own number. -/
theorem ofNat_toNat_of_lt (w : BitVec 32) (h : w.toNat < 19) : BitVec.ofNat 32 w.toNat = w := by
  apply BitVec.eq_of_toNat_eq
  rw [BitVec.toNat_ofNat]
  exact Nat.mod_eq_of_lt (by omega)

/-- Anchor a's padded row: the table's word at its tile is its label, so the row's value is the anchor's loss. -/
theorem row_at_anchor (A0 : FVec Ideal S4096x256 .f32) (A1 : IVec S4096 32) (A2 : FVec Ideal S19x32x256 .f32)
    (A3 : IVec S19x32 32) (A4 : FVec Ideal S19x2048x256 .f32) (hA : ∀ a : Fin 4096, (A1 (ix1 a)).toNat < 19) (a : Fin 4096) :
    rowFn (Host.ancPad (F := Ideal) A0 A1) (Host.labPad A1) (Host.clsTable A1) (Host.protoPad (F := Ideal) A2)
        Host.protoLab (Host.validPad A3) (Host.localBf (F := Ideal) A4) (⟨destN A1 a, destN_lt A1 hA a⟩ : Fin 8960)
      = Cert.Spec.anchorLoss A0 A1 A2 A3 A4 a := by
  have hlt := destN_lt A1 hA a
  -- the anchor's tile lies in its class's tile range
  have hd := destN_eq A1 hA a
  have hr := rank_lt_cnt A1 hA a
  have hc := Dest.cnt_le A1 ⟨(A1 (ix1 a)).toNat, hA a⟩
  have ht1 : ts A1 ⟨(A1 (ix1 a)).toNat, hA a⟩ ≤ (tileOf ⟨destN A1 a, hlt⟩).val := by
    show ts A1 ⟨(A1 (ix1 a)).toNat, hA a⟩ ≤ destN A1 a / 256
    omega
  have ht2 : (tileOf ⟨destN A1 a, hlt⟩).val < ts A1 ⟨(A1 (ix1 a)).toNat, hA a⟩ + nt A1 ⟨(A1 (ix1 a)).toNat, hA a⟩ := by
    show destN A1 a / 256 < ts A1 ⟨(A1 (ix1 a)).toNat, hA a⟩ + nt A1 ⟨(A1 (ix1 a)).toNat, hA a⟩
    omega
  -- so the table's word there is the anchor's label
  have htb : Host.clsTable A1 (ix1 (tileOf ⟨destN A1 a, hlt⟩)) = A1 (ix1 a) := by
    rw [Cls.clsTable_eq A1 _ ⟨(A1 (ix1 a)).toNat, hA a⟩ ht1 ht2]
    exact ofNat_toNat_of_lt _ (hA a)
  -- the row's features are the anchor's
  have ex : (fun d => Host.ancPad (F := Ideal) A0 A1 (ix2 (⟨destN A1 a, hlt⟩ : Fin 8960) d)) = fun d => A0 (ix2 a d) :=
    funext fun d => Scatter.ancPad_at A1 hA A0 a d
  unfold rowFn
  rw [htb, Scatter.labPad_at A1 hA a, classOf_of_lt _ (hA a), ex]
  unfold Cert.Spec.anchorLoss
  exact Cert.RowBridge.kerRow_eq_refRow _ _ (hA a) _ _ _ _ _ _ _
    (fun p d => Pads.protoPad_at A2 p d)
    (fun p => Pads.protoLab_at ⟨p.val, by have := p.isLt; omega⟩ p.isLt)
    (fun p => Pads.validPad_at A3 p)
    (fun p hp => Pads.validPad_pad A3 p hp)
    (fun l d => Pads.localBf_at A4 ⟨(A1 (ix1 a)).toNat, hA a⟩ l d)

/-- A padded row no anchor sits at has the label word −1 and the value 0. -/
theorem row_off_anchors (A0 : FVec Ideal S4096x256 .f32) (A1 : IVec S4096 32) (A2 : FVec Ideal S19x32x256 .f32)
    (A3 : IVec S19x32 32) (A4 : FVec Ideal S19x2048x256 .f32) (hA : ∀ a : Fin 4096, (A1 (ix1 a)).toNat < 19) (R : Fin 8960)
    (hR : ∀ a : Fin 4096, destN A1 a ≠ R.val) :
    rowFn (Host.ancPad (F := Ideal) A0 A1) (Host.labPad A1) (Host.clsTable A1) (Host.protoPad (F := Ideal) A2)
        Host.protoLab (Host.validPad A3) (Host.localBf (F := Ideal) A4) R = 0 := by
  unfold rowFn
  rw [Scatter.labPad_off A1 hA R hR]
  exact Cert.RowBridge.kerRow_filler _ _ _ _ _ _ (fun p hp => Pads.protoLab_at p hp) (fun p hp => Pads.validPad_pad A3 p hp)

/-- The padded rows' values over the host's arrays sum to the anchors' losses, when every label is a class. -/
theorem sum_rows (A0 : FVec Ideal S4096x256 .f32) (A1 : IVec S4096 32) (A2 : FVec Ideal S19x32x256 .f32)
    (A3 : IVec S19x32 32) (A4 : FVec Ideal S19x2048x256 .f32) (hA : ∀ a : Fin 4096, (A1 (ix1 a)).toNat < 19) :
    ∑ R : Fin 8960, rowFn (Host.ancPad (F := Ideal) A0 A1) (Host.labPad A1) (Host.clsTable A1) (Host.protoPad (F := Ideal) A2)
        Host.protoLab (Host.validPad A3) (Host.localBf (F := Ideal) A4) R
      = ∑ a : Fin 4096, Cert.Spec.anchorLoss A0 A1 A2 A3 A4 a := by
  have hinj : Function.Injective (fun a : Fin 4096 => (⟨destN A1 a, destN_lt A1 hA a⟩ : Fin 8960)) := by
    intro a a' h
    have h' := congrArg Fin.val h
    exact destN_inj A1 hA h'
  rw [Cert.SumBridge.sum_of_injective (fun a : Fin 4096 => (⟨destN A1 a, destN_lt A1 hA a⟩ : Fin 8960)) hinj _
    (fun R hne => row_off_anchors A0 A1 A2 A3 A4 hA R (fun a h => hne a (Fin.ext h)))]
  exact Finset.sum_congr rfl (fun a _ => row_at_anchor A0 A1 A2 A3 A4 hA a)

end Cert.KernelIdeal.RowsSum

end
-- ==== Proof.KernelBody.lean ====
/-
  One grid point of the kernel: what the body leaves in the output block, row by row.

  The body loads the anchor block, its labels, the prototype block with its label and mask rows, and the tile's
  class word from the table at the point's coordinate; it forms the prototype logits, their masked row maximum, the
  positives and their exponentials; a counted loop of two trips adds, per row, the exponentials of the shifted
  logits against the 2048 local rows, 1024 a trip; and one store covers the output block with minus the mean, over
  the positives, of the log-probabilities. Read at row r at the ideal values, that store's payload is the
  specification's row function kerRow of the point's input blocks (out0_A_6_apply, the last theorem).

  The order: the named constants and the layout operations read at coordinates; each payload read at an index, over
  variables of the literal vector types; then, at any values, the block the body leaves as the covering store's
  payload over the loaded blocks, the table word, and the loop's carried value after its two trips; and the assembly.
-/
import proofs.«425194_j11605001634274_3_alg».proof.Proof.Spec
import proofs.«425194_j11605001634274_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.TcCoe Idealize.SL.Sem Cert.KernelIdeal Cert.KernelIdeal.Gen ValueIdx

/-! ## The named constants and the fixed words at the ideal values -/

/-- The named reciprocal of the temperature is the rational the specification uses. -/
theorem invTemp_named : Named.named (F := Ideal) Cert.KernelIdeal.κ "inv_temp" (φ := .f32) 0x41200000#32 = Cert.Spec.invTemp :=
  IdealRules.named_const.ideal_named_scalar _ _ _ _ rfl

/-- The named fill of the masked maximum is bottom. -/
theorem negBig_named : Named.named (F := Ideal) Cert.KernelIdeal.κ "neg_big" (φ := .f32) 0xFF333332#32 = (⊥ : EReal) :=
  IdealRules.named_const.ideal_named_scalar _ _ _ _ rfl

/-- The word of minus infinity is bottom. -/
theorem negInf_word : Ideal.ofBits .f32 0xFF800000#32 = (⊥ : EReal) := by
  simp [Ideal.ofBits, Ideal.ieee]

/-! ## Layout operations read at coordinates -/

/-- A column of 256 cast to [256, 1] reads, at (r, 0), the column at r. -/
theorem col_cast_apply {α : Type} (v : S256.Idx → α) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_two, Shape.rowMajor_val_one]
    show r.val = r.val * 1 + u.val
    omega)

/-- A [256, 1] column broadcast to [256, 640] reads, at (r, p), the column at (r, 0). -/
theorem col_bcast640_apply {α : Type} (v : S256x1.Idx → α) (r : Fin 256) (p : Fin 640) :
    broadcastTo S256x640 v broadcasts_S256x1_S256x640 (ix2 r p) = v (ix2 r (0 : Fin 1)) := by
  refine broadcastTo_apply v broadcasts_S256x1_S256x640 (ix2 r p) (ix2 r (0 : Fin 1)) fun ax => ?_
  match ax with
  | ⟨0, _⟩ => rfl
  | ⟨1, _⟩ => rfl

/-- A [256, 1] column broadcast to [256, 1024] reads, at (r, l), the column at (r, 0). -/
theorem col_bcast1024_apply {α : Type} (v : S256x1.Idx → α) (r : Fin 256) (l : Fin 1024) :
    broadcastTo S256x1024 v broadcasts_S256x1_S256x1024 (ix2 r l) = v (ix2 r (0 : Fin 1)) := by
  refine broadcastTo_apply v broadcasts_S256x1_S256x1024 (ix2 r l) (ix2 r (0 : Fin 1)) fun ax => ?_
  match ax with
  | ⟨0, _⟩ => rfl
  | ⟨1, _⟩ => rfl

/-- The index over row r with coordinate p on the reduced axis of [256, 640] is (r, p). -/
theorem lift640 (r : Fin 256) (p : Fin 640) : reduces_S256x640_S256.lift (ix1 r) p = ix2 r p :=
  funext fun a => Fin.ext (by
    match a with
    | ⟨0, _⟩ => rfl
    | ⟨1, _⟩ => rfl)

/-- The index over row r with coordinate l on the reduced axis of [256, 1024] is (r, l). -/
theorem lift1024 (r : Fin 256) (l : Fin 1024) : reduces_S256x1024_S256.lift (ix1 r) l = ix2 r l :=
  funext fun a => Fin.ext (by
    match a with
    | ⟨0, _⟩ => rfl
    | ⟨1, _⟩ => rfl)

/-! ## The prototype logits -/

theorem lhsP_0 (i : S256x640.Idx) (q : dot_S256x256_S640x256_S256x640_1_1_0_0_n_n.contr.Idx) :
    (dot_S256x256_S640x256_S256x640_1_1_0_0_n_n.lhsIdx i q 0).val = (i 0).val := by
  unfold DotDims.lhsIdx
  rw [dif_neg (show ¬(0 : Fin S256x256.rank) ∈ dot_S256x256_S640x256_S256x640_1_1_0_0_n_n.lhsBatch by decide), dif_pos (show (0 : Fin S256x256.rank) ∈ dot_S256x256_S640x256_S256x640_1_1_0_0_n_n.lhsNonContracting by decide)]
  rfl
theorem lhsP_1 (i : S256x640.Idx) (q : dot_S256x256_S640x256_S256x640_1_1_0_0_n_n.contr.Idx) :
    (dot_S256x256_S640x256_S256x640_1_1_0_0_n_n.lhsIdx i q 1).val = (q ⟨0, by decide⟩).val :=
  dot_S256x256_S640x256_S256x640_1_1_0_0_n_n.lhsIdx_val_of_single rfl i q
theorem rhsP_0 (i : S256x640.Idx) (q : dot_S256x256_S640x256_S256x640_1_1_0_0_n_n.contr.Idx) :
    (dot_S256x256_S640x256_S256x640_1_1_0_0_n_n.rhsIdx i q 0).val = (i 1).val := by
  unfold DotDims.rhsIdx
  rw [dif_neg (show ¬(0 : Fin S640x256.rank) ∈ dot_S256x256_S640x256_S256x640_1_1_0_0_n_n.rhsBatch by decide), dif_pos (show (0 : Fin S640x256.rank) ∈ dot_S256x256_S640x256_S256x640_1_1_0_0_n_n.rhsNonContracting by decide)]
  rfl
theorem rhsP_1 (i : S256x640.Idx) (q : dot_S256x256_S640x256_S256x640_1_1_0_0_n_n.contr.Idx) :
    (dot_S256x256_S640x256_S256x640_1_1_0_0_n_n.rhsIdx i q 1).val = (q ⟨0, by decide⟩).val :=
  dot_S256x256_S640x256_S256x640_1_1_0_0_n_n.rhsIdx_val_of_single rfl i q

/-- The product of the anchor block with the prototype block into the zero accumulator, at (r, p): the inner
    product of anchor row r with prototype row p. -/
theorem matmulP_apply (A : FVec Ideal S256x256 .bf16) (Q : FVec Ideal S640x256 .bf16) (r : Fin 256) (p : Fin 640) :
    matmul dot_S256x256_S640x256_S256x640_1_1_0_0_n_n none A Q (constant (F := Ideal) S256x640 .f32 0x00000000#32) (ix2 r p)
      = ∑ d : Fin 256, A (ix2 r d) * Q (ix2 p d) := by
  simp only [matmul]
  rw [Ideal.matmul_constant_zero_apply, ← Equiv.sum_comp (ValueIdx.contrEquiv1 dot_S256x256_S640x256_S256x640_1_1_0_0_n_n 256 rfl rfl).symm]
  refine Finset.sum_congr rfl fun k _ => ?_
  have hk := ValueIdx.contrEquiv1_symm_val dot_S256x256_S640x256_S256x640_1_1_0_0_n_n 256 rfl rfl k
  have el : dot_S256x256_S640x256_S256x640_1_1_0_0_n_n.lhsIdx (ix2 r p) ((ValueIdx.contrEquiv1 dot_S256x256_S640x256_S256x640_1_1_0_0_n_n 256 rfl rfl).symm k) = ix2 r k := funext fun a => Fin.ext (by
    match a with
    | ⟨0, _⟩ => exact lhsP_0 _ _
    | ⟨1, _⟩ => exact (lhsP_1 _ _).trans hk)
  have er : dot_S256x256_S640x256_S256x640_1_1_0_0_n_n.rhsIdx (ix2 r p) ((ValueIdx.contrEquiv1 dot_S256x256_S640x256_S256x640_1_1_0_0_n_n 256 rfl rfl).symm k) = ix2 p k := funext fun a => Fin.ext (by
    match a with
    | ⟨0, _⟩ => exact rhsP_0 _ _
    | ⟨1, _⟩ => exact (rhsP_1 _ _).trans hk)
  rw [el, er]

/-- The prototype logit of row r against prototype column p. -/
theorem pay4_apply (x0 : Vec Ideal S256x256 .bf16) (x2 : Vec Ideal S640x256 .bf16) (r : Fin 256) (p : Fin 640) :
    k0_pay4 (F := Ideal) x0 x2 (ix2 r p) = (∑ d : Fin 256, x0 (ix2 r d) * x2 (ix2 p d)) * Cert.Spec.invTemp := by
  unfold k0_pay4 k0_pay2
  refine (mulf_apply _ _ _).trans ?_
  rw [broadcast_apply, invTemp_named, shapeCast_self, shapeCast_self]
  exact congrArg (· * Cert.Spec.invTemp) (matmulP_apply x0 x2 r p)

/-! ## The row's quantities, over the row's own data

x the row's features, lab its label word, Q the 640 prototype rows, plab and vld their label and mask
words: the terms the specification's kerRow is built from, named so that each payload is read against one of them. -/

/-- The logit of the row against prototype column p. -/
def dp (x : Fin 256 → EReal) (Q : Fin 640 → Fin 256 → EReal) (p : Fin 640) : EReal :=
  (∑ d, x d * Q p d) * Cert.Spec.invTemp

/-- The maximum of the kept logits (bottom when none is kept). -/
def mx (x : Fin 256 → EReal) (Q : Fin 640 → Fin 256 → EReal) (vld : Fin 640 → BitVec 32) : EReal :=
  Finset.univ.fold max ⊥ (fun p => if vld p ≠ 0#32 then dp x Q p else ⊥)

/-- The mask bit of a prototype column: one exactly when its mask word is nonzero. -/
theorem ofBool_ne (a b : BitVec 32) : BitVec.ofBool (a != b) = if a ≠ b then 1#1 else 0#1 := by
  by_cases h : a = b
  · subst h; simp
  · rw [if_pos h, show (a != b) = true from bne_iff_ne.mpr h]; rfl

theorem ofBool_eq (a b : BitVec 32) : BitVec.ofBool (a == b) = if a = b then 1#1 else 0#1 := by
  by_cases h : a = b
  · subst h; simp
  · rw [if_neg h, show (a == b) = false from beq_eq_false_iff_ne.mpr h]; rfl

theorem keep_bit (a : BitVec 32) : IntOp.cmpi .ne a 0#32 = if a ≠ 0#32 then 1#1 else 0#1 :=
  ofBool_ne a 0#32

/-- The positive bit of a prototype column: one exactly when its label is the row's and it is kept. -/
theorem pos_bit (lab : BitVec 32) (plab vld : Fin 640 → BitVec 32) (p : Fin 640) :
    IntOp.andi (IntOp.cmpi .eq lab (plab p)) (IntOp.cmpi .ne (vld p) 0#32)
      = if Cert.Spec.kerPos lab plab vld p then 1#1 else 0#1 := by
  show BitVec.ofBool (lab == plab p) &&& BitVec.ofBool (vld p != 0#32) = _
  rw [ofBool_eq, ofBool_ne]
  unfold Cert.Spec.kerPos
  by_cases h1 : lab = plab p <;> by_cases h2 : vld p = 0#32 <;> simp [h1, h2]

/-- A choice by a bit that is one exactly under a condition is the conditional. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- A bit that is one exactly under a condition, widened and read as a number, is the indicator. -/
theorem indicator_ite (P : Prop) [Decidable P] :
    FloatOps.sitofp (F := Ideal) .f32 ((if P then 1#1 else 0#1 : BitVec 1).setWidth 32) = if P then (1 : EReal) else 0 := by
  by_cases h : P
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp

/-- The mask of column p, on every row. -/
theorem pay5_apply (x4 : Vec Ideal S1x640 .i32) (r : Fin 256) (p : Fin 640) :
    k0_pay5 (F := Ideal) x4 (ix2 r p) = if x4 (ix2 (0 : Fin 1) p) ≠ 0#32 then 1#1 else 0#1 := by
  unfold k0_pay5
  show IntOp.cmpi .ne (broadcastTo S256x640 (shapeCast S1x640 (shapeCast S1x640 x4 _) _) _ (ix2 r p)) (broadcast S256x640 0#32 (ix2 r p)) = _
  rw [shapeCast_self, shapeCast_self, broadcastTo_1b_ab_apply, broadcast_apply]
  exact keep_bit _

/-- The row maximum: the fold of max over the kept prototype logits of the row. -/
theorem pay6_apply (x0 : Vec Ideal S256x256 .bf16) (x2 : Vec Ideal S640x256 .bf16) (x4 : Vec Ideal S1x640 .i32) (r : Fin 256) (u : Fin 1) :
    k0_pay6 (F := Ideal) x0 x2 x4 (ix2 r u)
      = mx (fun d => x0 (ix2 r d)) (fun p d => x2 (ix2 p d)) (fun p => x4 (ix2 (0 : Fin 1) p)) := by
  unfold k0_pay6
  refine (col_cast_apply _ r u).trans ?_
  refine (Ideal.multiReduction_maximumf_single _ _ _ _ _ _).trans ?_
  show Finset.univ.fold max (Ideal.ofBits .f32 0xFF800000#32) _ = _
  rw [negInf_word]
  unfold mx
  refine Finset.fold_congr fun (p : Fin 640) _ => ?_
  show select (k0_pay5 (F := Ideal) x4) (k0_pay4 (F := Ideal) x0 x2) _ (reduces_S256x640_S256.lift (ix1 r) p) = _
  rw [lift640]
  refine (select_apply _ _ _ _).trans ?_
  rw [pay5_apply, pay4_apply, broadcast_apply, negBig_named]
  exact select_ite _ _ _

/-- The shifted logit of row r against column p. -/
theorem pay7_apply (x0 : Vec Ideal S256x256 .bf16) (x2 : Vec Ideal S640x256 .bf16) (x4 : Vec Ideal S1x640 .i32) (r : Fin 256) (p : Fin 640) :
    k0_pay7 (F := Ideal) x0 x2 x4 (ix2 r p)
      = dp (fun d => x0 (ix2 r d)) (fun p d => x2 (ix2 p d)) p
        - mx (fun d => x0 (ix2 r d)) (fun p d => x2 (ix2 p d)) (fun p => x4 (ix2 (0 : Fin 1) p)) := by
  unfold k0_pay7
  refine (subf_apply _ _ _).trans ?_
  rw [pay4_apply, col_bcast640_apply, pay6_apply]
  rfl

/-- The positive bit of column p for row r. -/
theorem pay8_apply (x1 : Vec Ideal S256x1 .i32) (x3 x4 : Vec Ideal S1x640 .i32) (r : Fin 256) (p : Fin 640) :
    k0_pay8 (F := Ideal) x1 x3 x4 (ix2 r p)
      = if Cert.Spec.kerPos (x1 (ix2 r (0 : Fin 1))) (fun p => x3 (ix2 (0 : Fin 1) p)) (fun p => x4 (ix2 (0 : Fin 1) p)) p then 1#1 else 0#1 := by
  unfold k0_pay8 k0_pay3
  show IntOp.andi (IntOp.cmpi .eq (broadcastTo S256x640 (shapeCast S256x1 x1 _) _ (ix2 r p)) (broadcastTo S256x640 (shapeCast S1x640 x3 _) _ (ix2 r p)))
      (k0_pay5 (F := Ideal) x4 (ix2 r p)) = _
  rw [shapeCast_self, shapeCast_self, col_bcast640_apply, broadcastTo_1b_ab_apply, pay5_apply, ← keep_bit]
  exact pos_bit (x1 (ix2 r (0 : Fin 1))) (fun p => x3 (ix2 (0 : Fin 1) p)) (fun p => x4 (ix2 (0 : Fin 1) p)) p

/-- The positive's exponential, zero elsewhere. -/
theorem pay9_apply (x0 : Vec Ideal S256x256 .bf16) (x1 : Vec Ideal S256x1 .i32) (x2 : Vec Ideal S640x256 .bf16) (x3 x4 : Vec Ideal S1x640 .i32)
    (r : Fin 256) (p : Fin 640) :
    k0_pay9 (F := Ideal) x0 x1 x2 x3 x4 (ix2 r p)
      = if Cert.Spec.kerPos (x1 (ix2 r (0 : Fin 1))) (fun p => x3 (ix2 (0 : Fin 1) p)) (fun p => x4 (ix2 (0 : Fin 1) p)) p
        then Ideal.exp (dp (fun d => x0 (ix2 r d)) (fun p d => x2 (ix2 p d)) p
          - mx (fun d => x0 (ix2 r d)) (fun p d => x2 (ix2 p d)) (fun p => x4 (ix2 (0 : Fin 1) p)))
        else 0 := by
  unfold k0_pay9
  refine (select_apply _ _ _ _).trans ?_
  rw [pay8_apply, broadcast_apply]
  show Scalar.select _ (Ideal.exp (k0_pay7 (F := Ideal) x0 x2 x4 (ix2 r p))) (Ideal.ofBits .f32 0x00000000#32) = _
  rw [pay7_apply, Ideal.ofBits_zero_f32]
  exact select_ite _ _ _

/-- The indicator that the row's label is the tile's class word. -/
theorem pay10_apply (cls : BitVec 32) (x1 : Vec Ideal S256x1 .i32) (r : Fin 256) (u : Fin 1) :
    k0_pay10 (F := Ideal) cls x1 (ix2 r u) = if x1 (ix2 r u) = cls then (1 : EReal) else 0 := by
  unfold k0_pay10 k0_pay3
  show FloatOps.sitofp (F := Ideal) .f32 ((IntOp.cmpi .eq (shapeCast S256x1 x1 _ (ix2 r u)) (broadcast S256x1 cls (ix2 r u))).setWidth 32) = _
  rw [shapeCast_self, broadcast_apply]
  have e : IntOp.cmpi .eq (x1 (ix2 r u)) cls = if x1 (ix2 r u) = cls then 1#1 else 0#1 := ofBool_eq _ _
  rw [e]
  exact indicator_ite _

/-! ## The local rows: one trip's sum, and the two trips together -/

theorem lhsL_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhsL_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhsL_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhsL_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- The product of the anchor block with 1024 local rows into the zero accumulator, at (r, l): the inner product of
    anchor row r with local row l. -/
theorem matmulL_apply (A : FVec Ideal S256x256 .bf16) (L : FVec Ideal S1024x256 .bf16) (r : Fin 256) (l : Fin 1024) :
    matmul dot_S256x256_S1024x256_S256x1024_1_1_0_0_n_n none A L (constant (F := Ideal) S256x1024 .f32 0x00000000#32) (ix2 r l)
      = ∑ d : Fin 256, A (ix2 r d) * L (ix2 l d) := by
  simp only [matmul]
  rw [Ideal.matmul_constant_zero_apply, ← Equiv.sum_comp (ValueIdx.contrEquiv1 dot_S256x256_S1024x256_S256x1024_1_1_0_0_n_n 256 rfl rfl).symm]
  refine Finset.sum_congr rfl fun k _ => ?_
  have hk := ValueIdx.contrEquiv1_symm_val dot_S256x256_S1024x256_S256x1024_1_1_0_0_n_n 256 rfl rfl k
  have el : dot_S256x256_S1024x256_S256x1024_1_1_0_0_n_n.lhsIdx (ix2 r l) ((ValueIdx.contrEquiv1 dot_S256x256_S1024x256_S256x1024_1_1_0_0_n_n 256 rfl rfl).symm k) = ix2 r k := funext fun a => Fin.ext (by
    match a with
    | ⟨0, _⟩ => exact lhsL_0 _ _
    | ⟨1, _⟩ => exact (lhsL_1 _ _).trans hk)
  have er : dot_S256x256_S1024x256_S256x1024_1_1_0_0_n_n.rhsIdx (ix2 r l) ((ValueIdx.contrEquiv1 dot_S256x256_S1024x256_S256x1024_1_1_0_0_n_n 256 rfl rfl).symm k) = ix2 l k := funext fun a => Fin.ext (by
    match a with
    | ⟨0, _⟩ => exact rhsL_0 _ _
    | ⟨1, _⟩ => exact (rhsL_1 _ _).trans hk)
  rw [el, er]

/-- The loop's initial column is zero. -/
theorem pay11_apply (r : Fin 256) (u : Fin 1) : k0_pay11 (F := Ideal) (ix2 r u) = 0 := by
  unfold k0_pay11
  show Ideal.ofBits .f32 0x00000000#32 = 0
  exact Ideal.ofBits_zero_f32

/-- One trip adds, to the carried column at row r, the sum over the trip's 1024 local rows of the exponential of the
    shifted local logit. -/
theorem pay12_apply (x0 : Vec Ideal S256x256 .bf16) (x2 : Vec Ideal S640x256 .bf16) (x4 : Vec Ideal S1x640 .i32)
    (acc : FVec Ideal S256x1 .f32) (v62 : Vec Ideal S1x1024x256 .bf16) (r : Fin 256) (u : Fin 1) :
    k0_pay12 (F := Ideal) x0 x2 x4 acc v62 (ix2 r u)
      = acc (ix2 r u) + ∑ l : Fin 1024, Ideal.exp ((∑ d : Fin 256, x0 (ix2 r d) * v62 (ix3 (0 : Fin 1) l d)) * Cert.Spec.invTemp
          - mx (fun d => x0 (ix2 r d)) (fun p d => x2 (ix2 p d)) (fun p => x4 (ix2 (0 : Fin 1) p))) := by
  unfold k0_pay12 k0_pay2
  refine (addf_apply _ _ _).trans ?_
  refine congrArg (acc (ix2 r u) + ·) ?_
  refine (col_cast_apply _ r u).trans ?_
  refine (Ideal.multiReduction_add_single _ _ _ _ _ _).trans ?_
  refine Finset.sum_congr rfl fun (l : Fin 1024) _ => ?_
  rw [lift1024]
  show Ideal.exp (matmul dot_S256x256_S1024x256_S256x1024_1_1_0_0_n_n none (shapeCast S256x256 x0 _) (shapeCast S1024x256 v62 _)
      (constant (F := Ideal) S256x1024 .f32 0x00000000#32) (ix2 r l) * broadcast S256x1024 (Named.named (F := Ideal) Cert.KernelIdeal.κ "inv_temp" (φ := .f32) 0x41200000#32) (ix2 r l)
      - broadcastTo S256x1024 (k0_pay6 (F := Ideal) x0 x2 x4) _ (ix2 r l)) = _
  rw [matmulL_apply, broadcast_apply, invTemp_named, col_bcast1024_apply, pay6_apply, shapeCast_self]
  simp only [shapeCast_1ab_ab_apply]

/-- The two trips' sums, from zero, are the sum over all 2048 local rows. -/
theorem two_trips (g : Fin 2048 → EReal) (h0 : ∀ l : Fin 1024, 1024 * 0 + l.val < 2048) (h1 : ∀ l : Fin 1024, 1024 * 1 + l.val < 2048) :
    (0 + ∑ l : Fin 1024, g ⟨1024 * 0 + l.val, h0 l⟩) + ∑ l : Fin 1024, g ⟨1024 * 1 + l.val, h1 l⟩ = ∑ l : Fin 2048, g l := by
  rw [zero_add]
  refine Eq.symm ((Fin.sum_univ_add (a := 1024) (b := 1024) g).trans ?_)
  refine congrArg₂ (· + ·) (Finset.sum_congr rfl fun l _ => congrArg g (Fin.ext ?_)) (Finset.sum_congr rfl fun l _ => congrArg g (Fin.ext ?_))
  · show l.val = 1024 * 0 + l.val; omega
  · show 1024 + l.val = 1024 * 1 + l.val; omega

/-! ## The final payload -/

/-- The store's payload at row r: minus the mean, over the positives, of the log-probabilities. -/
theorem pay1_apply (v24 : FVec Ideal S256x640 .f32) (v28 : IVec S256x640 1) (v31 : FVec Ideal S256x640 .f32)
    (v35 v38 : FVec Ideal S256x1 .f32) (r : Fin 256) (u : Fin 1) :
    k0_pay1 (F := Ideal) v24 v28 v31 v35 v38 (ix2 r u)
      = 0 - Ideal.div
          (∑ p : Fin 640, FloatOps.sitofp (F := Ideal) .f32 ((v28 (ix2 r p)).setWidth 32)
            * (v24 (ix2 r p) - Ideal.log (v31 (ix2 r p) + v38 (ix2 r (0 : Fin 1)) * v35 (ix2 r (0 : Fin 1)) + Cert.Spec.eps)))
          ((∑ p : Fin 640, FloatOps.sitofp (F := Ideal) .f32 ((v28 (ix2 r p)).setWidth 32)) + Cert.Spec.eps) := by
  unfold k0_pay1
  refine (subf_apply _ _ _).trans ?_
  refine congrArg₂ (· - ·) Ideal.ofBits_zero_f32 ?_
  refine (divf_apply _ _ _).trans ?_
  refine congrArg₂ Ideal.div ?_ ?_
  · refine (col_cast_apply _ r u).trans ?_
    refine (Ideal.multiReduction_add_single _ _ _ _ _ _).trans ?_
    refine Finset.sum_congr rfl fun (p : Fin 640) _ => ?_
    rw [lift640]
    refine (mulf_apply _ _ _).trans ?_
    refine congrArg₂ (· * ·) rfl ?_
    show v24 (ix2 r p) - Ideal.log (v31 (ix2 r p) + broadcastTo S256x640 (mulf v38 v35) _ (ix2 r p) + Ideal.ofBits .f32 0x322BCC77#32) = _
    rw [col_bcast640_apply]
    rfl
  · refine (addf_apply _ _ _).trans ?_
    refine congrArg₂ (· + ·) ?_ rfl
    refine (col_cast_apply _ r u).trans ?_
    refine (Ideal.multiReduction_add_single _ _ _ _ _ _).trans ?_
    refine Finset.sum_congr rfl fun (p : Fin 640) _ => ?_
    rw [lift640]
    rfl

/-! ## The block the body leaves: the covering store's payload -/

section Run

variable {F : FTy → Type} [FloatOps F] [Named F]

theorem hz2 : (![0, 0] : Fin 2 → Nat) = fun _ => 0 := funext fun a => by fin_cases a <;> rfl

/-- The table word the body loads at a grid point: the table's entry at the point's coordinate. -/
theorem tbl_word (c : Dev nD) (i : grid0.Coords) (xt0 : TbBuf0 (F := F) c tbM0_0)
    (h : 0 < (Rect.unit (s := S35) (k0_off1 i) S1.size (k0_off1_inb i)).shape.numel) :
    View.ld (View.read (Elt F) (View.whole main_v76) xt0) (Rect.unit (s := S35) (k0_off1 i) S1.size (k0_off1_inb i)) (Shape.Idx.first h)
      = xt0 (ix1 (i 0)) := by
  show xt0 _ = xt0 _
  refine congrArg xt0 (funext fun a => Fin.ext ?_)
  match a with
  | ⟨0, _⟩ =>
    show k0_off1 i 0 + 1 * 0 = (i 0).val
    rw [k0_off1_eq]; rfl

/-- The 1024 rows of the local block a trip loads: those from the trip's offset on. -/
def blk (x5 : Vec F S1x2048x256 .bf16) (k : Fin k0_t1_loop.trips) : Vec F S1x1024x256 .bf16 :=
  View.ld x5 (Rect.unit (s := S1x2048x256) (k0_off2 k) S1x1024x256.size (k0_off2_inb k))

theorem trips_two : k0_t1_loop.trips = 2 := by decide +kernel

/-- Trip k's rows are rows 1024 k + l of the local block. -/
theorem blk_apply (x5 : Vec F S1x2048x256 .bf16) (k : Fin k0_t1_loop.trips) (u : Fin 1) (l : Fin 1024) (d : Fin 256) :
    blk x5 k (ix3 u l d)
      = x5 (ix3 (0 : Fin 1) (⟨1024 * k.val + l.val, by have hk := k.isLt; have h2 := trips_two; have := l.isLt; omega⟩ : Fin 2048) d) := by
  show x5 _ = x5 _
  refine congrArg x5 (funext fun a => Fin.ext ?_)
  have hu : u.val = 0 := by omega
  match a with
  | ⟨0, _⟩ =>
    show k0_off2 k 0 + 1 * u.val = 0
    rw [k0_off2_eq, hu]; rfl
  | ⟨1, _⟩ =>
    show k0_off2 k 1 + 1 * l.val = 1024 * k.val + l.val
    rw [k0_off2_eq]; show 1024 * k.val + 1 * l.val = _; omega
  | ⟨2, _⟩ =>
    show k0_off2 k 2 + 1 * d.val = d.val
    rw [k0_off2_eq]; show 0 + 1 * d.val = _; omega

/-- One trip of the counted loop over the local block: the trip's payload of the carried value and the trip's rows. -/
theorem trip_eq (𝒱 : Variants) (c : Dev nD) (bd : Option 𝒱.V) (i : grid0.Coords) (arg1 : Memref sig .tc .smem S35 .i32) (harg1 : arg1.IsWhole) (arg2 : Memref sig .tc .vmem S256x256 .bf16) (harg2 : arg2.IsWhole) (arg3 : Memref sig .tc .vmem S256x1 .i32) (harg3 : arg3.IsWhole) (arg4 : Memref sig .tc .vmem S640x256 .bf16) (harg4 : arg4.IsWhole) (arg5 : Memref sig .tc .vmem S1x640 .i32) (harg5 : arg5.IsWhole) (arg6 : Memref sig .tc .vmem S1x640 .i32) (harg6 : arg6.IsWhole) (arg7 : Memref sig .tc .vmem S1x2048x256 .bf16) (harg7 : arg7.IsWhole) (arg8 : Memref sig .tc .vmem S256x1 .f32) (harg8 : arg8.IsWhole)
    (v2 : Vec F S256x256 .bf16) (v6 : Vec F S640x256 .bf16) (v13 : Vec F S1x640 .i32) (x5 : Vec F S1x2048x256 .bf16)
    (k : Fin k0_t1_loop.trips) (acc : FVec F S256x1 .f32) :
    tripR_k0_t1 (F := F) 𝒱 c bd i arg1 harg1 arg2 harg2 arg3 harg3 arg4 harg4 arg5 harg5 arg6 harg6 arg7 harg7 arg8 harg8 v2 v6 v13 (harg7.unread x5) k acc
      = k0_pay12 v2 v6 v13 acc (blk x5 k) := by
  unfold tripR_k0_t1
  unfold trip_k0_t1
  dsimp only
  rw [View.readAt_eq_ld, harg7.read_unread]
  rfl

/-- The two trips, in order, from the zero column. -/
theorem loop_eq (𝒱 : Variants) (c : Dev nD) (bd : Option 𝒱.V) (i : grid0.Coords) (arg1 : Memref sig .tc .smem S35 .i32) (harg1 : arg1.IsWhole) (arg2 : Memref sig .tc .vmem S256x256 .bf16) (harg2 : arg2.IsWhole) (arg3 : Memref sig .tc .vmem S256x1 .i32) (harg3 : arg3.IsWhole) (arg4 : Memref sig .tc .vmem S640x256 .bf16) (harg4 : arg4.IsWhole) (arg5 : Memref sig .tc .vmem S1x640 .i32) (harg5 : arg5.IsWhole) (arg6 : Memref sig .tc .vmem S1x640 .i32) (harg6 : arg6.IsWhole) (arg7 : Memref sig .tc .vmem S1x2048x256 .bf16) (harg7 : arg7.IsWhole) (arg8 : Memref sig .tc .vmem S256x1 .f32) (harg8 : arg8.IsWhole)
    (v2 : Vec F S256x256 .bf16) (v6 : Vec F S640x256 .bf16) (v13 : Vec F S1x640 .i32) (x5 : Vec F S1x2048x256 .bf16)
    (h0 : 0 < k0_t1_loop.trips) (h1 : 1 < k0_t1_loop.trips) :
    st_k0_t1 (F := F) 𝒱 c bd i arg1 harg1 arg2 harg2 arg3 harg3 arg4 harg4 arg5 harg5 arg6 harg6 arg7 harg7 arg8 harg8 v2 v6 v13 (harg7.unread x5) (k0_pay11 (F := F)) k0_t1_loop.trips
      = k0_pay12 v2 v6 v13 (k0_pay12 v2 v6 v13 (k0_pay11 (F := F)) (blk x5 ⟨0, h0⟩)) (blk x5 ⟨1, h1⟩) := by
  refine (congrArg (st_k0_t1 (F := F) 𝒱 c bd i arg1 harg1 arg2 harg2 arg3 harg3 arg4 harg4 arg5 harg5 arg6 harg6 arg7 harg7 arg8 harg8 v2 v6 v13 (harg7.unread x5) (k0_pay11 (F := F))) trips_two).trans ?_
  show st_k0_t1 (F := F) 𝒱 c bd i arg1 harg1 arg2 harg2 arg3 harg3 arg4 harg4 arg5 harg5 arg6 harg6 arg7 harg7 arg8 harg8 v2 v6 v13 (harg7.unread x5) (k0_pay11 (F := F)) ((⟨1, h1⟩ : Fin k0_t1_loop.trips).val + 1) = _
  rw [st_k0_t1_succ, trip_eq]
  show k0_pay12 v2 v6 v13 (st_k0_t1 (F := F) 𝒱 c bd i arg1 harg1 arg2 harg2 arg3 harg3 arg4 harg4 arg5 harg5 arg6 harg6 arg7 harg7 arg8 harg8 v2 v6 v13 (harg7.unread x5) (k0_pay11 (F := F)) ((⟨0, h0⟩ : Fin k0_t1_loop.trips).val + 1)) _ = _
  rw [st_k0_t1_succ, trip_eq, st_k0_t1_zero]

/-- The output block after the body: the final payload over the loaded blocks, the table word as loaded, and the loop's carried value after its last trip. -/
theorem out_pieces (c : Dev nD) (i : grid0.Coords) (arg2 : Memref sig .tc .vmem S256x256 .bf16) (harg2 : arg2.IsWhole) (arg3 : Memref sig .tc .vmem S256x1 .i32) (harg3 : arg3.IsWhole) (arg4 : Memref sig .tc .vmem S640x256 .bf16) (harg4 : arg4.IsWhole) (arg5 : Memref sig .tc .vmem S1x640 .i32) (harg5 : arg5.IsWhole) (arg6 : Memref sig .tc .vmem S1x640 .i32) (harg6 : arg6.IsWhole) (arg7 : Memref sig .tc .vmem S1x2048x256 .bf16) (harg7 : arg7.IsWhole) (arg8 : Memref sig .tc .vmem S256x1 .f32) (harg8 : arg8.IsWhole)
    (x0 : Vec F S256x256 .bf16) (x1 : Vec F S256x1 .i32) (x2 : Vec F S640x256 .bf16) (x3 : Vec F S1x640 .i32) (x4 : Vec F S1x640 .i32) (x5 : Vec F S1x2048x256 .bf16) (xt0 : TbBuf0 (F := F) c tbM0_0) :
    out0_A_6 c i arg2 harg2 arg3 harg3 arg4 harg4 arg5 harg5 arg6 harg6 arg7 harg7 arg8 harg8 x0 x1 x2 x3 x4 x5 xt0
      = k0_pay1 (k0_pay7 x0 x2 x4) (k0_pay8 x1 x3 x4) (k0_pay9 x0 x1 x2 x3 x4)
          (k0_pay10 (View.ld (View.read (Elt F) (View.whole main_v76) xt0) (Rect.unit (s := S35) (k0_off1 i) S1.size (k0_off1_inb i))
            (Shape.Idx.first (numel1_S1.symm ▸ Nat.one_pos))) x1)
          (st_k0_t1 (F := F) Variants.none c none i tbM0_0 htbM0_0 arg2 harg2 arg3 harg3 arg4 harg4 arg5 harg5 arg6 harg6 arg7 harg7 arg8 harg8
            x0 x2 x4 (harg7.unread x5) (k0_pay11 (F := F)) k0_t1_loop.trips) := by
  unfold out0_A_6
  rw [View.read_writes_eq_canon _ _ _ (cover0_A_6 c i arg2 harg2 arg3 harg3 arg4 harg4 arg5 harg5 arg6 harg6 arg7 harg7 arg8 harg8 x0 x1 x2 x3 x4 x5 xt0)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S256x256) hz2, View.ld_unit_zero (S := S256x1) hz2, View.ld_unit_zero (S := S640x256) hz2,
    View.ld_unit_zero (S := S1x640) hz2]

/-- What the body leaves in the output block at a grid point: the final payload of the prototype-side payloads, the
    class indicator of the table's entry at the point's coordinate, and the two trips' sum. -/
theorem out_eq (c : Dev nD) (i : grid0.Coords) (arg2 : Memref sig .tc .vmem S256x256 .bf16) (harg2 : arg2.IsWhole) (arg3 : Memref sig .tc .vmem S256x1 .i32) (harg3 : arg3.IsWhole) (arg4 : Memref sig .tc .vmem S640x256 .bf16) (harg4 : arg4.IsWhole) (arg5 : Memref sig .tc .vmem S1x640 .i32) (harg5 : arg5.IsWhole) (arg6 : Memref sig .tc .vmem S1x640 .i32) (harg6 : arg6.IsWhole) (arg7 : Memref sig .tc .vmem S1x2048x256 .bf16) (harg7 : arg7.IsWhole) (arg8 : Memref sig .tc .vmem S256x1 .f32) (harg8 : arg8.IsWhole)
    (x0 : Vec F S256x256 .bf16) (x1 : Vec F S256x1 .i32) (x2 : Vec F S640x256 .bf16) (x3 : Vec F S1x640 .i32) (x4 : Vec F S1x640 .i32) (x5 : Vec F S1x2048x256 .bf16) (xt0 : TbBuf0 (F := F) c tbM0_0)
    (h0 : 0 < k0_t1_loop.trips) (h1 : 1 < k0_t1_loop.trips) :
    out0_A_6 c i arg2 harg2 arg3 harg3 arg4 harg4 arg5 harg5 arg6 harg6 arg7 harg7 arg8 harg8 x0 x1 x2 x3 x4 x5 xt0
      = k0_pay1 (k0_pay7 x0 x2 x4) (k0_pay8 x1 x3 x4) (k0_pay9 x0 x1 x2 x3 x4) (k0_pay10 (xt0 (ix1 (i 0))) x1)
          (k0_pay12 x0 x2 x4 (k0_pay12 x0 x2 x4 (k0_pay11 (F := F)) (blk x5 ⟨0, h0⟩)) (blk x5 ⟨1, h1⟩)) := by
  rw [out_pieces, tbl_word, loop_eq _ _ _ _ _ _ _ _ _ _ _ _ _ _ _ _ _ _ _ _ _ _ _ _ h0 h1]

end Run

/-! ## The output block, row by row -/

/-- At the ideal values the output block the kernel body leaves at a grid point, read at row r, is the
    specification's row function of the point's input blocks: the row's features and label, the table's class word at
    the point's coordinate, the prototype rows with their label and mask words, and the 2048 local rows. -/
theorem out0_A_6_apply (c : Dev nD) (i : grid0.Coords) (arg2 : Memref sig .tc .vmem S256x256 .bf16) (harg2 : arg2.IsWhole) (arg3 : Memref sig .tc .vmem S256x1 .i32) (harg3 : arg3.IsWhole) (arg4 : Memref sig .tc .vmem S640x256 .bf16) (harg4 : arg4.IsWhole) (arg5 : Memref sig .tc .vmem S1x640 .i32) (harg5 : arg5.IsWhole) (arg6 : Memref sig .tc .vmem S1x640 .i32) (harg6 : arg6.IsWhole) (arg7 : Memref sig .tc .vmem S1x2048x256 .bf16) (harg7 : arg7.IsWhole) (arg8 : Memref sig .tc .vmem S256x1 .f32) (harg8 : arg8.IsWhole)
    (x0 : Vec Ideal S256x256 .bf16) (x1 : Vec Ideal S256x1 .i32) (x2 : Vec Ideal S640x256 .bf16) (x3 : Vec Ideal S1x640 .i32) (x4 : Vec Ideal S1x640 .i32) (x5 : Vec Ideal S1x2048x256 .bf16) (xt0 : TbBuf0 (F := Ideal) c tbM0_0) (r : Fin 256) :
    out0_A_6 (F := Ideal) c i arg2 harg2 arg3 harg3 arg4 harg4 arg5 harg5 arg6 harg6 arg7 harg7 arg8 harg8 x0 x1 x2 x3 x4 x5 xt0 (ix2 r (0 : Fin 1))
      = Cert.Spec.kerRow (fun d => x0 (ix2 r d)) (x1 (ix2 r (0 : Fin 1))) (xt0 (ix1 (i 0))) (fun p d => x2 (ix2 p d))
          (fun p => x3 (ix2 (0 : Fin 1) p)) (fun p => x4 (ix2 (0 : Fin 1) p)) (fun l d => x5 (ix3 (0 : Fin 1) l d)) := by
  have h0 : 0 < k0_t1_loop.trips := by rw [trips_two]; decide
  have h1 : 1 < k0_t1_loop.trips := by rw [trips_two]; decide
  have hng : k0_pay12 (F := Ideal) x0 x2 x4 (k0_pay12 (F := Ideal) x0 x2 x4 (k0_pay11 (F := Ideal)) (blk x5 ⟨0, h0⟩)) (blk x5 ⟨1, h1⟩) (ix2 r (0 : Fin 1))
      = ∑ l : Fin 2048, Ideal.exp ((∑ d : Fin 256, x0 (ix2 r d) * x5 (ix3 (0 : Fin 1) l d)) * Cert.Spec.invTemp
          - mx (fun d => x0 (ix2 r d)) (fun p d => x2 (ix2 p d)) (fun p => x4 (ix2 (0 : Fin 1) p))) := by
    rw [pay12_apply, pay12_apply, pay11_apply]
    simp only [blk_apply]
    exact two_trips (fun l => Ideal.exp ((∑ d : Fin 256, x0 (ix2 r d) * x5 (ix3 (0 : Fin 1) l d)) * Cert.Spec.invTemp
          - mx (fun d => x0 (ix2 r d)) (fun p d => x2 (ix2 p d)) (fun p => x4 (ix2 (0 : Fin 1) p)))) _ _
  refine (congrFun (out_eq (F := Ideal) c i arg2 harg2 arg3 harg3 arg4 harg4 arg5 harg5 arg6 harg6 arg7 harg7 arg8 harg8 x0 x1 x2 x3 x4 x5 xt0 h0 h1) (ix2 r (0 : Fin 1))).trans ?_
  rw [pay1_apply, hng, pay10_apply]
  simp only [pay7_apply, pay8_apply, pay9_apply, indicator_ite]
  unfold Cert.Spec.kerRow dp mx
  rfl

end Cert.KernelIdeal.Body

end
-- ==== Proof.BlockReads.lean ====
/-
  The windows' blocks, read at an index.

  Window w's block at grid point t is the part of its array at block index (index t) times the block size; read at a
  position inside the block it is the array at that offset plus the position. Windows 0, 1 and 6 move down the rows
  with the point (256 rows each); windows 2, 3, 4 are the whole array at every point; window 5's block of the local
  memory is chosen by the table's word at the point.
-/
import proofs.«425194_j11605001634274_3_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen ValueIdx

variable {F : FTy → Type} [FloatOps F] [Named F]

theorem N35 (a : (pcfg0 (F := F)).Adm) : (cfg0 a).N = 35 := rfl
theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr6 : ∀ t : Fin grid0.N, cc0_transform_6 (grid0.coords t) = ![t.val, 0] := by decide +kernel

theorem tr2 : ∀ t : Fin grid0.N, cc0_transform_2 (grid0.coords t) = ![0, 0] := by decide +kernel
theorem tr3 : ∀ t : Fin grid0.N, cc0_transform_3 (grid0.coords t) = ![0, 0] := by decide +kernel
theorem tr4 : ∀ t : Fin grid0.N, cc0_transform_4 (grid0.coords t) = ![0, 0] := by decide +kernel

/-- Window 0's block at point t, read at (r, d): the array at row 256 t + r. -/
theorem blk0_read (a : (pcfg0 (F := F)).Adm) (c : Dev nD) (t : Fin (cfg0 a).N) (X : Buf (Elt F) ((c : Thread nD τ).loc main_v48))
    (r : Fin 256) (d : Fin 256) :
    (((cfg0 a).win 0).blk t).view.read (Elt F) X (ix2 r d)
      = X (ix2 (⟨256 * t.val + r.val, by have := t.isLt; have h : (cfg0 a).N = 35 := rfl; have := r.isLt; omega⟩ : Fin 8960) d) := by
  refine (View.read_apply (Val := Elt F) (v := (((cfg0 a).win 0).blk t).view) X (ix2 r d)).trans ?_
  show X _ = X _
  congr 1
  funext x
  apply Fin.ext
  match x with
  | ⟨0, _⟩ =>
    show cc0_transform_0 (grid0.coords t) 0 * 256 + 1 * r.val = 256 * t.val + r.val
    rw [tr0 t]; show t.val * 256 + 1 * r.val = _; omega
  | ⟨1, _⟩ =>
    show cc0_transform_0 (grid0.coords t) 1 * 256 + 1 * d.val = d.val
    rw [tr0 t]; show 0 * 256 + 1 * d.val = _; omega

/-- Window 1's block (the labels column) at point t, read at (r, 0): the array at row 256 t + r. -/
theorem blk1_read (a : (pcfg0 (F := F)).Adm) (c : Dev nD) (t : Fin (cfg0 a).N) (X : Buf (Elt F) ((c : Thread nD τ).loc main_v57))
    (r : Fin 256) :
    (((cfg0 a).win 1).blk t).view.read (Elt F) X (ix2 r (0 : Fin 1))
      = X (ix2 (⟨256 * t.val + r.val, by have := t.isLt; have h : (cfg0 a).N = 35 := rfl; have := r.isLt; omega⟩ : Fin 8960) (0 : Fin 1)) := by
  refine (View.read_apply (Val := Elt F) (v := (((cfg0 a).win 1).blk t).view) X (ix2 r (0 : Fin 1))).trans ?_
  show X _ = X _
  congr 1
  funext x
  apply Fin.ext
  match x with
  | ⟨0, _⟩ =>
    show cc0_transform_1 (grid0.coords t) 0 * 256 + 1 * r.val = 256 * t.val + r.val
    rw [tr1 t]; show t.val * 256 + 1 * r.val = _; omega
  | ⟨1, _⟩ =>
    show cc0_transform_1 (grid0.coords t) 1 * 1 + 1 * (0 : Fin 1).val = (0 : Fin 1).val
    rw [tr1 t]; show 0 * 1 + 1 * 0 = 0; omega

/-- Windows 2, 3, 4: the whole array at every point. -/
theorem blk2_read (a : (pcfg0 (F := F)).Adm) (c : Dev nD) (t : Fin (cfg0 a).N) (X : Buf (Elt F) ((c : Thread nD τ).loc main_v6))
    (p : Fin 640) (d : Fin 256) : (((cfg0 a).win 2).blk t).view.read (Elt F) X (ix2 p d) = X (ix2 p d) := by
  refine (View.read_apply (Val := Elt F) (v := (((cfg0 a).win 2).blk t).view) X (ix2 p d)).trans ?_
  show X _ = X _
  congr 1
  funext x
  apply Fin.ext
  match x with
  | ⟨0, _⟩ =>
    show cc0_transform_2 (grid0.coords t) 0 * 640 + 1 * p.val = p.val
    rw [tr2 t]; show 0 * 640 + 1 * p.val = _; omega
  | ⟨1, _⟩ =>
    show cc0_transform_2 (grid0.coords t) 1 * 256 + 1 * d.val = d.val
    rw [tr2 t]; show 0 * 256 + 1 * d.val = _; omega
theorem blk3_read (a : (pcfg0 (F := F)).Adm) (c : Dev nD) (t : Fin (cfg0 a).N) (X : Buf (Elt F) ((c : Thread nD τ).loc main_v9))
    (p : Fin 640) : (((cfg0 a).win 3).blk t).view.read (Elt F) X (ix2 (0 : Fin 1) p) = X (ix2 (0 : Fin 1) p) := by
  refine (View.read_apply (Val := Elt F) (v := (((cfg0 a).win 3).blk t).view) X (ix2 (0 : Fin 1) p)).trans ?_
  show X _ = X _
  congr 1
  funext x
  apply Fin.ext
  match x with
  | ⟨0, _⟩ =>
    show cc0_transform_3 (grid0.coords t) 0 * 1 + 1 * (0 : Fin 1).val = (0 : Fin 1).val
    rw [tr3 t]; show 0 * 1 + 1 * 0 = 0; omega
  | ⟨1, _⟩ =>
    show cc0_transform_3 (grid0.coords t) 1 * 640 + 1 * p.val = p.val
    rw [tr3 t]; show 0 * 640 + 1 * p.val = _; omega
theorem blk4_read (a : (pcfg0 (F := F)).Adm) (c : Dev nD) (t : Fin (cfg0 a).N) (X : Buf (Elt F) ((c : Thread nD τ).loc main_v10))
    (p : Fin 640) : (((cfg0 a).win 4).blk t).view.read (Elt F) X (ix2 (0 : Fin 1) p) = X (ix2 (0 : Fin 1) p) := by
  refine (View.read_apply (Val := Elt F) (v := (((cfg0 a).win 4).blk t).view) X (ix2 (0 : Fin 1) p)).trans ?_
  show X _ = X _
  congr 1
  funext x
  apply Fin.ext
  match x with
  | ⟨0, _⟩ =>
    show cc0_transform_4 (grid0.coords t) 0 * 1 + 1 * (0 : Fin 1).val = (0 : Fin 1).val
    rw [tr4 t]; show 0 * 1 + 1 * 0 = 0; omega
  | ⟨1, _⟩ =>
    show cc0_transform_4 (grid0.coords t) 1 * 640 + 1 * p.val = p.val
    rw [tr4 t]; show 0 * 640 + 1 * p.val = _; omega

/-- The table's word at point t, as the index map of window 5 reads it. -/
abbrev tword (a : (pcfg0 (F := F)).Adm) (t : Fin (cfg0 a).N) : BitVec 32 :=
  a.1 0 (ix1 (⟨t.val, t.isLt⟩ : Fin 35))

/-- The index cast of point t's grid coordinate, read as a number, is t. -/
theorem gc0 : ∀ t : Fin grid0.N, (Scalar.indexCast (BitVec.ofNat 32 (grid0.coords t 0).val)).toNat = t.val := by
  decide +kernel

/-- Window 5's block index at point t: the table's word at t on the class axis, 0 on the other two. -/
theorem idx5 (a : (pcfg0 (F := F)).Adm) (t : Fin (cfg0 a).N) :
    cc0_transform_5 k0_off1_inb numel1_S1 a.1 (grid0.coords t) = ![(tword a t).toNat, 0, 0] := by
  have e : (Rect.unit (s := S35) ![(Scalar.indexCast (BitVec.ofNat 32 (grid0.coords t 0).val)).toNat] S1.size
      (k0_off1_inb (grid0.coords t))).emb (Shape.Idx.first (numel1_S1.symm ▸ Nat.one_pos))
      = ix1 (⟨t.val, t.isLt⟩ : Fin 35) := by
    funext x
    apply Fin.ext
    match x with
    | ⟨0, _⟩ =>
      show (Scalar.indexCast (BitVec.ofNat 32 (grid0.coords t 0).val)).toNat + 1 * 0 = t.val
      rw [gc0 t]; omega
  show ![(show BitVec 32 from a.1 0 ((Rect.unit (s := S35) ![(Scalar.indexCast (BitVec.ofNat 32 (grid0.coords t 0).val)).toNat]
      S1.size (k0_off1_inb (grid0.coords t))).emb (Shape.Idx.first (numel1_S1.symm ▸ Nat.one_pos)))).toNat, 0, 0] = _
  rw [e]

/-- The admissible table's word at a point is a class: below 19 (the side condition's first conjunct on axis 0). -/
theorem tword_lt (a : (pcfg0 (F := F)).Adm) (t : Fin (cfg0 a).N) : (tword a t).toNat < 19 := by
  have hok : ok0 (F := F) a.1 := a.2
  obtain ⟨h, -⟩ := hok (grid0.coords t)
  have h0 := h 0
  rw [idx5 a t] at h0
  have h1 : ((tword a t).toNat + 1) * 1 ≤ 19 := h0
  omega

/-- Window 5's block at point t, read at (0, l, d): the local memory at class (table word at t), row l. -/
theorem blk5_read (a : (pcfg0 (F := F)).Adm) (c : Dev nD) (t : Fin (cfg0 a).N) (X : Buf (Elt F) ((c : Thread nD τ).loc main_v77))
    (l : Fin 2048) (d : Fin 256) :
    (((cfg0 a).win 5).blk t).view.read (Elt F) X (ix3 (0 : Fin 1) l d)
      = X (ix3 (⟨(tword a t).toNat, tword_lt a t⟩ : Fin 19) l d) := by
  refine (View.read_apply (Val := Elt F) (v := (((cfg0 a).win 5).blk t).view) X (ix3 (0 : Fin 1) l d)).trans ?_
  show X _ = X _
  refine congrArg X ?_
  funext x
  apply Fin.ext
  match x with
  | ⟨0, _⟩ =>
    show cc0_transform_5 k0_off1_inb numel1_S1 a.1 (grid0.coords t) 0 * 1 + 1 * (0 : Fin 1).val = (tword a t).toNat
    rw [idx5 a t]; show (tword a t).toNat * 1 + 1 * 0 = _; omega
  | ⟨1, _⟩ =>
    show cc0_transform_5 k0_off1_inb numel1_S1 a.1 (grid0.coords t) 1 * 2048 + 1 * l.val = l.val
    rw [idx5 a t]; show 0 * 2048 + 1 * l.val = _; omega
  | ⟨2, _⟩ =>
    show cc0_transform_5 k0_off1_inb numel1_S1 a.1 (grid0.coords t) 2 * 256 + 1 * d.val = d.val
    rw [idx5 a t]; show 0 * 256 + 1 * d.val = _; omega

/-- Window 6 (the output column): position (r, 0) of point t's block is row 256 t + r of the array. -/
theorem blk6_emb (a : (pcfg0 (F := F)).Adm) (t : Fin (cfg0 a).N) (r : Fin 256) :
    (((cfg0 a).win 6).blk t).view.emb (ix2 r (0 : Fin 1))
      = ix2 (⟨256 * t.val + r.val, by have := t.isLt; have h : (cfg0 a).N = 35 := rfl; have := r.isLt; omega⟩ : Fin 8960) (0 : Fin 1) := by
  funext x
  apply Fin.ext
  match x with
  | ⟨0, _⟩ =>
    show cc0_transform_6 (grid0.coords t) 0 * 256 + 1 * r.val = 256 * t.val + r.val
    rw [tr6 t]; show t.val * 256 + 1 * r.val = _; omega
  | ⟨1, _⟩ =>
    show cc0_transform_6 (grid0.coords t) 1 * 1 + 1 * (0 : Fin 1).val = (0 : Fin 1).val
    rw [tr6 t]; show 0 * 1 + 1 * 0 = 0; omega

/-- Row R of the output array lies in the block of point R / 256. -/
theorem blk6_mem (a : (pcfg0 (F := F)).Adm) (t : Fin (cfg0 a).N) (i : S8960x1.Idx) (h : (i 0).val / 256 = t.val) :
    i ∈ (((cfg0 a).win 6).blk t).view.set := by
  have ht : t.val < 35 := t.isLt
  have hi0 : (i 0).val < 8960 := (i 0).isLt
  have hi1 : (i 1).val < 1 := (i 1).isLt
  have hr : (i 0).val - 256 * t.val < 256 := by omega
  have e : i = (((cfg0 a).win 6).blk t).view.emb (ix2 (⟨(i 0).val - 256 * t.val, hr⟩ : Fin 256) (0 : Fin 1)) := by
    rw [blk6_emb a t ⟨(i 0).val - 256 * t.val, hr⟩]
    funext x
    apply Fin.ext
    match x with
    | ⟨0, _⟩ =>
      show (i 0).val = 256 * t.val + ((i 0).val - 256 * t.val)
      omega
    | ⟨1, _⟩ =>
      show (i 1).val = 0
      omega
  rw [e]
  exact View.emb_mem_set _ _

end Cert.KernelIdeal.Blocks

end
-- ==== Proof.KernelValue.lean ====
/-
  The kernel program's result: the mean over the padded rows of the per-row values.

  Point t of the grid writes rows 256 t … 256 t + 255 of the output column; row R holds the kernel's row function of
  row R of the padded features and labels, the class word of tile R / 256, the prototype block and the local rows of
  that class. The 35 blocks cover the column, so after the run the column is that function of R, and the host
  operations after the call sum it and divide by 4096.
-/
import proofs.«425194_j11605001634274_3_alg».proof.Proof.Spec
import proofs.«425194_j11605001634274_3_alg».proof.Proof.RowFn
import proofs.«425194_j11605001634274_3_alg».proof.Proof.KernelBody
import proofs.«425194_j11605001634274_3_alg».proof.Proof.BlockReads
import proofs.«425194_j11605001634274_3_alg».proof.Proof.Gen.KernelIdeal.Frame
import Idealize.ShloMosaic.PureOps.Ideal.Laws
import Idealize.ShloMosaic.Lib.Pipeline.Value
import Idealize.ShloMosaic.Lib.StableHlo.Run
import Idealize.ShloMosaic.Lib.ValueIdx

set_option maxRecDepth 16384

noncomputable section

namespace Cert.KernelIdeal.Value

open Idealize.ShloMosaic Idealize.ShloMosaic.TcCoe Idealize.SL.Sem Idealize.ShloMosaic.StableHlo Cert.KernelIdeal Cert.KernelIdeal.Gen ValueIdx
open Idealize.ShloMosaic.Pipeline (Dat)

variable (m : (ℓ : Loc nD τ sig) → Buf (Elt Ideal) ℓ) (ρ : Dev nD → PrngReg)

/-- The output column after the run, over the arrays as the region finds them. -/
def G (c : Dev nD) : Buf (Elt Ideal) ((c : Thread nD τ).loc main_v78) :=
  rowsOut (V m c main_v48) (V m c main_v57) (tbl m 0) (V m c main_v6) (V m c main_v9) (V m c main_v10) (V m c main_v77)

theorem coords0 : ∀ t : Fin grid0.N, (grid0.coords t 0).val = t.val := by decide +kernel
set_option maxHeartbeats 400000 in
/-- What the body leaves at point t, read at row r: the kernel's row function of the point's blocks. -/
theorem outsAt0_apply (hO : Ok m) (c : Dev nD) (t : Fin (cfgM m hO).N) (r : Fin 256) :
    outsAt0 m hO c t (ix2 r (0 : Fin 1))
      = Cert.Spec.kerRow (fun d => iblk m hO c 0 t (ix2 r d)) (iblk m hO c 1 t (ix2 r (0 : Fin 1))) (tbl m 0 (ix1 (grid0.coords t 0)))
          (fun p d => iblk m hO c 2 t (ix2 p d)) (fun p => iblk m hO c 3 t (ix2 (0 : Fin 1) p)) (fun p => iblk m hO c 4 t (ix2 (0 : Fin 1) p))
          (fun l d => iblk m hO c 5 t (ix3 (0 : Fin 1) l d)) := by
  unfold outsAt0
  exact Body.out0_A_6_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t)
    (iblk m hO c 3 t) (iblk m hO c 4 t) (iblk m hO c 5 t) (tbl m 0) r

/-- Two columns of 256 rows agree when they agree row by row. -/
theorem ext_rows (f g : S256x1.Idx → EReal) (h : ∀ r : Fin 256, f (ix2 r (0 : Fin 1)) = g (ix2 r (0 : Fin 1))) : f = g := by
  funext j
  have h1 : (j 1).val < 1 := (j 1).isLt
  have hj : j = ix2 (j 0) (0 : Fin 1) := by
    rw [eq_ix2 j]
    congr 1
    exact Fin.ext (by show (j 1).val = 0; omega)
  rw [hj]
  exact h (j 0)

/-- A column X written back as point t's block is block t of a column G' that holds X's rows at rows 256 t …. -/
theorem flush_read (a : (pcfg0 (F := Ideal)).Adm) (c : Dev nD) (t : Fin (cfg0 a).N) (X : S256x1.Idx → EReal)
    (G' : Buf (Elt Ideal) ((c : Thread nD τ).loc main_v78))
    (h : ∀ r : Fin 256, X (ix2 r (0 : Fin 1))
      = G' (ix2 (⟨256 * t.val + r.val, by have := t.isLt; have h : (cfg0 a).N = 35 := rfl; have := r.isLt; omega⟩ : Fin 8960) (0 : Fin 1))) :
    ((cfg0 a).win 6).cut (grid0.coords t) X = (((cfg0 a).win 6).blk t).view.read (Elt Ideal) G' := by
  refine ext_rows _ _ (fun r => ?_)
  refine Eq.trans ?_ (View.read_apply (Val := Elt Ideal) (v := (((cfg0 a).win 6).blk t).view) G' (ix2 r (0 : Fin 1))).symm
  rw [Blocks.blk6_emb a t r]
  exact h r

set_option maxHeartbeats 400000 in
/-- Row r of what the body leaves at point t is row 256 t + r of the column function. -/
theorem outsAt0_row (hO : Ok m) (c : Dev nD) (t : Fin (cfgM m hO).N) (r : Fin 256) :
    outsAt0 m hO c t (ix2 r (0 : Fin 1))
      = G m c (ix2 (⟨256 * t.val + r.val, by have := t.isLt; have h : (cfgM m hO).N = 35 := rfl; have := r.isLt; omega⟩ : Fin 8960) (0 : Fin 1)) := by
  rw [outsAt0_apply]
  have hc : grid0.coords t 0 = (⟨t.val, t.isLt⟩ : Fin 35) := Fin.ext (coords0 t)
  have e0 : (fun d => iblk m hO c 0 t (ix2 r d)) = fun d => V m c main_v48 (ix2 (⟨256 * t.val + r.val, by have := t.isLt; have h : (cfgM m hO).N = 35 := rfl; have := r.isLt; omega⟩ : Fin 8960) d) :=
    funext fun d => Blocks.blk0_read (adm m hO) c t (V m c main_v48) r d
  have e1 : iblk m hO c 1 t (ix2 r (0 : Fin 1)) = V m c main_v57 (ix2 (⟨256 * t.val + r.val, by have := t.isLt; have h : (cfgM m hO).N = 35 := rfl; have := r.isLt; omega⟩ : Fin 8960) (0 : Fin 1)) :=
    Blocks.blk1_read (adm m hO) c t (V m c main_v57) r
  have e2 : (fun p d => iblk m hO c 2 t (ix2 p d)) = fun p d => V m c main_v6 (ix2 p d) :=
    funext fun p => funext fun d => Blocks.blk2_read (adm m hO) c t (V m c main_v6) p d
  have e3 : (fun p => iblk m hO c 3 t (ix2 (0 : Fin 1) p)) = fun p => V m c main_v9 (ix2 (0 : Fin 1) p) :=
    funext fun p => Blocks.blk3_read (adm m hO) c t (V m c main_v9) p
  have e4 : (fun p => iblk m hO c 4 t (ix2 (0 : Fin 1) p)) = fun p => V m c main_v10 (ix2 (0 : Fin 1) p) :=
    funext fun p => Blocks.blk4_read (adm m hO) c t (V m c main_v10) p
  have e5 : (fun l d => iblk m hO c 5 t (ix3 (0 : Fin 1) l d))
      = fun l d => V m c main_v77 (ix3 (⟨(Blocks.tword (adm m hO) t).toNat, Blocks.tword_lt (adm m hO) t⟩ : Fin 19) l d) :=
    funext fun l => funext fun d => Blocks.blk5_read (adm m hO) c t (V m c main_v77) l d
  rw [e0, e1, e2, e3, e4, e5, hc]
  exact (rowsOut_at' (V m c main_v48) (V m c main_v57) (tbl m 0) (V m c main_v6) (V m c main_v9) (V m c main_v10) (V m c main_v77)
    t.val t.isLt r _ (Blocks.tword (adm m hO) t) rfl (Blocks.tword_lt (adm m hO) t)).symm

/-- What point t writes back is block t of the column function. -/
theorem flushed_eq (hO : Ok m) (c : Dev nD) (t : Fin (cfgM m hO).N) :
    (dats m hO 0 c).flushed 6 t = (((cfgM m hO).win 6).blk t).view.read (Elt Ideal) (G m c) := by
  show ((cfgM m hO).win 6).cut (grid0.coords t) ((dats m hO 0 c).after 6 t) = _
  rw [after0_6]
  exact flush_read (adm m hO) c t (outsAt0 m hO c t) (G m c) (outsAt0_row m hO c t)

/-- Every row of the column is in the block of its tile. -/
theorem cover (hO : Ok m) (c : Dev nD) (i : S8960x1.Idx) :
    ∃ t : Fin (cfgM m hO).N, ((cfgM m hO).win 6).flush t = true ∧ i ∈ (((cfgM m hO).win 6).blk t).view.set :=
  ⟨⟨(i 0).val / 256, by have : (i 0).val < 8960 := (i 0).isLt; show _ < 35; omega⟩, flush0_6 (adm m hO) _,
    Blocks.blk6_mem (adm m hO) _ i rfl⟩

/-- After the run the output column is the column function. -/
theorem final (hO : Ok m) (c : Dev nD) : (dats m hO 0 c).arrAt 6 (cfgM m hO).N = G m c :=
  (dats m hO 0 c).arrAt_eq_of_cover 6 (G m c) (fun t _ => flushed_eq m hO c t) (cover m hO c)

/-- The sum of a column of 8960 rows. -/
def colSum (X : S8960x1.Idx → EReal) : EReal := ∑ i, X i

set_option maxHeartbeats 1000000 in
/-- The host operations after the call: the result is the sum of the output column over 4096. -/
theorem tail_eq (hO : Ok m) (c : Dev nD) :
    Pipeline.afterTail pcfgs (fun _ => adm m hO) (dats m hO) 0 (V0 m) [hostOps1] c main_v80
      = fun _ => Ideal.div (0 + colSum (G m c)) (Ideal.ofBits .f32 0x45800000#32) := by
  unfold Pipeline.afterTail
  simp only [hostOps1, List.flatten_cons, List.flatten_nil, List.append_nil, List.cons_append, List.nil_append]
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v78) = G m c :=
    (Pipeline.withArrays_arr (Pipeline.pin pcfgs (fun _ => adm m hO) 0).spec (launch0 (F := Ideal)).win.arr_inj c (V0 m c)
      (fun w => (dats m hO 0 c).arrAt w (Pipeline.pin pcfgs (fun _ => adm m hO) 0).N) 6).trans (final m hO c)
  rw [hw]
  funext j
  show Ideal.div (Ideal.hostReduceAdd reducesTo_S8960x1_S_d0_1 (G m c) (Ideal.ofBits .f32 0#32) j) (Ideal.ofBits .f32 1166016512#32) = _
  rw [Ideal.hostReduceAdd_total reducesTo_S8960x1_S_d0_1 (fun b => b.elim0) (G m c) _ j, Ideal.ofBits_zero_f32]
  rfl

/-- The run, read: the result is the mean of the output column; the arguments are unchanged. -/
theorem run (hO : Ok m) : θ_run defs (onTc (τ := τ) (main (F := Ideal))) ⟨m, fun _ => 0, ρ⟩ fun r => ∀ c : Dev nD,
      r.2.mem ((c.tc : Thread nD τ).loc main_v80) = (fun _ => Ideal.div (0 + colSum (G m c)) (Ideal.ofBits .f32 0x45800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v80 (by decide : main_v80 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c)⟩) (run_main m ρ hO)

end Cert.KernelIdeal.Value

end
-- ==== Proof.KernelAnswer.lean ====
/-
  The kernel program returns the mean of the anchors' losses.

  The output column is the row function over the host's padded arrays; those rows sum to the anchors' losses; the
  host operations after the call divide the sum by 4096.
-/
import proofs.«425194_j11605001634274_3_alg».proof.Proof.Spec
import proofs.«425194_j11605001634274_3_alg».proof.Proof.HostChain
import proofs.«425194_j11605001634274_3_alg».proof.Proof.HostRead
import proofs.«425194_j11605001634274_3_alg».proof.Proof.RowFn
import proofs.«425194_j11605001634274_3_alg».proof.Proof.RowsSum
import proofs.«425194_j11605001634274_3_alg».proof.Proof.KernelValue
import Idealize.ShloMosaic.Lib.ValueIdx

set_option maxRecDepth 16384

noncomputable section

namespace Cert.KernelIdeal.Answer

open Idealize.ShloMosaic Idealize.ShloMosaic.TcCoe Idealize.SL.Sem Cert.KernelIdeal Cert.KernelIdeal.Gen ValueIdx Cert.KernelIdeal.Value

variable (m : (ℓ : Loc nD τ sig) → Buf (Elt Ideal) ℓ) (ρ : Dev nD → PrngReg)

/-- The rows of the output column, numbered. -/
def rowEquiv : S8960x1.Idx ≃ Fin 8960 where
  toFun i := ⟨(i 0).val, (i 0).isLt⟩
  invFun R := ix2 R (0 : Fin 1)
  left_inv i := by
    have h1 : (i 1).val < 1 := (i 1).isLt
    funext x
    match x with
    | ⟨0, _⟩ => rfl
    | ⟨1, _⟩ => exact Fin.ext (by show 0 = (i 1).val; omega)
  right_inv R := rfl

/-- The output column sums to the anchors' losses, when every label is a class. -/
theorem colSum_eq
    (hA : ∀ (c : Dev nD) (a : Fin 4096), (m ((c : Thread nD τ).loc main_arg1) (ix1 a)).toNat < 19) (c : Dev nD) :
    colSum (G m c) = ∑ a : Fin 4096, Cert.Spec.anchorLoss (m ((c : Thread nD τ).loc main_arg0)) (m ((c : Thread nD τ).loc main_arg1)) (m ((c : Thread nD τ).loc main_arg2)) (m ((c : Thread nD τ).loc main_arg3)) (m ((c : Thread nD τ).loc main_arg4)) a := by
  obtain rfl : c = 0 := Subsingleton.elim _ _
  unfold colSum G
  rw [HostRead.V_ancPad, HostRead.V_labPad, HostRead.V_protoPad, HostRead.V_protoLab, HostRead.V_validPad, HostRead.V_localBf, HostRead.tbl_eq m]
  rw [← RowsSum.sum_rows _ _ _ _ _ (hA 0)]
  exact Fintype.sum_equiv rowEquiv _ _ (fun i => rfl)

/-- The run, read: the result is the answer over the argument arrays; the arguments are unchanged. -/
theorem run_answer (hO : Ok m)
    (hA : ∀ (c : Dev nD) (a : Fin 4096), (m ((c : Thread nD τ).loc main_arg1) (ix1 a)).toNat < 19) :
    θ_run defs (onTc (τ := τ) (main (F := Ideal))) ⟨m, fun _ => 0, ρ⟩ fun r => ∀ c : Dev nD,
      r.2.mem ((c.tc : Thread nD τ).loc main_v80) = (fun _ => Cert.Spec.answer (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [colSum_eq m hA c, zero_add]
      rfl), (h c).2⟩) (Cert.KernelIdeal.Value.run m ρ hO)

end Cert.KernelIdeal.Answer

end
-- ==== Proof.RefValue.lean ====
/-
  The reference's result, read index by index, is the mean of the anchors' losses.
-/
import proofs.«425194_j11605001634274_3_alg».proof.Proof.Spec
import proofs.«425194_j11605001634274_3_alg».proof.Proof.Gen.ReferenceIdeal.Run
import proofs.«425194_j11605001634274_3_alg».proof.Proof.Gen.ReferenceIdeal.Read
import Idealize.ShloMosaic.PureOps.Ideal.Laws
import Idealize.ShloMosaic.Lib.ValueIdx
import Idealize.ShloMosaic.Lib.ValueIdxRank1
import Idealize.ShloMosaic.Lib.Affine

noncomputable section

namespace Cert.ReferenceIdeal.RefValue

open Idealize.ShloMosaic Idealize.ShloMosaic.TcCoe Idealize.SL.Sem Cert.ReferenceIdeal Cert.ReferenceIdeal.Gen
open Cert.ReferenceIdeal.Read Idealize.ShloMosaic.ValueIdx

/-! ### Words -/

/-- The f32 word of minus infinity is the bottom of the extended reals. -/
theorem ofBits_neg_inf : Ideal.ofBits .f32 0xFF800000#32 = ⊥ := by simp [Ideal.ofBits, Ideal.ieee]

/-- A select on a bit that is set exactly when P holds is the conditional on P. -/
theorem select_bit {α : Type} (b : BitVec 1) (P : Prop) [Decidable P] (h : b = 1#1 ↔ P) (x y : α) :
    Scalar.select b x y = if P then x else y := by
  unfold Scalar.select
  exact if_congr h rfl rfl

/-- A bit that is set exactly when P holds converts to the indicator of P. -/
theorem uitofp_bit (b : BitVec 1) (P : Prop) [Decidable P] (h : b = 1#1 ↔ P) :
    FloatOps.uitofp (F := Ideal) .f32 b = if P then (1 : EReal) else 0 := by
  by_cases hP : P
  · rw [if_pos hP, h.2 hP]; show (((1#1 : BitVec 1).toNat : ℝ) : EReal) = 1; simp
  · rw [if_neg hP, eq_zero_of_ne_one (mt h.1 hP)]; show (((0#1 : BitVec 1).toNat : ℝ) : EReal) = 0; simp

/-! ### The stages at coordinates -/

section Stages

variable (x0 : (⟨S4096x256, .f32⟩ : BufTy).Contents (Elt Ideal)) (x1 : (⟨S4096, .i32⟩ : BufTy).Contents (Elt Ideal))
  (x2 : (⟨S19x32x256, .f32⟩ : BufTy).Contents (Elt Ideal)) (x3 : (⟨S19x32, .i32⟩ : BufTy).Contents (Elt Ideal))
  (x4 : (⟨S19x2048x256, .f32⟩ : BufTy).Contents (Elt Ideal))

/-- The prototype logit of anchor a against prototype p. -/
def dp (a : Fin 4096) (p : Fin 608) : EReal :=
  Ideal.div (∑ d, x0 (ix2 a d) * Cert.Spec.protoRow x2 p d) Cert.Spec.temp

/-- The local-memory logit of anchor a against local row l. -/
def dl (a : Fin 4096) (l : Fin 38912) : EReal :=
  Ideal.div (∑ d, x0 (ix2 a d) * Cert.Spec.localRow x4 l d) Cert.Spec.temp

/-- The flattened prototype array at row p, column d. -/
theorem proto_at (p : Fin 608) (d : Fin 256) : val_main_v0 (F := Ideal) x2 (ix2 p d) = Cert.Spec.protoRow x2 p d := by
  rw [val_main_v0_apply]
  unfold Cert.Spec.protoRow
  refine congrArg x2 (funext fun e => Fin.ext ?_)
  have hp := p.isLt; have hd := d.isLt
  match e with
  | ⟨0, _⟩ => show (p.val * 256 + d.val) / 8192 = p.val / 32; omega
  | ⟨1, _⟩ => show (p.val * 256 + d.val) / 256 % 32 = p.val % 32; omega
  | ⟨2, _⟩ => show (p.val * 256 + d.val) % 256 = d.val; omega

/-- The flattened local-memory array at row l, column d. -/
theorem local_at (l : Fin 38912) (d : Fin 256) : val_main_v1 (F := Ideal) x4 (ix2 l d) = Cert.Spec.localRow x4 l d := by
  rw [val_main_v1_apply]
  unfold Cert.Spec.localRow
  refine congrArg x4 (funext fun e => Fin.ext ?_)
  have hl := l.isLt; have hd := d.isLt
  match e with
  | ⟨0, _⟩ => show (l.val * 256 + d.val) / 524288 = l.val / 2048; omega
  | ⟨1, _⟩ => show (l.val * 256 + d.val) / 256 % 2048 = l.val % 2048; omega
  | ⟨2, _⟩ => show (l.val * 256 + d.val) % 256 = d.val; omega

/-- The prototype logits. -/
theorem v14_at (a : Fin 4096) (p : Fin 608) : val_main_v14 (F := Ideal) x0 x2 (ix2 a p) = dp x0 x2 a p := by
  rw [val_main_v14_apply, val_main_v12_apply, val_main_v13_apply, val_main_cst_apply]
  unfold dp Cert.Spec.temp
  rw [Ideal.hostDivf_def, Ideal.ofBits_def]
  refine congrArg (fun s => Ideal.div s _) (Finset.sum_congr rfl fun d _ => ?_)
  rw [← proto_at]
  exact congrArg₂ (· * ·)
    (congrArg x0 (funext fun e => Fin.ext (by match e with | ⟨0, _⟩ => rfl | ⟨1, _⟩ => rfl)))
    (congrArg (val_main_v0 (F := Ideal) x2) (funext fun e => Fin.ext (by match e with | ⟨0, _⟩ => rfl | ⟨1, _⟩ => rfl)))

/-- The local-memory logits. -/
theorem v33_at (a : Fin 4096) (l : Fin 38912) : val_main_v33 (F := Ideal) x0 x4 (ix2 a l) = dl x0 x4 a l := by
  rw [val_main_v33_apply, val_main_v31_apply, val_main_v32_apply, val_main_cst_3_apply]
  unfold dl Cert.Spec.temp
  rw [Ideal.hostDivf_def, Ideal.ofBits_def]
  refine congrArg (fun s => Ideal.div s _) (Finset.sum_congr rfl fun d _ => ?_)
  rw [← local_at]
  exact congrArg₂ (· * ·)
    (congrArg x0 (funext fun e => Fin.ext (by match e with | ⟨0, _⟩ => rfl | ⟨1, _⟩ => rfl)))
    (congrArg (val_main_v1 (F := Ideal) x4) (funext fun e => Fin.ext (by match e with | ⟨0, _⟩ => rfl | ⟨1, _⟩ => rfl)))

/-- The mask bit of prototype p is set exactly when its mask word is nonzero. -/
theorem v11_at (p : Fin 608) : val_main_v11 (F := Ideal) x3 (ix1 p) = 1#1 ↔ Cert.Spec.maskWord x3 p ≠ 0#32 := by
  rw [val_main_v11_apply, val_main_v10_apply, val_main_v8_apply, val_main_v9_apply, val_main_c_apply, IntOp.cmpi_ne]
  unfold Cert.Spec.maskWord
  have e : idx_main_v8 (ix1 p) = ix2 (⟨p.val / 32, by have := p.isLt; omega⟩ : Fin 19) (⟨p.val % 32, by omega⟩ : Fin 32) :=
    funext fun e => Fin.ext (by match e with | ⟨0, _⟩ => rfl | ⟨1, _⟩ => rfl)
  rw [e]

/-- The class word of prototype p. -/
theorem v4_at (p : Fin 608) : val_main_v4 (F := Ideal) (ix1 p) = BitVec.ofNat 32 (p.val / 32) := by
  rw [val_main_v4_apply, val_main_v3_apply, val_main_v2_apply]

/-- The class word of local row l. -/
theorem v7_at (l : Fin 38912) : val_main_v7 (F := Ideal) (ix1 l) = BitVec.ofNat 32 (l.val / 2048) := by
  rw [val_main_v7_apply, val_main_v6_apply, val_main_v5_apply]

/-- The row maximum of anchor a over the kept prototypes. -/
def mx (a : Fin 4096) : EReal :=
  Finset.univ.fold max ⊥ (fun p : Fin 608 => if Cert.Spec.maskWord x3 p ≠ 0#32 then dp x0 x2 a p else ⊥)

/-- The masked logits under the maximum. -/
theorem v24_at (a : Fin 4096) (p : Fin 608) :
    val_main_v24 (F := Ideal) x0 x2 x3 (ix2 a p) = if Cert.Spec.maskWord x3 p ≠ 0#32 then dp x0 x2 a p else ⊥ := by
  rw [val_main_v24_apply, val_main_call0_v0_apply, val_main_v23_apply, val_main_call0_v1_apply, val_main_cst_0_apply,
    v14_at, Ideal.ofBits_def, ofBits_neg_inf]
  refine select_bit _ _ ?_ _ _
  rw [← v11_at]
  exact Eq.congr_left (congrArg (val_main_v11 (F := Ideal) x3) (funext fun e => Fin.ext (by match e with | ⟨0, _⟩ => rfl)))

/-- The max-reduce over the prototype axis. -/
theorem v25_at (a : Fin 4096) : val_main_v25 (F := Ideal) x0 x2 x3 (ix1 a) = mx x0 x2 x3 a := by
  unfold val_main_v25 mx
  rw [Host.reduce_eq_fold_single (a := (1 : Fin S4096x608.rank)) FloatOps.maximumf _ _ reducesTo_S4096x608_S4096_d1 (by decide) h_S_ (ix1 a),
    val_main_cst_1_apply, Ideal.ofBits_def, ofBits_neg_inf]
  refine Finset.fold_congr fun p _ => ?_
  exact (congrArg (val_main_v24 (F := Ideal) x0 x2 x3)
    (funext fun e => Fin.ext (by match e with | ⟨0, _⟩ => rfl | ⟨1, _⟩ => rfl))).trans (v24_at x0 x2 x3 a p)

/-- The maximum broadcast along the prototype axis. -/
theorem v27_at (a : Fin 4096) (p : Fin 608) : val_main_v27 (F := Ideal) x0 x2 x3 (ix2 a p) = mx x0 x2 x3 a := by
  rw [val_main_v27_apply, val_main_v26_apply, ← v25_at]
  exact congrArg (val_main_v25 (F := Ideal) x0 x2 x3) (funext fun e => Fin.ext (by match e with | ⟨0, _⟩ => rfl))

/-- The maximum broadcast along the local-memory axis. -/
theorem v40_at (a : Fin 4096) (l : Fin 38912) : val_main_v40 (F := Ideal) x0 x2 x3 (ix2 a l) = mx x0 x2 x3 a := by
  rw [val_main_v40_apply, val_main_v26_apply, ← v25_at]
  exact congrArg (val_main_v25 (F := Ideal) x0 x2 x3) (funext fun e => Fin.ext (by match e with | ⟨0, _⟩ => rfl))

/-- The shifted prototype logits. -/
theorem v28_at (a : Fin 4096) (p : Fin 608) :
    val_main_v28 (F := Ideal) x0 x2 x3 (ix2 a p) = dp x0 x2 a p - mx x0 x2 x3 a := by
  rw [val_main_v28_apply, v14_at, v27_at, Ideal.subf_def]

/-- The positive bit: the anchor's label is the prototype's class and the prototype is kept. -/
theorem v22_at (a : Fin 4096) (p : Fin 608) :
    val_main_v22 (F := Ideal) x1 x3 (ix2 a p) = 1#1 ↔ Cert.Spec.refPos (x1 (ix1 a)) (Cert.Spec.maskWord x3) p := by
  rw [val_main_v22_apply, IntOp.andi_eq_one, val_main_v19_apply, IntOp.cmpi_eq, val_main_v17_apply, val_main_v15_apply,
    val_main_v18_apply, val_main_v16_apply, val_main_v21_apply, val_main_v20_apply]
  unfold Cert.Spec.refPos
  refine and_congr ?_ ?_
  · rw [← v4_at p]
    exact Eq.congr (congrArg x1 (funext fun e => Fin.ext (by match e with | ⟨0, _⟩ => rfl)))
      (congrArg (val_main_v4 (F := Ideal)) (funext fun e => Fin.ext (by match e with | ⟨0, _⟩ => rfl)))
  · rw [← v11_at]
    exact Eq.congr_left (congrArg (val_main_v11 (F := Ideal) x3) (funext fun e => Fin.ext (by match e with | ⟨0, _⟩ => rfl)))

/-- The local rows' label bit: the anchor's label is the row's class. -/
theorem v38_at (a : Fin 4096) (l : Fin 38912) :
    val_main_v38 (F := Ideal) x1 (ix2 a l) = 1#1 ↔ x1 (ix1 a) = BitVec.ofNat 32 (l.val / 2048) := by
  rw [val_main_v38_apply, IntOp.cmpi_eq, val_main_v36_apply, val_main_v34_apply, val_main_v37_apply, val_main_v35_apply,
    ← v7_at l]
  exact Eq.congr (congrArg x1 (funext fun e => Fin.ext (by match e with | ⟨0, _⟩ => rfl)))
    (congrArg (val_main_v7 (F := Ideal)) (funext fun e => Fin.ext (by match e with | ⟨0, _⟩ => rfl)))

/-- The negatives' mass of anchor a: the local rows of the label's class. -/
def ng (a : Fin 4096) : EReal :=
  ∑ l : Fin 38912, Ideal.exp (dl x0 x4 a l - mx x0 x2 x3 a)
    * (if x1 (ix1 a) = BitVec.ofNat 32 (l.val / 2048) then (1 : EReal) else 0)

/-- The sum over the local-memory axis. -/
theorem v44_at (a : Fin 4096) : val_main_v44 (F := Ideal) x0 x1 x2 x3 x4 (ix1 a) = ng x0 x1 x2 x3 x4 a := by
  rw [val_main_v44_apply, val_main_cst_4_apply, Ideal.ofBits_def, Ideal.ofBits_zero_f32, zero_add]
  unfold ng
  refine Finset.sum_congr rfl fun l _ => ?_
  have e : idx_main_v44 (ix1 a) l = ix2 a l := funext fun e => Fin.ext (by match e with | ⟨0, _⟩ => rfl | ⟨1, _⟩ => rfl)
  rw [e, val_main_v43_apply, val_main_v42_apply, val_main_v41_apply, val_main_v39_apply, v33_at, v40_at, Ideal.mulf_def,
    Ideal.hostUnary_exp_def, Ideal.subf_def, uitofp_bit _ _ (v38_at x1 a l)]

/-- The positives' exponentials. -/
theorem v30_at (a : Fin 4096) (p : Fin 608) :
    val_main_v30 (F := Ideal) x0 x1 x2 x3 (ix2 a p)
      = Ideal.exp (if Cert.Spec.refPos (x1 (ix1 a)) (Cert.Spec.maskWord x3) p then dp x0 x2 a p - mx x0 x2 x3 a else ⊥) := by
  rw [val_main_v30_apply, val_main_v29_apply, val_main_call1_v0_apply, val_main_cst_2_apply, v28_at, Ideal.hostUnary_exp_def,
    Ideal.ofBits_def, ofBits_neg_inf, select_bit _ _ (v22_at x1 x3 a p)]

/-- The log-probabilities. -/
theorem v51_at (a : Fin 4096) (p : Fin 608) :
    val_main_v51 (F := Ideal) x0 x1 x2 x3 x4 (ix2 a p)
      = (dp x0 x2 a p - mx x0 x2 x3 a)
        - Ideal.log (Ideal.exp (if Cert.Spec.refPos (x1 (ix1 a)) (Cert.Spec.maskWord x3) p then dp x0 x2 a p - mx x0 x2 x3 a else ⊥)
            + ng x0 x1 x2 x3 x4 a + Cert.Spec.eps) := by
  have e : idx_main_v45 (idx_main_v46 (ix2 a p)) = ix1 a := funext fun e => Fin.ext (by match e with | ⟨0, _⟩ => rfl)
  rw [val_main_v51_apply, val_main_v50_apply, val_main_v49_apply, val_main_v47_apply, val_main_v48_apply, val_main_cst_5_apply,
    val_main_v46_apply, val_main_v45_apply, e, v44_at, v28_at, v30_at]
  simp only [Ideal.subf_def, Ideal.hostUnary_log_def, Ideal.addf_def, Ideal.ofBits_def]
  rfl

/-- The positives' indicator. -/
theorem v52_at (a : Fin 4096) (p : Fin 608) :
    val_main_v52 (F := Ideal) x1 x3 (ix2 a p)
      = if Cert.Spec.refPos (x1 (ix1 a)) (Cert.Spec.maskWord x3) p then (1 : EReal) else 0 := by
  rw [val_main_v52_apply]; exact uitofp_bit _ _ (v22_at x1 x3 a p)

/-- Anchor a's negated quotient is its loss. -/
theorem v59_at (a : Fin 4096) :
    val_main_v59 (F := Ideal) x0 x1 x2 x3 x4 (ix1 a) = Cert.Spec.anchorLoss x0 x1 x2 x3 x4 a := by
  have e54 : ∀ k, idx_main_v54 (ix1 a) k = ix2 a k :=
    fun k => funext fun e => Fin.ext (by match e with | ⟨0, _⟩ => rfl | ⟨1, _⟩ => rfl)
  have e55 : ∀ k, idx_main_v55 (ix1 a) k = ix2 a k :=
    fun k => funext fun e => Fin.ext (by match e with | ⟨0, _⟩ => rfl | ⟨1, _⟩ => rfl)
  rw [val_main_v59_apply, val_main_v58_apply, val_main_v54_apply, val_main_v57_apply, val_main_v55_apply, val_main_v56_apply,
    val_main_cst_6_apply, val_main_cst_7_apply, val_main_cst_8_apply]
  simp only [e54, e55, val_main_v53_apply, v52_at, v51_at, Ideal.hostNegf_def, Ideal.negf_def, Ideal.hostDivf_def, Ideal.addf_def,
    Ideal.mulf_def, Ideal.ofBits_def, Ideal.ofBits_zero_f32, zero_add]
  rfl

/-- The mean over the anchors is the answer. -/
theorem v61_at (i : S_.Idx) : val_main_v61 (F := Ideal) x0 x1 x2 x3 x4 i = Cert.Spec.answer x0 x1 x2 x3 x4 := by
  rw [val_main_v61_apply, val_main_v60_apply, val_main_cst_9_apply, val_main_cst_10_apply]
  simp only [Ideal.hostDivf_def, Ideal.ofBits_def, Ideal.ofBits_zero_f32, zero_add]
  unfold Cert.Spec.answer Cert.Spec.total
  have hsum : (∑ j : S4096.Idx, val_main_v59 (F := Ideal) x0 x1 x2 x3 x4 j)
      = ∑ a : Fin 4096, Cert.Spec.anchorLoss x0 x1 x2 x3 x4 a := by
    rw [← Equiv.sum_comp (idxEquiv1 (n := 4096)).symm]
    exact Finset.sum_congr rfl fun a _ => v59_at x0 x1 x2 x3 x4 a
  rw [hsum]

end Stages

/-- The reference run's result term is the constant array holding the answer over the argument arrays. -/
theorem res_eq (m : (ℓ : Loc nD τ sig) → Buf (Elt Ideal) ℓ) (c : Dev nD) :
    Cert.ReferenceIdeal.Value.res_main_v61 (F := Ideal) m c
      = fun _ => Cert.Spec.answer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [val_main_v61_eq]
  funext i
  exact v61_at _ _ _ _ _ i

end Cert.ReferenceIdeal.RefValue

end
-- ==== Proof.lean ====
/-
  The certificate: the contrastive loss of 4096 anchors against 608 prototypes and 38912 local-memory rows, computed by
  a kernel over anchors grouped by class into 35 tiles of 256 padded rows, equals the plain reference over the
  extended reals.

  Per anchor both programs compute  − (Σ over the kept prototypes p of the anchor's class of (dp − mx − log (exp (dp − mx)
  + ng + eps))) / (their number + eps),  dp the prototype logits over the temperature, mx their maximum over the kept
  prototypes, ng the sum over the local rows of the anchor's class of exp (dl − mx). The kernel multiplies by the exact
  reciprocal of the temperature's word where the reference divides by it; fills with bottom where the reference fills
  with −∞; scores each anchor only against the local rows of its own class, chosen by a table of the tiles' classes;
  and sums the padded rows, of which every row no anchor sits at contributes exactly zero. The grouping is a scatter
  at pairwise distinct rows (class start plus rank within the class), which needs every label to be one of the 19
  classes: the precondition's conjunct. No finiteness is used: every law applied holds on all extended reals.
-/
import proofs.«425194_j11605001634274_3_alg».proof.Defs
import proofs.«425194_j11605001634274_3_alg».proof.Proof.Gen.Kernel.Frame
import proofs.«425194_j11605001634274_3_alg».proof.Proof.Gen.KernelIdeal.Frame
import proofs.«425194_j11605001634274_3_alg».proof.Proof.Gen.ReferenceIdeal.Run
import proofs.«425194_j11605001634274_3_alg».proof.Proof.Gen.Pre_finite_inputs
import proofs.«425194_j11605001634274_3_alg».proof.Proof.OkKernel
import proofs.«425194_j11605001634274_3_alg».proof.Proof.OkKernelIdeal
import proofs.«425194_j11605001634274_3_alg».proof.Proof.PreFacts
import proofs.«425194_j11605001634274_3_alg».proof.Proof.KernelAnswer
import proofs.«425194_j11605001634274_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the table's words are clipped into the classes, so every block
    the table addresses lies inside the local memory, for any launch memory. -/
theorem frame_k : Cert.frame_Kernel := fun m ρ _ => Cert.Kernel.Gen.frame m ρ (Cert.Kernel.OkPre.ok m)

/-- The same for the idealized kernel. -/
theorem frame_ki : Cert.frame_KernelIdeal := fun m ρ _ => Cert.KernelIdeal.Gen.frame m ρ (Cert.KernelIdeal.OkPre.ok m)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three named constants: the reciprocal of the temperature's word (twice) and the fill that stands for −∞. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "neg_big" .f32 0xFF333332#32 ⊥ rfl,
   IdealRules.named_const.statement Cert.KernelIdeal.κ "inv_temp" .f32 0x41200000#32 ((134217728 / 13421773 : ℝ) : EReal) rfl⟩

/-- Both idealized programs end at the mean of the anchors' losses over the argument arrays. -/
theorem algebraic : Cert.algebraic_KernelIdeal_ReferenceIdeal := by
  intro m ρ m' ρ' hpre hagree
  have hA : ∀ (c : Dev Cert.KernelIdeal.nD) (a : Fin 4096),
      (m ((c : Thread Cert.KernelIdeal.nD Cert.KernelIdeal.τ).loc Cert.KernelIdeal.main_arg1) (ValueIdx.ix1 a)).toNat < 19 :=
    fun c a => Cert.PreFacts.labels_lt _ _ _ _ _ (hpre c) a
  refine ⟨_, Cert.KernelIdeal.Answer.run_answer m ρ (Cert.KernelIdeal.OkPre.ok m) hA, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
